-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part2 {F : FTy → Type} [FloatOps F] (main_v28 : IVec S_ 1) (main_v33 : IVec S2x1600000 1) : IVec S_ 1 :=
  let main_c_12 : IVec S_ 1 := constantI S_ 1 1#1
  let main_v34 : IVec S_ 1 := (fun x v => Host.reduce IntOp.andi x v reducesTo_S2x1600000_S_d0_1 h_S_) main_v33 main_c_12
  let main_v35 : IVec S_ 1 := andi main_v28 main_v34
  main_v35

def fn_part1 {F : FTy → Type} [FloatOps F] (main_arg1 : IVec S2x1600000 32) (main_arg5 : FVec F S64x32 .f32) (main_arg6 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_c_10 : IVec S_ 32 := constantI S_ 32 0#32
  let main_v29 : IVec S2x1600000 32 := broadcastInDim S2x1600000 ![] bcast_S_S2x1600000 main_c_10
  let main_v30 : IVec S2x1600000 1 := cmpi .sge main_arg1 main_v29
  let main_c_11 : IVec S_ 32 := constantI S_ 32 100000#32
  let main_v31 : IVec S2x1600000 32 := broadcastInDim S2x1600000 ![] bcast_S_S2x1600000 main_c_11
  let main_v32 : IVec S2x1600000 1 := cmpi .slt main_arg1 main_v31
  let main_v33 : IVec S2x1600000 1 := andi main_v30 main_v32
  fn_part2 (F := F) main_v28 main_v33

def fn {F : FTy → Type} [FloatOps F] (main_arg0 : FVec F S100000x128 .f32) (main_arg1 : IVec S2x1600000 32) (main_arg2 : FVec F S1600000 .f32) (main_arg3 : FVec F S128x64 .f32) (main_arg4 : FVec F S64 .f32) (main_arg5 : FVec F S64x32 .f32) (main_arg6 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1888 : Shape := ⟨1, ![1888]⟩
abbrev S1701888 : Shape := ⟨1, ![1701888]⟩
abbrev S1701888x1 : Shape := ⟨2, ![1701888, 1]⟩
abbrev S128x100000 : Shape := ⟨2, ![128, 100000]⟩
abbrev S128x100352 : Shape := ⟨2, ![128, 100352]⟩
abbrev S64x128 : Shape := ⟨2, ![64, 128]⟩
abbrev S64x100352 : Shape := ⟨2, ![64, 100352]⟩
abbrev S128x2048 : Shape := ⟨2, ![128, 2048]⟩
abbrev S64x2048 : Shape := ⟨2, ![64, 2048]⟩
abbrev S1x1701888 : Shape := ⟨2, ![1, 1701888]⟩
abbrev S64x1701888 : Shape := ⟨2, ![64, 1701888]⟩
abbrev S1x2048 : Shape := ⟨2, ![1, 2048]⟩
abbrev S2048x1 : Shape := ⟨2, ![2048, 1]⟩
abbrev S2048x2048 : Shape := ⟨2, ![2048, 2048]⟩
abbrev S64x1 : Shape := ⟨2, ![64, 1]⟩
abbrev S32x64 : Shape := ⟨2, ![32, 64]⟩
abbrev S32x100352 : Shape := ⟨2, ![32, 100352]⟩
abbrev S32x2048 : Shape := ⟨2, ![32, 2048]⟩
abbrev S32x1701888 : Shape := ⟨2, ![32, 1701888]⟩
abbrev S32x1 : Shape := ⟨2, ![32, 1]⟩
abbrev S32x100000 : Shape := ⟨2, ![32, 100000]⟩
abbrev S100000x32 : Shape := ⟨2, ![100000, 32]⟩

abbrev nBuf : Space → Nat
  | .hbm => 79
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .i32⟩
  | .hbm, ⟨18, _⟩ => ⟨S1888, .i32⟩
  | .hbm, ⟨19, _⟩ => ⟨S1701888, .i32⟩
  | .hbm, ⟨20, _⟩ => ⟨S_, .i32⟩
  | .hbm, ⟨21, _⟩ => ⟨S1888, .i32⟩
  | .hbm, ⟨22, _⟩ => ⟨S1701888, .i32⟩
  | .hbm, ⟨23, _⟩ => ⟨S_, .f32⟩
  | .hbm, ⟨24, _⟩ => ⟨S1888, .f32⟩
  | .hbm, ⟨25, _⟩ => ⟨S1701888, .f32⟩
  | .hbm, ⟨26, _⟩ => ⟨S_, .f32⟩
  | .hbm, ⟨27, _⟩ => ⟨S100000, .f32⟩
  | .hbm, ⟨28, _⟩ => ⟨S1701888x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1701888, .i32⟩
  | .hbm, ⟨39, _⟩ => ⟨S1701888, .i1⟩
  | .hbm, ⟨40, _⟩ => ⟨S_, .i32⟩
  | .hbm, ⟨41, _⟩ => ⟨S1701888, .i32⟩
  | .hbm, ⟨42, _⟩ => ⟨S1701888, .i32⟩
  | .hbm, ⟨43, _⟩ => ⟨S1701888, .i32⟩
  | .hbm, ⟨44, _⟩ => ⟨S1701888x1, .i32⟩
  | .hbm, ⟨45, _⟩ => ⟨S1701888, .f32⟩
  | .hbm, ⟨46, _⟩ => ⟨S1701888, .f32⟩
  | .hbm, ⟨47, _⟩ => ⟨S_, .i32⟩
  | .hbm, ⟨48, _⟩ => ⟨S1701888, .i32⟩
  | .hbm, ⟨49, _⟩ => ⟨S1701888, .i1⟩
  | .hbm, ⟨50, _⟩ => ⟨S_, .i32⟩
  | .hbm, ⟨51, _⟩ => ⟨S1701888, .i32⟩
  | .hbm, ⟨52, _⟩ => ⟨S1701888, .i32⟩
  | .hbm, ⟨53, _⟩ => ⟨S1701888, .i32⟩
  | .hbm, ⟨54, _⟩ => ⟨S1701888x1, .i32⟩
  | .hbm, ⟨55, _⟩ => ⟨S1701888, .f32⟩
  | .hbm, ⟨56, _⟩ => ⟨S1701888, .f32⟩
  | .hbm, ⟨57, _⟩ => ⟨S128x100000, .f32⟩
  | .hbm, ⟨58, _⟩ => ⟨S_, .i32⟩
  | .hbm, ⟨59, _⟩ => ⟨S_, .f32⟩
  | .hbm, ⟨60, _⟩ => ⟨S128x100352, .f32⟩
  | .hbm, ⟨61, _⟩ => ⟨S64x128, .f32⟩
  | .hbm, ⟨62, _⟩ => ⟨S64x100352, .bf16⟩
  | .hbm, ⟨63, _⟩ => ⟨S1x1701888, .i32⟩
  | .hbm, ⟨64, _⟩ => ⟨S1x1701888, .f32⟩
  | .hbm, ⟨65, _⟩ => ⟨S64x1701888, .f32⟩
  | .hbm, ⟨66, _⟩ => ⟨S1701888x1, .i32⟩
  | .hbm, ⟨67, _⟩ => ⟨S64x1, .f32⟩
  | .hbm, ⟨68, _⟩ => ⟨S64x100352, .f32⟩
  | .hbm, ⟨69, _⟩ => ⟨S32x64, .f32⟩
  | .hbm, ⟨70, _⟩ => ⟨S32x100352, .bf16⟩
  | .hbm, ⟨71, _⟩ => ⟨S1x1701888, .i32⟩
  | .hbm, ⟨72, _⟩ => ⟨S1x1701888, .f32⟩
  | .hbm, ⟨73, _⟩ => ⟨S32x1701888, .f32⟩
  | .hbm, ⟨74, _⟩ => ⟨S1701888x1, .i32⟩
  | .hbm, ⟨75, _⟩ => ⟨S32x1, .f32⟩
  | .hbm, ⟨76, _⟩ => ⟨S32x100352, .f32⟩
  | .hbm, ⟨77, _⟩ => ⟨S32x100000, .f32⟩
  | .hbm, ⟨78, _⟩ => ⟨S100000x32, .f32⟩
  | .local _ .vmem, ⟨0, _⟩ => ⟨S128x2048, .f32⟩
  | .local _ .vmem, ⟨1, _⟩ => ⟨S128x2048, .f32⟩
  | .local _ .vmem, ⟨2, _⟩ => ⟨S64x128, .f32⟩
  | .local _ .vmem, ⟨3, _⟩ => ⟨S64x2048, .bf16⟩
  | .local _ .vmem, ⟨4, _⟩ => ⟨S64x2048, .bf16⟩
  | .local _ .vmem, ⟨5, _⟩ => ⟨S64x100352, .bf16⟩
  | .local _ .vmem, ⟨6, _⟩ => ⟨S1x2048, .i32⟩
  | .local _ .vmem, ⟨7, _⟩ => ⟨S1x2048, .i32⟩
  | .local _ .vmem, ⟨8, _⟩ => ⟨S1x2048, .f32⟩
  | .local _ .vmem, ⟨9, _⟩ => ⟨S1x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S2048x1, .i32⟩
  | .local _ .vmem, ⟨15, _⟩ => ⟨S2048x1, .i32⟩
  | .local _ .vmem, ⟨16, _⟩ => ⟨S64x1, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | .local _ .vmem, ⟨20, _⟩ => ⟨S64x2048, .f32⟩
  | .local _ .vmem, ⟨21, _⟩ => ⟨S32x64, .f32⟩
  | .local _ .vmem, ⟨22, _⟩ => ⟨S32x2048, .bf16⟩
  | .local _ .vmem, ⟨23, _⟩ => ⟨S32x2048, .bf16⟩
  | .local _ .vmem, ⟨24, _⟩ => ⟨S32x100352, .bf16⟩
  | .local _ .vmem, ⟨25, _⟩ => ⟨S1x2048, .i32⟩
  | .local _ .vmem, ⟨26, _⟩ => ⟨S1x2048, .i32⟩
  | .local _ .vmem, ⟨27, _⟩ => ⟨S1x2048, .f32⟩
  | .local _ .vmem, ⟨28, _⟩ => ⟨S1x2048, .f32⟩
  | .local _ .vmem, ⟨29, _⟩ => ⟨S32x2048, .f32⟩
  | .local _ .vmem, ⟨30, _⟩ => ⟨S32x2048, .f32⟩
  | .local _ .vmem, ⟨31, _⟩ => ⟨S32x2048, .f32⟩
  | .local _ .vmem, ⟨32, _⟩ => ⟨S32x2048, .f32⟩
  | .local _ .vmem, ⟨33, _⟩ => ⟨S2048x1, .i32⟩
  | .local _ .vmem, ⟨34, _⟩ => ⟨S2048x1, .i32⟩
  | .local _ .vmem, ⟨35, _⟩ => ⟨S32x1, .f32⟩
  | .local _ .vmem, ⟨36, _⟩ => ⟨S32x2048, .f32⟩
  | .local _ .vmem, ⟨37, _⟩ => ⟨S32x2048, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_9 : Ref sig .tc := ⟨.hbm, 58, rfl⟩
abbrev main_call1_v0 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc4_stg3_0 : Ref sig .tc := ⟨.vmem, 29, rfl⟩
abbrev cc4_stg3_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem1_0 : DmaSem sig := 25
abbrev cc4_sem1_1 : DmaSem sig := 26
abbrev cc4_sem2_0 : DmaSem sig := 27
abbrev cc4_sem2_1 : DmaSem sig := 28
abbrev cc4_sem3_0 : DmaSem sig := 29
abbrev cc4_sem3_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem3_0 : DmaSem sig := 36
abbrev cc5_sem3_1 : DmaSem sig := 37

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![831], ![false]⟩

@[reducible] def k1_t1_loop : Scf.Loop 32 :=
  let c0_i32 : BitVec 32 := 0#32
  let c49_i32 : BitVec 32 := 49#32
  let v1 : BitVec 32 := Scalar.addi c0_i32 c49_i32
  let c1_i32 : BitVec 32 := 1#32
  ⟨c0_i32, v1, c1_i32⟩
def k1_mult1 (k1_t1 : Fin k1_t1_loop.trips) : BitVec 32 :=
  let c0_i32 : BitVec 32 := 0#32
  let c1_i32 : BitVec 32 := 1#32
  let arg5 : BitVec 32 := Scf.iv c0_i32 c1_i32 k1_t1
  let c2048_i32 : BitVec 32 := 2048#32
  let v8 : BitVec 32 := Scalar.muli arg5 c2048_i32
  v8
def k1_off1 (k1_t1 : Fin k1_t1_loop.trips) : Fin 2 → Nat :=
  let c0_4 : Index := 0#32
  let c0_i32 : BitVec 32 := 0#32
  let c1_i32 : BitVec 32 := 1#32
  let arg5 : BitVec 32 := Scf.iv c0_i32 c1_i32 k1_t1
  let c2048_i32 : BitVec 32 := 2048#32
  let v8 : BitVec 32 := Scalar.muli arg5 c2048_i32
  let v9 : BitVec 32 := v8
  let v10 : Index := Scalar.indexCast v9
  ![0, v10.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S64x100352 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![49, 831], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S64x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S64x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![49], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S64x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S32x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![831], ![false]⟩

@[reducible] def k4_t1_loop : Scf.Loop 32 :=
  let c0_i32 : BitVec 32 := 0#32
  let c49_i32 : BitVec 32 := 49#32
  let v1 : BitVec 32 := Scalar.addi c0_i32 c49_i32
  let c1_i32 : BitVec 32 := 1#32
  ⟨c0_i32, v1, c1_i32⟩
def k4_mult1 (k4_t1 : Fin k4_t1_loop.trips) : BitVec 32 :=
  let c0_i32 : BitVec 32 := 0#32
  let c1_i32 : BitVec 32 := 1#32
  let arg5 : BitVec 32 := Scf.iv c0_i32 c1_i32 k4_t1
  let c2048_i32 : BitVec 32 := 2048#32
  let v8 : BitVec 32 := Scalar.muli arg5 c2048_i32
  v8
def k4_off1 (k4_t1 : Fin k4_t1_loop.trips) : Fin 2 → Nat :=
  let c0_4 : Index := 0#32
  let c0_i32 : BitVec 32 := 0#32
  let c1_i32 : BitVec 32 := 1#32
  let arg5 : BitVec 32 := Scf.iv c0_i32 c1_i32 k4_t1
  let c2048_i32 : BitVec 32 := 2048#32
  let v8 : BitVec 32 := Scalar.muli arg5 c2048_i32
  let v9 : BitVec 32 := v8
  let v10 : Index := Scalar.indexCast v9
  ![0, v10.toNat]
def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S32x100352 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S1x2048 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S32x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![49, 831], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage5_0 : Fin 2 → Memref sig .tc .vmem S32x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S2048x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S32x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S32x2048 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S1888 : S_.BroadcastsInDim S1888 (![] : Fin 0 → Fin S1888.rank)
  concatenates_S1700000_S1888_S1701888_d0 : Shape.Concatenates [S1700000, S1888] S1701888 0
  bcast_S1701888_S1701888x1_0 : S1701888.BroadcastsInDim S1701888x1 (![0] : Fin 1 → Fin S1701888x1.rank)
  bcast_S_S1701888 : S_.BroadcastsInDim S1701888 (![] : Fin 0 → Fin S1701888.rank)
  transposes_S100000x128_S128x100000_1_0 : S100000x128.Transposes [1, 0] S128x100000
  pads_S128x100000_S128x100352_000_03520 : S128x100000.Pads (![0, 0] : Fin 2 → Nat) ![0, 352] ![0, 0] S128x100352
  h_S_ : 0 < S_.numel
  transposes_S128x64_S64x128_1_0 : S128x64.Transposes [1, 0] S64x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x2048_S64x2048_0_0 : ∀ a, (![0, 0] : Fin 2 → Nat) a + S64x2048.size a ≤ S64x2048.size a
  h_S64x2048 : 0 < S64x2048.numel
  packedbf16_S64x2048_S64x2048_0_0 : (Rect.unit (s := S64x2048) ![0, 0] S64x2048.size inb_S64x2048_S64x2048_0_0).PackedRows (EltTy.packing .bf16)
  shapeCasts_S1701888_S1x1701888 : S1701888.ShapeCasts S1x1701888
  shapeCasts_S64x2048_S64x2048 : S64x2048.ShapeCasts S64x2048
  iota_S2048x1_d0_w32 : S2048x1.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  natLt_1_32 : 1 < 32
  broadcasts_S1x2048_S64x2048 : S1x2048.Broadcasts S64x2048
  shapeCasts_S1701888_S1701888x1 : S1701888.ShapeCasts S1701888x1
  shapeCasts_S64_S64x1 : S64.ShapeCasts S64x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S1x2048_d1_w32 : S1x2048.Iotas .tc 32 [1]
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x2048 : S64x1.Broadcasts S64x2048
  transposes_S64x32_S32x64_1_0 : S64x32.Transposes [1, 0] S32x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S32x2048_S32x2048_0_0 : ∀ a, (![0, 0] : Fin 2 → Nat) a + S32x2048.size a ≤ S32x2048.size a
  h_S32x2048 : 0 < S32x2048.numel
  packedbf16_S32x2048_S32x2048_0_0 : (Rect.unit (s := S32x2048) ![0, 0] S32x2048.size inb_S32x2048_S32x2048_0_0).PackedRows (EltTy.packing .bf16)
  shapeCasts_S32x2048_S32x2048 : S32x2048.ShapeCasts S32x2048
  broadcasts_S1x2048_S32x2048 : S1x2048.Broadcasts S32x2048
  shapeCasts_S32_S32x1 : S32.ShapeCasts S32x1
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x2048 : S32x1.Broadcasts S32x2048
  slices_S32x100352_S32x100000_0_0 : S32x100352.Slices ![0, 0] S32x100000
  transposes_S32x100000_S100000x32_1_0 : S32x100000.Transposes [1, 0] S100000x32
  scatter_S100000_S1701888x1_S1701888_n_0_0_1_wf : ScatterDims.WF S100000 S1701888x1 S1701888 [] [0] [0] 1
  gather_S100000_S1701888x1_S1701888_n_0_n_n_0_1_1_wf : GatherDims.WF S100000 S1701888x1 S1701888 [] [0] [] [0] [] 1 ![1]
  dot_S64x128_S128x2048_S64x2048_1_0_0_1_n_n_wf : DotDims.WF S64x128 S128x2048 S64x2048 [1] [0] [0] [1] [] []
  dot_S64x2048_S2048x2048_S64x2048_1_0_0_1_n_n_wf : DotDims.WF S64x2048 S2048x2048 S64x2048 [1] [0] [0] [1] [] []
  dot_S32x64_S64x2048_S32x2048_1_0_0_1_n_n_wf : DotDims.WF S32x64 S64x2048 S32x2048 [1] [0] [0] [1] [] []
  dot_S32x2048_S2048x2048_S32x2048_1_0_0_1_n_n_wf : DotDims.WF S32x2048 S2048x2048 S32x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S128x100352.size a
  hwx0_0 : ∀ i : grid0.Coords, EltTy.bits .f32 = 32 ∨ (Rect.block (s := S128x100352) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x100352.size a
  hwx0_2 : ∀ i : grid0.Coords, EltTy.bits .bf16 = 32 ∨ (Rect.block (s := S64x100352) S64x2048.size (cc0_transform_2 i) (hinb0_2 i)).WholeWords (EltTy.packing .bf16)
  hrank1 : 0 < grid1.rank
  k1_t1_ok : k1_t1_loop.OK
  k1_mult1_dvd : ∀ k1_t1 : Fin k1_t1_loop.trips, 2048 ∣ (k1_mult1 k1_t1).toNat
  k1_off1_inb : ∀ k1_t1 : Fin k1_t1_loop.trips, ∀ a, (k1_off1 k1_t1) a + S64x2048.size a ≤ S64x100352.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x100352.size a ≤ S64x100352.size a
  hwx1_0 : ∀ i : grid1.Coords, EltTy.bits .bf16 = 32 ∨ (Rect.block (s := S64x100352) S64x100352.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x1701888.size a
  hwx1_1 : ∀ i : grid1.Coords, EltTy.bits .i32 = 32 ∨ (Rect.block (s := S1x1701888) S1x2048.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x1701888.size a
  hwx1_2 : ∀ i : grid1.Coords, EltTy.bits .f32 = 32 ∨ (Rect.block (s := S1x1701888) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x2048.size a ≤ S64x1701888.size a
  hwx1_3 : ∀ i : grid1.Coords, EltTy.bits .f32 = 32 ∨ (Rect.block (s := S64x1701888) S64x2048.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x2048.size a ≤ S64x1701888.size a
  hwx2_0 : ∀ i : grid2.Coords, EltTy.bits .f32 = 32 ∨ (Rect.block (s := S64x1701888) S64x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S1701888x1.size a
  hwx2_1 : ∀ i : grid2.Coords, EltTy.bits .i32 = 32 ∨ (Rect.block (s := S1701888x1) S2048x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x2048.size a ≤ S64x100352.size a
  hwx2_3 : ∀ i : grid2.Coords, EltTy.bits .f32 = 32 ∨ (Rect.block (s := S64x100352) S64x2048.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S64x2048.size a ≤ S64x100352.size a
  hwx3_0 : ∀ i : grid3.Coords, EltTy.bits .f32 = 32 ∨ (Rect.block (s := S64x100352) S64x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x64.size a ≤ S32x64.size a
  hwx3_1 : ∀ i : grid3.Coords, EltTy.bits .f32 = 32 ∨ (Rect.block (s := S32x64) S32x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S32x2048.size a ≤ S32x100352.size a
  hwx3_2 : ∀ i : grid3.Coords, EltTy.bits .bf16 = 32 ∨ (Rect.block (s := S32x100352) S32x2048.size (cc3_transform_2 i) (hinb3_2 i)).WholeWords (EltTy.packing .bf16)
  hrank4 : 0 < grid4.rank
  k4_t1_ok : k4_t1_loop.OK
  k4_mult1_dvd : ∀ k4_t1 : Fin k4_t1_loop.trips, 2048 ∣ (k4_mult1 k4_t1).toNat
  k4_off1_inb : ∀ k4_t1 : Fin k4_t1_loop.trips, ∀ a, (k4_off1 k4_t1) a + S32x2048.size a ≤ S32x100352.size a
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S32x100352.size a ≤ S32x100352.size a
  hwx4_0 : ∀ i : grid4.Coords, EltTy.bits .bf16 = 32 ∨ (Rect.block (s := S32x100352) S32x100352.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x2048.size a ≤ S1x1701888.size a
  hwx4_1 : ∀ i : grid4.Coords, EltTy.bits .i32 = 32 ∨ (Rect.block (s := S1x1701888) S1x2048.size (cc4_transform_1 i) (hinb4_1 i)).WholeWords (EltTy.packing .i32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x2048.size a ≤ S1x1701888.size a
  hwx4_2 : ∀ i : grid4.Coords, EltTy.bits .f32 = 32 ∨ (Rect.block (s := S1x1701888) S1x2048.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S32x2048.size a ≤ S32x1701888.size a
  hwx4_3 : ∀ i : grid4.Coords, EltTy.bits .f32 = 32 ∨ (Rect.block (s := S32x1701888) S32x2048.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S32x2048.size a ≤ S32x1701888.size a
  hwx5_0 : ∀ i : grid5.Coords, EltTy.bits .f32 = 32 ∨ (Rect.block (s := S32x1701888) S32x2048.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x1.size a ≤ S1701888x1.size a
  hwx5_1 : ∀ i : grid5.Coords, EltTy.bits .i32 = 32 ∨ (Rect.block (s := S1701888x1) S2048x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32x1.size a ≤ S32x1.size a
  hwx5_2 : ∀ i : grid5.Coords, EltTy.bits .f32 = 32 ∨ (Rect.block (s := S32x1) S32x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S32x2048.size a ≤ S32x100352.size a
  hwx5_3 : ∀ i : grid5.Coords, EltTy.bits .f32 = 32 ∨ (Rect.block (s := S32x100352) S32x2048.size (cc5_transform_3 i) (hinb5_3 i)).WholeWords (EltTy.packing .f32)

variable [Facts₀]

def scatter_S100000_S1701888x1_S1701888_n_0_0_1 : ScatterDims S100000 S1701888x1 S1701888 where
  updateWindowDims := []
  insertedWindowDims := [0]
  scatterDimsToOperandDims := [0]
  indexVectorDim := 1
  wf := scatter_S100000_S1701888x1_S1701888_n_0_0_1_wf
def gather_S100000_S1701888x1_S1701888_n_0_n_n_0_1_1 : GatherDims S100000 S1701888x1 S1701888 where
  offsetDims := []
  collapsedSliceDims := [0]
  operandBatchingDims := []
  startIndicesBatchingDims := []
  startIndexMap := [0]
  indexVectorDim := 1
  sliceSizes := ![1]
  wf := gather_S100000_S1701888x1_S1701888_n_0_n_n_0_1_1_wf
def dot_S64x128_S128x2048_S64x2048_1_0_0_1_n_n : DotDims S64x128 S128x2048 S64x2048 where
  lhsContracting := [1]
  rhsContracting := [0]
  lhsNonContracting := [0]
  rhsNonContracting := [1]
  lhsBatch := []
  rhsBatch := []
  wf := dot_S64x128_S128x2048_S64x2048_1_0_0_1_n_n_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf
def dot_S32x64_S64x2048_S32x2048_1_0_0_1_n_n : DotDims S32x64 S64x2048 S32x2048 where
  lhsContracting := [1]
  rhsContracting := [0]
  lhsNonContracting := [0]
  rhsNonContracting := [1]
  lhsBatch := []
  rhsBatch := []
  wf := dot_S32x64_S64x2048_S32x2048_1_0_0_1_n_n_wf
def dot_S32x2048_S2048x2048_S32x2048_1_0_0_1_n_n : DotDims S32x2048 S2048x2048 S32x2048 where
  lhsContracting := [1]
  rhsContracting := [0]
  lhsNonContracting := [0]
  rhsNonContracting := [1]
  lhsBatch := []
  rhsBatch := []
  wf := dot_S32x2048_S2048x2048_S32x2048_1_0_0_1_n_n_wf

abbrev win0_0 : Pipeline.Window sig grid0 :=
  Pipeline.Window.ofSpec (Memref.whole main_v40) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S64x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S64x100352.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S64x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S64x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S2048x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S64x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v48) S64x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S32x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S32x2048.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v50) S32x100352.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v51) S1x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v52) S1x2048.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v53) S32x2048.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v53) S32x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v54) S2048x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v55) S32x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v56) S32x2048.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S1700000x1, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x32, .f32⟩
  | .hbm, ⟨72, _⟩ => ⟨S1700000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x32, .f32⟩
  | .hbm, ⟨82, _⟩ => ⟨S1700000x32, .f32⟩
  | .hbm, ⟨83, _⟩ => ⟨S1700000x32, .f32⟩
  | .hbm, ⟨84, _⟩ => ⟨S_, .f32⟩
  | .hbm, ⟨85, _⟩ => ⟨S100000x32, .f32⟩
  | .hbm, ⟨86, _⟩ => ⟨S1700000x1, .i32⟩
  | .hbm, ⟨87, _⟩ => ⟨S100000x32, .f32⟩
  | .hbm, ⟨88, _⟩ => ⟨S1x32, .f32⟩
  | .hbm, ⟨89, _⟩ => ⟨S100000x32, .f32⟩
  | .hbm, ⟨90, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call1_cst : Ref sig .tc := ⟨.hbm, 68, rfl⟩
abbrev main_call1_v0 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_9 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.Spec.lean ====
/-
  The mathematics of a two-layer graph convolution, in the two arrangements the two programs use.

  Nodes are indexed by Fin 100000, edges (with the self loops appended) by Fin 1700000. An edge e has a source
  R e, a target C e and a weight nrm e. One layer maps node features hin : node → Fin Fi → extended real to

      out n f = (∑ e with C e = n, nrm e · (∑ k, hin (R e) k · W k f)) + b f .

  The node-major arrangement (refLayer) is that formula as it stands. The feature-major arrangement pads
  the node axis to 100352 columns and the edge axis to 1701888 columns and replaces both the gather of the
  source row and the scatter onto the target by sums against one-hot weights:

      projT    : hT f j   = ∑ k, wT f k · xT k j                       (a product of the transposes)
      gatherT  : msg f e  = (∑ j, hT f j · [j = row e]) · nrm e        (the source row picked by a one-hot column)
      scatterT : agg f n  = (∑ e, msg f e · [col e = n]) + bias f      (the targets summed by a one-hot row)

  where row e and col e are 32-bit words and [·] is 1 or 0.
-/
import Idealize.ShloMosaic.PureOps.Ideal
import Idealize.ShloMosaic.Lib.ValueIdx

noncomputable section

open scoped BigOperators

namespace Cert.Gcn

/-- The one-hot weight of a decidable condition: 1 where it holds, 0 elsewhere. -/
def hot (p : Prop) [Decidable p] : EReal := if p then 1 else 0

/-- The product of a weight matrix's transpose wT : [Fo, K] with a feature table's transpose xT : [K, NP]. -/
def projT {Fo K NP : ℕ} (wT : Fin Fo → Fin K → EReal) (xT : Fin K → Fin NP → EReal) (f : Fin Fo) (j : Fin NP) : EReal :=
  ∑ k : Fin K, wT f k * xT k j

/-- Column e of the messages: the column of hT whose number is the word row e, picked by a one-hot sum over all
    NP columns, times the edge's weight. -/
def gatherT {Fo NP E : ℕ} (hT : Fin Fo → Fin NP → EReal) (row : Fin E → BitVec 32) (nrm : Fin E → EReal)
    (f : Fin Fo) (e : Fin E) : EReal :=
  (∑ j : Fin NP, hT f j * hot (BitVec.ofNat 32 j.val = row e)) * nrm e

/-- Column n of the aggregate: the messages of the edges whose target word col e is n, summed by a one-hot sum over
    all E edges, plus the bias. -/
def scatterT {Fo NP E : ℕ} (msg : Fin Fo → Fin E → EReal) (col : Fin E → BitVec 32) (bias : Fin Fo → EReal)
    (f : Fin Fo) (n : Fin NP) : EReal :=
  (∑ e : Fin E, msg f e * hot (col e = BitVec.ofNat 32 n.val)) + bias f

/-- One layer, node-major: the gather of the source rows of hin · W, scaled by the edge weights, summed onto the
    targets (from a zero table), plus the bias. -/
def refLayer {Fi Fo : ℕ} (R C : Fin 1700000 → Fin 100000) (nrm : Fin 1700000 → EReal)
    (hin : Fin 100000 → Fin Fi → EReal) (W : Fin Fi → Fin Fo → EReal) (b : Fin Fo → EReal)
    (n : Fin 100000) (f : Fin Fo) : EReal :=
  (0 + ∑ e : Fin 1700000, if C e = n then nrm e * (∑ k : Fin Fi, hin (R e) k * W k f) else 0) + b f

section Whole
variable (x : Fin 100000 → Fin 128 → EReal) (W1 : Fin 128 → Fin 64 → EReal) (b1 : Fin 64 → EReal)
  (W2 : Fin 64 → Fin 32 → EReal) (b2 : Fin 32 → EReal)

/-- The two layers node-major, a rectifier between them. -/
def refOut (R C : Fin 1700000 → Fin 100000) (nrm : Fin 1700000 → EReal) (n : Fin 100000) (f : Fin 32) : EReal :=
  refLayer R C nrm (fun n' f' => max (refLayer R C nrm x W1 b1 n' f') 0) W2 b2 n f

/-- The feature table transposed and padded with zero columns to 100352 nodes. -/
def padT (j : Fin 128) (n : Fin 100352) : EReal := if h : n.val < 100000 then x ⟨n.val, h⟩ j else 0

/-- The first layer feature-major: its aggregate over all 100352 columns, rectified. -/
def kerHidden (rowP colP : Fin 1701888 → BitVec 32) (nrmP : Fin 1701888 → EReal) (f : Fin 64) (n : Fin 100352) : EReal :=
  max (scatterT (gatherT (projT (fun f' k => W1 k f') (padT x)) rowP nrmP) colP b1 f n) 0

/-- The two layers feature-major, read at node n < 100000 and feature f. -/
def kerOut (rowP colP : Fin 1701888 → BitVec 32) (nrmP : Fin 1701888 → EReal) (n : Fin 100000) (f : Fin 32) : EReal :=
  scatterT (NP := 100352)
    (gatherT (projT (fun f' k => W2 k f') (kerHidden x W1 b1 rowP colP nrmP)) rowP nrmP) colP b2 f
    ⟨n.val, Nat.lt_trans n.isLt (by decide)⟩

end Whole

end Cert.Gcn

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.Reg0.lean ====
/-
  REGION 0, the first projection: the kernel multiplies the transposed weights [64, 128] with one 2048-column block
  of the transposed, padded feature table [128, 100352] per grid point; the 49 blocks tile the result [64, 100352].

  The argument. At the ideal values a change of float format is the identity and a matrix product into the zero
  accumulator is the plain sum of products, so the body leaves, at entry (p, q) of its result block,
  ∑ k, w (p, k) · x (k, q) of the two blocks it was given. At grid point t the weight block is the whole weight
  array and the feature block is columns 2048 t … 2048 t + 2047 of the table, so what point t writes back is
  block (0, t) of ONE function of the whole arrays: G (f, j) = ∑ k, wT (f, k) · xT (k, j). Column j lies in the
  block of point j / 2048 and every point writes its block back, so the result array ends holding G everywhere.
-/
import proofs.«429796_j5497558139162_1_alg».proof.Proof.FrameKI
import proofs.«429796_j5497558139162_1_alg».proof.Proof.Spec
import proofs.«429796_j5497558139162_1_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Reg0

open Cert.KernelIdeal Cert.KernelIdeal.Gen Cert.KernelIdeal.GenP

variable (V : (c : Dev nD) → (b : Ref sig .tc) → Buf (Elt Ideal) ((c : Thread nD τ).loc b))

/-! ## The body at an entry of its block -/

/-- The offsets of an access to a whole buffer are zero on both axes. -/
theorem hz : (![0, 0] : Fin 2 → Nat) = fun _ => 0 := funext fun a => by
  match a with
  | ⟨0, _⟩ => rfl
  | ⟨1, _⟩ => rfl

/-- What the body stores, at an entry y of the result block: the format changes are the identity and the product
    into the zero accumulator is the plain sum, so the entry is row (y 0) of the weight block times column (y 1)
    of the feature block. -/
theorem pay_apply (x : Vec Ideal S128x2048 .f32) (w : Vec Ideal S64x128 .f32) (y : S64x2048.Idx) :
    k0_pay1 (F := Ideal) x w y
      = ∑ k : Fin 128, w (ix2 ⟨(y 0).val, (y 0).isLt⟩ k) * x (ix2 k ⟨(y 1).val, (y 1).isLt⟩) := by
  unfold k0_pay1
  refine (PlainDot.matmul_zero_apply_at (M := 64) (K := 128) (N := 2048)
    dot_S64x128_S128x2048_S64x2048_1_0_0_1_n_n rfl rfl rfl rfl rfl rfl rfl rfl none _ _ y).trans ?_
  refine Finset.sum_congr rfl fun k _ => ?_
  simp only [truncf_apply, shapeCast_self]

/-! ## The grid's index maps -/

/-- The three index maps over the 49 grid points: the feature window and the result window sit at block (0, t), the
    weight window at block (0, 0). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-! ## The input blocks as parts of the whole arrays -/

/-- The weight block at any point is the whole weight array: entry (p, k) of the block is entry (p, k) of the array
    (the row given twice, as a number below 64, so that it can be read off either side). -/
theorem wblk_apply (c : Dev nD) (t : Fin cfg0.N) (p p' : Fin 64) (k : Fin 128) (hp : p'.val = p.val) :
    (iblk0 V c 1 t : Vec Ideal S64x128 .f32) (ix2 p k) = (V c main_v41 : S64x128.Idx → EReal) (ix2 p' k) := by
  obtain ⟨-, -, e2, e3, -, -⟩ := idx_facts t
  unfold iblk0
  rw [View.read_apply]
  show (V c main_v41 : S64x128.Idx → EReal) (((cfg0.win 1).blk t).view.emb (ix2 p k)) = _
  congr 1
  funext a
  apply Fin.ext
  match a with
  | ⟨0, _⟩ => show win0_1.index t (0 : Fin 2) * 64 + 1 * p.val = p'.val; omega
  | ⟨1, _⟩ => show win0_1.index t (1 : Fin 2) * 128 + 1 * k.val = k.val; omega

/-- The feature block at point t is columns 2048 t … 2048 t + 2047 of the table: entry (k, q) of the block is entry
    (k, 2048 t + q) of the array. -/
theorem xblk_apply (c : Dev nD) (t : Fin cfg0.N) (k : Fin 128) (q : Fin 2048) (j : Fin 100352)
    (hj : j.val = t.val * 2048 + q.val) :
    (iblk0 V c 0 t : Vec Ideal S128x2048 .f32) (ix2 k q) = (V c main_v40 : S128x100352.Idx → EReal) (ix2 k j) := by
  obtain ⟨e0, e1, -, -, -, -⟩ := idx_facts t
  unfold iblk0
  rw [View.read_apply]
  show (V c main_v40 : S128x100352.Idx → EReal) (((cfg0.win 0).blk t).view.emb (ix2 k q)) = _
  congr 1
  funext a
  apply Fin.ext
  match a with
  | ⟨0, _⟩ => show win0_0.index t (0 : Fin 2) * 128 + 1 * k.val = k.val; omega
  | ⟨1, _⟩ => show win0_0.index t (1 : Fin 2) * 2048 + 1 * q.val = j.val; omega

/-! ## The whole result array -/

/-- The result array as ONE function of the two operand arrays: entry (f, j) is row f of the weight transpose times
    column j of the feature table. -/
def G (c : Dev nD) : S64x100352.Idx → EReal := fun i =>
  Cert.Gcn.projT (fun f' k => (V c main_v41 : S64x128.Idx → EReal) (ix2 f' k))
    (fun k j' => (V c main_v40 : S128x100352.Idx → EReal) (ix2 k j')) ⟨(i 0).val, (i 0).isLt⟩ ⟨(i 1).val, (i 1).isLt⟩

/-- Entry y of what the body leaves at point t is G at the entry's place in the array, row (y 0) and column
    2048 t + (y 1). -/
theorem body_entry (c : Dev nD) (t : Fin cfg0.N) (y : S64x2048.Idx) (i : S64x100352.Idx)
    (hi0 : (i 0).val = (y 0).val) (hi1 : (i 1).val = t.val * 2048 + (y 1).val) :
    k0_pay1 (F := Ideal) (iblk0 V c 0 t) (iblk0 V c 1 t) y = G V c i := by
  refine (pay_apply (iblk0 V c 0 t) (iblk0 V c 1 t) y).trans ?_
  unfold G Cert.Gcn.projT
  refine Finset.sum_congr rfl fun k _ => ?_
  exact congrArg₂ (· * ·)
    (wblk_apply V c t ⟨(y 0).val, (y 0).isLt⟩ ⟨(i 0).val, (i 0).isLt⟩ k hi0)
    (xblk_apply V c t k ⟨(y 1).val, (y 1).isLt⟩ ⟨(i 1).val, (i 1).isLt⟩ hi1)

/-- WHAT POINT t WRITES BACK is block (0, t) of G. -/
theorem flushed_eq (c : Dev nD) (t : Fin cfg0.N) :
    (dat0 (F := Ideal) V c).flushed 2 t = ((cfg0.win 2).blk t).view.read (Elt Ideal) (G V c) := by
  show (cfg0.win 2).cut (grid0.coords t) ((dat0 (F := Ideal) V c).after 2 t) = _
  rw [after0_2]
  unfold out0_2
  rw [View.canon_unit_zero hz]
  simp only [View.ld_unit_zero (S := S128x2048) hz, View.ld_unit_zero (S := S64x128) hz]
  obtain ⟨-, -, -, -, e4, e5⟩ := idx_facts t
  funext y
  show k0_pay1 (F := Ideal) (iblk0 V c 0 t) (iblk0 V c 1 t) ((cfg0.win 2).xinj (grid0.coords t) y)
    = G V c (((cfg0.win 2).blk t).view.emb y)
  refine body_entry V c t _ _ ?_ ?_
  · show win0_2.index t (0 : Fin 2) * 64 + 1 * (y 0).val = (y 0).val; omega
  · show win0_2.index t (1 : Fin 2) * 2048 + 1 * (y 1).val = t.val * 2048 + (y 1).val; omega

/-! ## The blocks cover the array -/

/-- An index of the array is in point t's block iff each coordinate is in the block's range on its axis. -/
theorem mem_blk (t : Fin cfg0.N) (i : S64x100352.Idx) :
    i ∈ ((cfg0.win 2).blk t).view.set ↔ ∀ a : Fin 2, win0_2.index t a * S64x2048.size a ≤ (i a).val
      ∧ (i a).val < win0_2.index t a * S64x2048.size a + S64x2048.size a := by
  show i ∈ ((View.whole main_v42).slice (win0_2.rect t)).set ↔ _
  rw [View.set_slice_whole, Rect.mem_set_unit]
  exact Iff.rfl

/-- Every index of the result array lies in the block of a point that writes back: column j in that of point j / 2048. -/
theorem cover (i : S64x100352.Idx) :
    ∃ t : Fin cfg0.N, (cfg0.win 2).flush t = true ∧ i ∈ ((cfg0.win 2).blk t).view.set := by
  have hi0 : (i 0).val < 64 := (i 0).isLt
  have hi1 : (i 1).val < 100352 := (i 1).isLt
  have hN : grid0.N = 49 := N_0
  obtain ⟨t, ht⟩ : ∃ t : Fin cfg0.N, t.val = (i 1).val / 2048 :=
    ⟨⟨(i 1).val / 2048, by show (i 1).val / 2048 < grid0.N; rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 64 ≤ (i 0).val ∧ (i 0).val < win0_2.index t (0 : Fin 2) * 64 + 64
    omega
  | ⟨1, _⟩ =>
    show win0_2.index t (1 : Fin 2) * 2048 ≤ (i 1).val ∧ (i 1).val < win0_2.index t (1 : Fin 2) * 2048 + 2048
    omega

/-! ## The region's value -/

/-- The result array after the region is G. -/
theorem final (c : Dev nD) : (dat0 (F := Ideal) V c).arrAt 2 cfg0.N = G V c :=
  (dat0 (F := Ideal) V c).arrAt_eq_of_cover 2 (G V c) (fun t _ => flushed_eq V c t) cover

/-- THE REGION'S VALUE: after the region the result array holds, at row f and column j, the product of the weight
    transpose's row f with the feature table's column j. -/
theorem value (c : Dev nD) (f : Fin 64) (j : Fin 100352) :
    (dat0 (F := Ideal) V c).arrAt 2 cfg0.N (ix2 f j)
      = Cert.Gcn.projT (fun f' k => V c main_v41 (ix2 f' k)) (fun k j' => V c main_v40 (ix2 k j')) f j :=
  congrFun (final V c) (ix2 f j)

end Cert.KernelIdeal.Reg0

end
-- ==== Proof.Reg1.lean ====
/-
  REGION 1, the first gather: per block of 2048 edges the kernel sums, over the 49 chunks of 2048 table columns, the
  product of the chunk [64, 2048] with the one-hot matrix [2048, 2048] of "column number = source word", and scales
  column e by the edge's weight.

  The value is read off in four steps.
  * One trip of the counted loop, at an entry (f, e) of the accumulator: the trip adds
      ∑ j < 2048, chunk (f, j) · [word (2048·k + j) = source word e] ,
    because a matrix product into the zero accumulator is the plain sum of products, the casts to the
    narrower float format are the identity on extended reals, and the compared words are 2048·k + j (the
    broadcast product k·2048 plus the row number) and the source word of column e.
  * All 49 trips, by induction: 0 + the sum of the 49 contributions; a sum over 49 chunks of 2048 columns is a
    sum over all 100352 columns, column 2048·k + j being the j-th of chunk k.
  * One grid point t: the accumulator times the weights' row is block (0, t) of the whole-array function, the
    source words and weights of the block being entries 2048·t + e of their rows.
  * The 831 blocks [64, 2048] tile the result array [64, 1701888]: column c lies in block c / 2048.
-/
import proofs.«429796_j5497558139162_1_alg».proof.Proof.FrameKI
import proofs.«429796_j5497558139162_1_alg».proof.Proof.Spec
import proofs.«429796_j5497558139162_1_alg».proof.Proof.LibPlainDot
import Idealize.ShloMosaic.Lib.Pipeline.Value
import Idealize.ShloMosaic.Lib.ValueIdx
import Idealize.ShloMosaic.PureOps.Ideal.Laws
import Mathlib.Algebra.BigOperators.Fin

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Reg1

open Cert.KernelIdeal Cert.KernelIdeal.Gen Cert.KernelIdeal.GenP
open Cert.Gcn (hot gatherT)

variable (V : (c : Dev nD) → (b : Ref sig .tc) → Buf (Elt Ideal) ((c : Thread nD τ).loc b))

/-! ## Words, offsets and the one-hot weight -/

/-- The loop makes 49 trips. -/
theorem trips_eq : k1_t1_loop.trips = 49 := by decide +kernel

/-- The word the trip broadcasts, k · 2048 computed on 32 bits, is the word of the number 2048 · k; the chunk the trip
    loads starts at row 0 and column 2048 · k. -/
theorem trip_facts : ∀ k : Fin k1_t1_loop.trips,
    Scalar.muli (Scf.iv 0#32 1#32 k) 2048#32 = BitVec.ofNat 32 (2048 * k.val)
      ∧ k1_off1 k 0 = 0 ∧ k1_off1 k 1 = 2048 * k.val := by decide +kernel

/-- The float of a word comparison widened to 32 bits is the one-hot weight of the words' equality. -/
theorem sitofp_cmpi_eq (a b : BitVec 32) :
    (FloatOps.sitofp (F := Ideal) .f32 ((IntOp.cmpi .eq a b).setWidth 32) : Ideal .f32) = hot (a = b) := by
  show (((((IntOp.cmpi .eq a b).setWidth 32).toInt : ℤ) : ℝ) : EReal) = hot (a = b)
  unfold IntOp.cmpi hot
  by_cases h : a = b
  · have e1 : (a == b) = true := by simpa using h
    have e2 : ((BitVec.ofBool true).setWidth 32).toInt = 1 := by decide
    rw [if_pos h]; dsimp only; rw [e1, e2]; simp
  · have e1 : (a == b) = false := by simpa using h
    have e2 : ((BitVec.ofBool false).setWidth 32).toInt = 0 := by decide
    rw [if_neg h]; dsimp only; rw [e1, e2]; simp

/-! ## Layout operations at an entry -/

theorem hz : (![0, 0] : Fin 2 → Nat) = fun _ => 0 := funext fun a => by fin_cases a <;> rfl

/-- A column [2048, 1] broadcast along the second axis, at (j, e): the column's entry j. -/
theorem bcast_col {α : Type} (x : S2048x1.Idx → α) (h : S2048x1.Broadcasts S2048x2048) (j e : Fin 2048) :
    broadcastTo S2048x2048 x h (ix2 j e) = x (ix2 j (0 : Fin 1)) :=
  broadcastTo_apply x h (ix2 j e) (ix2 j (0 : Fin 1)) fun a => by
    match a with
    | ⟨0, _⟩ => rfl
    | ⟨1, _⟩ => rfl

/-- A row [1, 2048] broadcast along the first axis to [2048, 2048], at (j, e): the row's entry e. -/
theorem bcast_row {α : Type} (x : S1x2048.Idx → α) (h : S1x2048.Broadcasts S2048x2048) (j e : Fin 2048) :
    broadcastTo S2048x2048 x h (ix2 j e) = x (ix2 (0 : Fin 1) e) :=
  broadcastTo_apply x h (ix2 j e) (ix2 (0 : Fin 1) e) fun a => by
    match a with
    | ⟨0, _⟩ => rfl
    | ⟨1, _⟩ => rfl

/-- A row [1, 2048] broadcast along the first axis to [64, 2048], at (f, e): the row's entry e. -/
theorem bcast_row64 {α : Type} (x : S1x2048.Idx → α) (h : S1x2048.Broadcasts S64x2048) (f : Fin 64) (e : Fin 2048) :
    broadcastTo S64x2048 x h (ix2 f e) = x (ix2 (0 : Fin 1) e) :=
  broadcastTo_apply x h (ix2 f e) (ix2 (0 : Fin 1) e) fun a => by
    match a with
    | ⟨0, _⟩ => rfl
    | ⟨1, _⟩ => rfl

/-! ## One trip at an entry -/

/-- The one-hot matrix of trip k at (j, e): 1 where the word of 2048 · k + j is the source word of column e. -/
theorem onehot_apply (k : Fin k1_t1_loop.trips) (w : IVec S1x2048 32) (hi : S2048x1.Iotas .tc 32 [0])
    (hc : S2048x1.Broadcasts S2048x2048) (hs : S1x2048.ShapeCasts S1x2048) (hr : S1x2048.Broadcasts S2048x2048)
    (hx : 1 < 32) (ht : FTy.bits .bf16 < FTy.bits .f32) (j e : Fin 2048) :
    (truncf .bf16 (sitofp .f32 (extui 32 (cmpi .eq
        (broadcastTo S2048x2048 (addi (broadcast S2048x1 (Scalar.muli (Scf.iv 0#32 1#32 k) 2048#32)) (iota .tc S2048x1 32 [0] hi)) hc)
        (broadcastTo S2048x2048 (shapeCast S1x2048 w hs) hr)) hx) : FVec Ideal S2048x2048 .f32) ht : FVec Ideal S2048x2048 .bf16) (ix2 j e)
      = hot (BitVec.ofNat 32 (2048 * k.val + j.val) = w (ix2 (0 : Fin 1) e)) := by
  show (FloatOps.sitofp (F := Ideal) .f32 ((IntOp.cmpi .eq
      (broadcastTo S2048x2048 (addi (broadcast S2048x1 (Scalar.muli (Scf.iv 0#32 1#32 k) 2048#32)) (iota .tc S2048x1 32 [0] hi)) hc (ix2 j e))
      (broadcastTo S2048x2048 (shapeCast S1x2048 w hs) hr (ix2 j e))).setWidth 32) : Ideal .f32) = _
  rw [bcast_col, bcast_row, shapeCast_self, sitofp_cmpi_eq]
  have hw : addi (broadcast S2048x1 (Scalar.muli (Scf.iv 0#32 1#32 k) 2048#32)) (iota .tc S2048x1 32 [0] hi) (ix2 j (0 : Fin 1))
      = BitVec.ofNat 32 (2048 * k.val + j.val) := by
    show Scalar.muli (Scf.iv 0#32 1#32 k) 2048#32 + iota .tc S2048x1 32 [0] hi (ix2 j (0 : Fin 1)) = _
    rw [(trip_facts k).1, iota_single_apply]
    exact (BitVec.ofNat_add (2048 * k.val) j.val).symm
  rw [hw]

/-- ONE TRIP at the entry (f, e) of the accumulator: it adds the chunk's row f against the one-hot column e. -/
theorem trip_apply (k : Fin k1_t1_loop.trips) (acc : FVec Ideal S64x2048 .f32) (chunk : FVec Ideal S64x2048 .bf16)
    (w : IVec S1x2048 32) (f : Fin 64) (e : Fin 2048) :
    k1_pay2 (F := Ideal) k acc chunk w (ix2 f e)
      = acc (ix2 f e) + ∑ j : Fin 2048, chunk (ix2 f j) * hot (BitVec.ofNat 32 (2048 * k.val + j.val) = w (ix2 (0 : Fin 1) e)) := by
  unfold k1_pay2
  dsimp only
  refine (addf_apply acc _ (ix2 f e)).trans ?_
  congr 1
  refine (PlainDot.matmul_zero_apply dot_S64x2048_S2048x2048_S64x2048_1_0_0_1_n_n rfl rfl rfl rfl rfl rfl rfl rfl none _ _ f e).trans ?_
  refine Finset.sum_congr rfl fun j _ => ?_
  congr 1
  · exact congrFun (shapeCast_self chunk _) (ix2 f j)
  · exact onehot_apply k w _ _ _ _ _ _ j e

/-- The scaling at the entry (f, e): the accumulator's entry times the weight of column e. -/
theorem scale_apply (acc : FVec Ideal S64x2048 .f32) (nr : FVec Ideal S1x2048 .f32) (f : Fin 64) (e : Fin 2048) :
    k1_pay3 (F := Ideal) acc nr (ix2 f e) = acc (ix2 f e) * nr (ix2 (0 : Fin 1) e) := by
  unfold k1_pay3
  refine (mulf_apply acc _ (ix2 f e)).trans ?_
  congr 1
  rw [bcast_row64, shapeCast_self]

/-- The accumulator starts at zero. -/
theorem init_apply (y : S64x2048.Idx) : k1_pay1 (F := Ideal) y = 0 := by
  show Ideal.ofBits .f32 0x00000000#32 = 0
  exact Ideal.ofBits_zero_f32

/-! ## Sums over chunks -/

/-- A sum over 49 chunks of 2048 consecutive numbers is the sum over the 100352 numbers. -/
theorem sum_chunks (g : ℕ → EReal) :
    ∑ k : Fin 49, ∑ j : Fin 2048, g (2048 * k.val + j.val) = ∑ n : Fin 100352, g n.val := by
  refine (Fintype.sum_prod_type' (fun (k : Fin 49) (j : Fin 2048) => g (2048 * k.val + j.val))).symm.trans ?_
  refine Fintype.sum_equiv ((finProdFinEquiv (m := 49) (n := 2048)).trans (finCongr (by norm_num))) _ _ fun x => ?_
  show g (2048 * x.1.val + x.2.val) = g (x.2.val + 2048 * x.1.val)
  congr 1
  omega

/-! ## The 49 trips -/

/-- Column n of row f of the table (zero past the last column, which no trip reads). -/
def colAt (T : FVec Ideal S64x100352 .bf16) (f : Fin 64) (n : ℕ) : EReal :=
  if h : n < 100352 then T (ix2 f ⟨n, h⟩) else 0

/-- What trip k adds at the entry (f, e). -/
def contrib (T : FVec Ideal S64x100352 .bf16) (w : IVec S1x2048 32) (f : Fin 64) (e : Fin 2048) (k : ℕ) : EReal :=
  ∑ j : Fin 2048, colAt T f (2048 * k + j.val) * hot (BitVec.ofNat 32 (2048 * k + j.val) = w (ix2 (0 : Fin 1) e))

/-- The chunk trip k loads, at (f, j): column 2048 · k + j of row f. -/
theorem chunk_apply (T : FVec Ideal S64x100352 .bf16) (k : Fin k1_t1_loop.trips) (f : Fin 64) (j : Fin 2048) :
    View.ld (Val := Elt Ideal) (e' := .bf16) T (Rect.unit (s := S64x100352) (k1_off1 k) S64x2048.size (k1_off1_inb k)) (ix2 f j)
      = colAt T f (2048 * k.val + j.val) := by
  have hk : k.val < 49 := lt_of_lt_of_eq k.isLt trips_eq
  obtain ⟨-, o0, o1⟩ := trip_facts k
  unfold colAt
  rw [dif_pos (by omega)]
  show T _ = T _
  congr 1
  funext a
  apply Fin.ext
  match a with
  | ⟨0, _⟩ => show k1_off1 k 0 + 1 * f.val = f.val; rw [o0]; omega
  | ⟨1, _⟩ => show k1_off1 k 1 + 1 * j.val = 2048 * k.val + j.val; rw [o1]; omega

/-- The 49 contributions together: the one-hot sum over all 100352 columns. -/
theorem loop_total (T : FVec Ideal S64x100352 .bf16) (w : IVec S1x2048 32) (f : Fin 64) (e : Fin 2048) :
    ∑ k ∈ Finset.range 49, contrib T w f e k
      = ∑ n : Fin 100352, T (ix2 f n) * hot (BitVec.ofNat 32 n.val = w (ix2 (0 : Fin 1) e)) := by
  rw [← Fin.sum_univ_eq_sum_range (fun k => contrib T w f e k) 49]
  unfold contrib
  refine (sum_chunks fun n => colAt T f n * hot (BitVec.ofNat 32 n = w (ix2 (0 : Fin 1) e))).trans ?_
  refine Finset.sum_congr rfl fun n _ => ?_
  unfold colAt
  rw [dif_pos n.isLt]

/-! ## The body's result -/

/-- The trip's result: the trip's arithmetic of the carried value, of the chunk loaded at the trip's offset and of the
    source words' row. -/
theorem tripR_eq (c : Dev nD) (i : grid1.Coords) (a1 : Memref sig .tc .vmem S64x100352 .bf16) (h1 : a1.IsWhole)
    (a2 : Memref sig .tc .vmem S1x2048 .i32) (h2 : a2.IsWhole) (a3 : Memref sig .tc .vmem S1x2048 .f32) (h3 : a3.IsWhole)
    (a4 : Memref sig .tc .vmem S64x2048 .f32) (h4 : a4.IsWhole)
    (x0 : Vec Ideal S64x100352 .bf16) (x1 : Vec Ideal S1x2048 .i32) (k : Fin k1_t1_loop.trips) (acc : FVec Ideal S64x2048 .f32) :
    tripR_k1_t1 (F := Ideal) Variants.none c none i a1 h1 a2 h2 a3 h3 a4 h4 (h1.unread x0) (h2.unread x1) k acc
      = k1_pay2 (F := Ideal) k acc
          (View.ld (Val := Elt Ideal) (e' := .bf16) x0 (Rect.unit (s := S64x100352) (k1_off1 k) S64x2048.size (k1_off1_inb k))) x1 := by
  unfold tripR_k1_t1 trip_k1_t1
  dsimp only
  sl_unfold_run_names
  simp only [View.readAt_eq_ld, h1.read_unread, h2.read_unread, View.ld_unit_zero (S := S1x2048) hz]

/-- The carried value before trip n, at the entry (f, e): zero plus the contributions of the trips before. -/
theorem st_apply (c : Dev nD) (i : grid1.Coords) (a1 : Memref sig .tc .vmem S64x100352 .bf16) (h1 : a1.IsWhole)
    (a2 : Memref sig .tc .vmem S1x2048 .i32) (h2 : a2.IsWhole) (a3 : Memref sig .tc .vmem S1x2048 .f32) (h3 : a3.IsWhole)
    (a4 : Memref sig .tc .vmem S64x2048 .f32) (h4 : a4.IsWhole)
    (x0 : Vec Ideal S64x100352 .bf16) (x1 : Vec Ideal S1x2048 .i32) (f : Fin 64) (e : Fin 2048) :
    ∀ n : ℕ, n ≤ k1_t1_loop.trips →
      st_k1_t1 (F := Ideal) Variants.none c none i a1 h1 a2 h2 a3 h3 a4 h4 (h1.unread x0) (h2.unread x1) k1_pay1 n (ix2 f e)
        = 0 + ∑ k ∈ Finset.range n, contrib x0 x1 f e k
  | 0, _ => by
    rw [Finset.range_zero, Finset.sum_empty, add_zero]
    exact init_apply (ix2 f e)
  | n + 1, hn => by
    have ih := st_apply c i a1 h1 a2 h2 a3 h3 a4 h4 x0 x1 f e n (Nat.le_of_succ_le hn)
    refine (congrFun (st_k1_t1_succ (F := Ideal) Variants.none c none i a1 h1 a2 h2 a3 h3 a4 h4 (h1.unread x0) (h2.unread x1)
      k1_pay1 ⟨n, hn⟩) (ix2 f e)).trans ?_
    refine (congrFun (tripR_eq c i a1 h1 a2 h2 a3 h3 a4 h4 x0 x1 ⟨n, hn⟩ _) (ix2 f e)).trans ?_
    refine (trip_apply ⟨n, hn⟩ _ _ x1 f e).trans ?_
    rw [Finset.sum_range_succ, ← add_assoc]
    congr 1
    unfold contrib
    refine Finset.sum_congr rfl fun j _ => ?_
    rw [chunk_apply]

/-- WHAT THE BODY LEAVES in the result's staging buffer, at the entry (f, e): the one-hot sum over all columns of the
    table's row f against the source word of column e, times the weight of column e. -/
theorem out_apply (c : Dev nD) (i : grid1.Coords) (a1 : Memref sig .tc .vmem S64x100352 .bf16) (h1 : a1.IsWhole)
    (a2 : Memref sig .tc .vmem S1x2048 .i32) (h2 : a2.IsWhole) (a3 : Memref sig .tc .vmem S1x2048 .f32) (h3 : a3.IsWhole)
    (a4 : Memref sig .tc .vmem S64x2048 .f32) (h4 : a4.IsWhole)
    (x0 : Vec Ideal S64x100352 .bf16) (x1 : Vec Ideal S1x2048 .i32) (x2 : Vec Ideal S1x2048 .f32) (f : Fin 64) (e : Fin 2048) :
    out1_A_3 (F := Ideal) c i a1 h1 a2 h2 a3 h3 a4 h4 x0 x1 x2 (ix2 f e)
      = (∑ n : Fin 100352, (x0 : FVec Ideal S64x100352 .bf16) (ix2 f n)
            * hot (BitVec.ofNat 32 n.val = (x1 : IVec S1x2048 32) (ix2 (0 : Fin 1) e)))
          * (x2 : FVec Ideal S1x2048 .f32) (ix2 (0 : Fin 1) e) := by
  have hrun : out1_A_3 (F := Ideal) c i a1 h1 a2 h2 a3 h3 a4 h4 x0 x1 x2
      = k1_pay3 (F := Ideal) (st_k1_t1 (F := Ideal) Variants.none c none i a1 h1 a2 h2 a3 h3 a4 h4 (h1.unread x0) (h2.unread x1)
          k1_pay1 k1_t1_loop.trips) x2 := by
    unfold out1_A_3
    rw [View.read_writes_eq_canon _ _ _ (cover1_A_3 c i a1 h1 a2 h2 a3 h3 a4 h4 x0 x1 x2)]
    unfold kernelRun1_A
    dsimp only
    sl_unfold_run_names
    rw [View.canon_unit_zero hz]
    simp only [View.readAt_eq_ld, h3.read_unread, View.ld_unit_zero (S := S1x2048) hz]
  refine (congrFun hrun (ix2 f e)).trans ?_
  refine (scale_apply _ x2 f e).trans ?_
  refine congrArg (· * _) ?_
  refine (st_apply c i a1 h1 a2 h2 a3 h3 a4 h4 x0 x1 f e k1_t1_loop.trips le_rfl).trans ?_
  rw [zero_add, trips_eq]
  exact loop_total x0 x1 f e

/-! ## From blocks to the array -/

/-- The windows' block indices at point t: the table's one block; block t of the source words, of the weights and of
    the result. -/
theorem idx_facts : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- The table's block at any point is the table. -/
theorem tblk_apply (c : Dev nD) (t : Fin cfg1.N) (f : Fin 64) (n : Fin 100352) :
    (iblk1 V c 0 t : FVec Ideal S64x100352 .bf16) (ix2 f n) = V c main_v42 (ix2 f n) := by
  obtain ⟨e0, e1, -⟩ := idx_facts t
  unfold iblk1
  rw [View.read_apply]
  show V c main_v42 _ = V c main_v42 _
  congr 1
  funext a
  apply Fin.ext
  match a with
  | ⟨0, _⟩ => show win1_0.index t (0 : Fin 2) * 64 + 1 * f.val = f.val; rw [e0]; omega
  | ⟨1, _⟩ => show win1_0.index t (1 : Fin 2) * 100352 + 1 * n.val = n.val; rw [e1]; omega

/-- The source words' block at point t, at column e: the row's entry 2048 · t + e. -/
theorem wblk_apply (c : Dev nD) (t : Fin cfg1.N) (e : Fin 2048) (e' : Fin 1701888) (he : e'.val = 2048 * t.val + e.val) :
    (iblk1 V c 1 t : IVec S1x2048 32) (ix2 (0 : Fin 1) e) = V c main_v43 (ix2 (0 : Fin 1) e') := by
  obtain ⟨-, -, e0, e1, -⟩ := idx_facts t
  unfold iblk1
  rw [View.read_apply]
  show V c main_v43 _ = V c main_v43 _
  congr 1
  funext a
  apply Fin.ext
  match a with
  | ⟨0, _⟩ => show win1_1.index t (0 : Fin 2) * 1 + 1 * 0 = 0; rw [e0]
  | ⟨1, _⟩ => show win1_1.index t (1 : Fin 2) * 2048 + 1 * e.val = e'.val; rw [e1, he]; omega

/-- The weights' block at point t, at column e: the row's entry 2048 · t + e. -/
theorem nblk_apply (c : Dev nD) (t : Fin cfg1.N) (e : Fin 2048) (e' : Fin 1701888) (he : e'.val = 2048 * t.val + e.val) :
    (iblk1 V c 2 t : FVec Ideal S1x2048 .f32) (ix2 (0 : Fin 1) e) = V c main_v44 (ix2 (0 : Fin 1) e') := by
  obtain ⟨-, -, -, -, e0, e1, -⟩ := idx_facts t
  unfold iblk1
  rw [View.read_apply]
  show V c main_v44 _ = V c main_v44 _
  congr 1
  funext a
  apply Fin.ext
  match a with
  | ⟨0, _⟩ => show win1_2.index t (0 : Fin 2) * 1 + 1 * 0 = 0; rw [e0]
  | ⟨1, _⟩ => show win1_2.index t (1 : Fin 2) * 2048 + 1 * e.val = e'.val; rw [e1, he]; omega

/-- THE WHOLE RESULT ARRAY: at row f and column e the specification's message. -/
def G (c : Dev nD) : S64x1701888.Idx → EReal := fun i =>
  gatherT (fun f' j => V c main_v42 (ix2 f' j)) (fun e' => V c main_v43 (ix2 (0 : Fin 1) e'))
    (fun e' => V c main_v44 (ix2 (0 : Fin 1) e')) ⟨(i 0).val, (i 0).isLt⟩ ⟨(i 1).val, (i 1).isLt⟩

/-- What the body leaves at point t, at the entry (f, e) of the block: the message of edge 2048 · t + e. -/
theorem point_value (c : Dev nD) (t : Fin cfg1.N) (f : Fin 64) (e : Fin 2048) (e' : Fin 1701888)
    (he : e'.val = 2048 * t.val + e.val) :
    outsAt1 V c t (ix2 f e)
      = gatherT (fun f' j => V c main_v42 (ix2 f' j)) (fun e'' => V c main_v43 (ix2 (0 : Fin 1) e''))
          (fun e'' => V c main_v44 (ix2 (0 : Fin 1) e'')) f e' := by
  unfold outsAt1
  refine (out_apply c (grid1.coords t) (ms1_0 t) (hs1_0 t) (ms1_1 t) (hs1_1 t) (ms1_2 t) (hs1_2 t) (ms1_3 t) (hs1_3 t)
    (iblk1 V c 0 t) (iblk1 V c 1 t) (iblk1 V c 2 t) f e).trans ?_
  unfold gatherT
  rw [wblk_apply V c t e e' he, nblk_apply V c t e e' he]
  simp only [tblk_apply V c t f]

/-- WHAT POINT t WRITES BACK is block t of the whole-array function. -/
theorem flushed_eq (c : Dev nD) (t : Fin cfg1.N) :
    (dat1 (F := Ideal) V c).flushed 3 t = ((cfg1.win 3).blk t).view.read (Elt Ideal) (G V c) := by
  show (cfg1.win 3).cut (grid1.coords t) ((dat1 (F := Ideal) V c).after 3 t) = _
  rw [after1_3]
  obtain ⟨-, -, -, -, -, -, e0, e1⟩ := idx_facts t
  have hN : cfg1.N = 831 := N_1
  have ht : t.val < 831 := lt_of_lt_of_eq t.isLt hN
  funext j
  have hj0 : (j 0).val < 64 := (j 0).isLt
  have hj1 : (j 1).val < 2048 := (j 1).isLt
  have hx : (cfg1.win 3).xinj (grid1.coords t) j = ix2 (⟨(j 0).val, hj0⟩ : Fin 64) (⟨(j 1).val, hj1⟩ : Fin 2048) :=
    funext fun a => by
      match a with
      | ⟨0, _⟩ => rfl
      | ⟨1, _⟩ => rfl
  show outsAt1 V c t ((cfg1.win 3).xinj (grid1.coords t) j) = G V c (((cfg1.win 3).blk t).view.emb j)
  rw [hx]
  refine (point_value V c t ⟨(j 0).val, hj0⟩ ⟨(j 1).val, hj1⟩ ⟨2048 * t.val + (j 1).val, by omega⟩ rfl).trans ?_
  unfold G
  have h0 : (⟨(j 0).val, hj0⟩ : Fin 64) = ⟨((((cfg1.win 3).blk t).view.emb j) 0).val, ((((cfg1.win 3).blk t).view.emb j) 0).isLt⟩ :=
    Fin.ext (by show (j 0).val = win1_3.index t (0 : Fin 2) * 64 + 1 * (j 0).val; rw [e0]; omega)
  have h1 : (⟨2048 * t.val + (j 1).val, by omega⟩ : Fin 1701888)
      = ⟨((((cfg1.win 3).blk t).view.emb j) 1).val, ((((cfg1.win 3).blk t).view.emb j) 1).isLt⟩ :=
    Fin.ext (by show 2048 * t.val + (j 1).val = win1_3.index t (1 : Fin 2) * 2048 + 1 * (j 1).val; rw [e1]; omega)
  rw [h0, h1]

/-- Every entry of the result array lies in the block of some point: column c in block c / 2048. -/
theorem cover (i : S64x1701888.Idx) :
    ∃ t : Fin cfg1.N, (cfg1.win 3).flush t = true ∧ i ∈ ((cfg1.win 3).blk t).view.set := by
  have hN : cfg1.N = 831 := N_1
  have h0 : (i 0).val < 64 := (i 0).isLt
  have h1 : (i 1).val < 1701888 := (i 1).isLt
  have ht : (i 1).val / 2048 < cfg1.N := by rw [hN]; omega
  obtain ⟨-, -, -, -, -, -, e0, e1⟩ := idx_facts ⟨(i 1).val / 2048, ht⟩
  refine ⟨⟨(i 1).val / 2048, ht⟩, flush1_3 _, ?_⟩
  show i ∈ ((View.whole main_v45).slice (win1_3.rect ⟨(i 1).val / 2048, ht⟩)).set
  rw [View.set_slice_whole, Rect.mem_set_unit]
  intro a
  match a with
  | ⟨0, _⟩ =>
    show win1_3.index ⟨(i 1).val / 2048, ht⟩ (0 : Fin 2) * 64 ≤ (i 0).val
      ∧ (i 0).val < win1_3.index ⟨(i 1).val / 2048, ht⟩ (0 : Fin 2) * 64 + 64
    rw [e0]; omega
  | ⟨1, _⟩ =>
    show win1_3.index ⟨(i 1).val / 2048, ht⟩ (1 : Fin 2) * 2048 ≤ (i 1).val
      ∧ (i 1).val < win1_3.index ⟨(i 1).val / 2048, ht⟩ (1 : Fin 2) * 2048 + 2048
    rw [e1]; show (i 1).val / 2048 * 2048 ≤ (i 1).val ∧ (i 1).val < (i 1).val / 2048 * 2048 + 2048; omega

/-- THE REGION'S VALUE: after the region the message array holds, at row f and column e, the column of the table
    whose number is the word row e — picked by a one-hot sum over all 100352 columns, chunk by chunk — times the
    edge's weight. -/
theorem value (c : Dev nD) (f : Fin 64) (e : Fin 1701888) :
    (dat1 (F := Ideal) V c).arrAt 3 cfg1.N (ix2 f e)
      = Cert.Gcn.gatherT (fun f' j => V c main_v42 (ix2 f' j)) (fun e' => V c main_v43 (ix2 (0 : Fin 1) e'))
          (fun e' => V c main_v44 (ix2 (0 : Fin 1) e')) f e :=
  congrFun ((dat1 (F := Ideal) V c).arrAt_eq_of_cover 3 (G V c) (fun t _ => flushed_eq V c t) (fun i => cover i)) (ix2 f e)

end Cert.KernelIdeal.Reg1

end
-- ==== Proof.Reg2.lean ====
/-
  REGION 2, the first scatter: for each block of 2048 target columns the kernel runs over the 831 edge blocks, adding
  the product of the message block [64, 2048] with the one-hot matrix [2048, 2048] of "target word = column number"
  into the block it carries; the first edge block starts it from zero, the last adds the bias and rectifies.

  The proof: what each of the three control cases leaves in the carried block, as the body's pure terms of the input
  blocks and of what the point before left; those terms read at an entry (the one-hot entry is the weight of a word
  equation, the product into the zero accumulator is the plain sum over the 2048 edges of the block); the carried block
  after the j-th edge block as the sum of the first j + 1 blocks' contributions, by induction on j; the blocks read as
  parts of the whole arrays; the 831 sums of 2048 terms as one sum over all 1701888 edges; and the result array as the
  blocks the last point of each run of 831 writes back.
-/
import proofs.«429796_j5497558139162_1_alg».proof.Proof.FrameKI
import proofs.«429796_j5497558139162_1_alg».proof.Proof.Spec
import proofs.«429796_j5497558139162_1_alg».proof.Proof.LibPlainDot
import Idealize.ShloMosaic.Lib.Pipeline.Value
import Idealize.ShloMosaic.Lib.ValueIdx
import Idealize.ShloMosaic.Lib.Tactic
import Idealize.ShloMosaic.PureOps.Ideal.Laws
import Mathlib.Algebra.BigOperators.Fin
import Mathlib.Logic.Equiv.Fin.Basic

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Reg2

open Cert.KernelIdeal Cert.KernelIdeal.Gen Cert.KernelIdeal.GenP
open Cert.Gcn (hot scatterT)

/-! ## Words: the one-hot entry -/

/-- The weight of a condition depends only on whether it holds. -/
theorem hot_congr {p q : Prop} [Decidable p] [Decidable q] (h : p ↔ q) : hot p = hot q := by
  unfold Cert.Gcn.hot
  exact if_congr h rfl rfl

/-- Taking 2048·d off a word leaves n' exactly when the word is 2048·d + n' (all modulo 2^32). -/
theorem word_eq (x : BitVec 32) (d n' : Nat) :
    (x - BitVec.ofNat 32 d * 2048#32 = BitVec.ofNat 32 n') ↔ x = BitVec.ofNat 32 (2048 * d + n') := by
  have e : BitVec.ofNat 32 (2048 * d + n') = BitVec.ofNat 32 n' + BitVec.ofNat 32 d * 2048#32 := by
    rw [Nat.add_comm (2048 * d) n', Nat.mul_comm 2048 d, BitVec.ofNat_add, BitVec.ofNat_mul]
  rw [e]
  exact BitVec.sub_eq_iff_eq_add

/-- The float of the widened bit of a word comparison is the weight of the equation. -/
theorem hot_word (x y : BitVec 32) :
    (FloatOps.sitofp (F := Ideal) .f32 ((IntOp.cmpi .eq x y).setWidth 32) : EReal) = hot (x = y) := by
  show (((((IntOp.cmpi .eq x y).setWidth 32).toInt : ℝ)) : EReal) = _
  have hc : IntOp.cmpi .eq x y = BitVec.ofBool (x == y) := rfl
  rw [hc]
  unfold Cert.Gcn.hot
  by_cases h : x = y
  · rw [if_pos h, show (x == y) = true from by simpa using h]
    have e1 : ((BitVec.ofBool true).setWidth 32).toInt = 1 := by decide
    rw [e1]; simp
  · rw [if_neg h, show (x == y) = false from by simpa using h]
    have e0 : ((BitVec.ofBool false).setWidth 32).toInt = 0 := by decide
    rw [e0]; simp

/-! ## The body's pure terms, read at an entry -/

/-- Entry (e', n') of the one-hot matrix the body builds from the block's target words at the d-th column block:
    the weight of "word e' is 2048·d + n'". -/
theorem onehot_apply (d : Nat) (w : IVec S2048x1 32) (e' n' : Fin 2048) :
    (truncf .bf16 (sitofp .f32 (extui 32 (cmpi .eq
        (broadcastTo S2048x2048 (subi (shapeCast S2048x1 w shapeCasts_S2048x1_S2048x1)
          (broadcast S2048x1 (Scalar.muli (BitVec.ofNat 32 d) 2048#32))) broadcasts_S2048x1_S2048x2048)
        (broadcastTo S2048x2048 (iota .tc S1x2048 32 [1] iota_S1x2048_d1_w32) broadcasts_S1x2048_S2048x2048))
        natLt_1_32)) bitsLt_bf16_f32 : FVec Ideal S2048x2048 .bf16) (ix2 e' n')
      = hot (w (ix2 e' (0 : Fin 1)) = BitVec.ofNat 32 (2048 * d + n'.val)) := by
  refine (hot_word _ _).trans ?_
  have hA : broadcastTo S2048x2048 (subi (shapeCast S2048x1 w shapeCasts_S2048x1_S2048x1)
        (broadcast S2048x1 (Scalar.muli (BitVec.ofNat 32 d) 2048#32))) broadcasts_S2048x1_S2048x2048 (ix2 e' n')
      = w (ix2 e' (0 : Fin 1)) - BitVec.ofNat 32 d * 2048#32 := by
    refine (broadcastTo_apply _ _ (ix2 e' n') (ix2 e' (0 : Fin 1))
      (fun a => by match a with | ⟨0, _⟩ => rfl | ⟨1, _⟩ => rfl)).trans ?_
    show shapeCast S2048x1 w shapeCasts_S2048x1_S2048x1 (ix2 e' (0 : Fin 1)) - BitVec.ofNat 32 d * 2048#32 = _
    rw [shapeCast_self]
  have hB : broadcastTo S2048x2048 (iota .tc S1x2048 32 [1] iota_S1x2048_d1_w32) broadcasts_S1x2048_S2048x2048 (ix2 e' n')
      = BitVec.ofNat 32 n'.val := by
    refine (broadcastTo_apply _ _ (ix2 e' n') (ix2 (0 : Fin 1) n')
      (fun a => by match a with | ⟨0, _⟩ => rfl | ⟨1, _⟩ => rfl)).trans ?_
    exact iota_single_apply .tc S1x2048 32 1 iota_S1x2048_d1_w32 (ix2 (0 : Fin 1) n')
  refine hot_congr ?_
  rw [hA, hB]
  exact word_eq _ d n'.val

/-- The reset block is zero everywhere. -/
theorem pay1_apply (j : S64x2048.Idx) : k2_pay1 (F := Ideal) j = 0 := by
  unfold k2_pay1
  exact Ideal.ofBits_zero_f32

/-- The accumulating store at entry (f, n'): what the block held there plus the sum, over the 2048 edges of the
    message block, of the message times the weight of "the edge's target word is column 2048·d + n'". -/
theorem pay2_apply (i : grid2.Coords) (w : Vec Ideal S2048x1 .i32) (x acc : Vec Ideal S64x2048 .f32)
    (f : Fin 64) (n' : Fin 2048) :
    k2_pay2 (F := Ideal) i w x acc (ix2 f n')
      = acc (ix2 f n') + ∑ e' : Fin 2048, x (ix2 f e') *
          hot (w (ix2 e' (0 : Fin 1)) = BitVec.ofNat 32 (2048 * (i 0).val + n'.val)) := by
  unfold k2_pay2
  refine (addf_apply _ _ _).trans ?_
  refine congrArg₂ (fun a b : EReal => a + b) (congrFun (shapeCast_self acc _) (ix2 f n')) ?_
  refine (PlainDot.matmul_zero_apply (M := 64) (K := 2048) (N := 2048)
    dot_S64x2048_S2048x2048_S64x2048_1_0_0_1_n_n rfl rfl rfl rfl rfl rfl rfl rfl none _ _ f n').trans ?_
  refine Finset.sum_congr rfl fun e' _ => ?_
  refine congrArg₂ (fun a b : EReal => a * b) ?_ ?_
  · exact (truncf_apply (φ := .f32) (ψ := .bf16) (shapeCast S64x2048 x shapeCasts_S64x2048_S64x2048) bitsLt_bf16_f32
      (ix2 f e')).trans (congrFun (shapeCast_self x _) (ix2 f e'))
  · exact onehot_apply (i 0).val w e' n'

/-- The last store at entry (f, n'): the block's entry plus the bias of row f, rectified. -/
theorem pay3_apply (acc : Vec Ideal S64x2048 .f32) (b : Vec Ideal S64x1 .f32) (f : Fin 64) (n' : Fin 2048) :
    k2_pay3 (F := Ideal) acc b (ix2 f n') = max (acc (ix2 f n') + b (ix2 f (0 : Fin 1))) 0 := by
  unfold k2_pay3
  refine (maximumf_apply _ _ _).trans ?_
  refine congrArg₂ (fun a b : EReal => max a b) ?_ ?_
  · refine (addf_apply _ _ _).trans ?_
    refine congrArg₂ (fun a b : EReal => a + b) (congrFun (shapeCast_self acc _) (ix2 f n')) ?_
    refine (broadcastTo_apply _ _ (ix2 f n') (ix2 f (0 : Fin 1))
      (fun a => by match a with | ⟨0, _⟩ => rfl | ⟨1, _⟩ => rfl)).trans ?_
    exact congrFun (shapeCast_self b _) (ix2 f (0 : Fin 1))
  · exact Ideal.ofBits_zero_f32

/-! ## What each control case leaves in the carried block -/

theorem hz : (![0, 0] : Fin 2 → Nat) = fun _ => 0 := funext fun a => by fin_cases a <;> rfl

/-- The first edge block of a run: zeros are stored and read back, then the block's contribution is added. -/
theorem out_A (c : Dev nD) (i : grid2.Coords) (arg2 : Memref sig .tc .vmem S64x2048 .f32) (harg2 : arg2.IsWhole) (arg3 : Memref sig .tc .vmem S2048x1 .i32) (harg3 : arg3.IsWhole)
    (arg4 : Memref sig .tc .vmem S64x1 .f32) (harg4 : arg4.IsWhole) (arg5 : Memref sig .tc .vmem S64x2048 .f32) (harg5 : arg5.IsWhole)
    (hc0 : cond2_0 i) (hc1 : ¬cond2_1 i)
    (x0 : Vec Ideal S64x2048 .f32) (x1 : Vec Ideal S2048x1 .i32) (x2 : Vec Ideal S64x1 .f32) :
    out2_A_3 c i arg2 harg2 arg3 harg3 arg4 harg4 arg5 harg5 hc0 hc1 x0 x1 x2 = k2_pay2 i x1 x0 (k2_pay1 (F := Ideal)) := by
  unfold out2_A_3
  rw [View.read_writes_eq_canon _ _ _ (cover2_A_3 c i arg2 harg2 arg3 harg3 arg4 harg4 arg5 harg5 hc0 hc1 x0 x1 x2)]
  unfold kernelRun2_A
  dsimp only
  try sl_unfold_words
  rw [View.canon_cons_unit_zero (S := S64x2048) hz]
  simp only [View.readAt_eq_ld, harg2.read_unread, harg3.read_unread, View.readCov_unit_zero (S := S64x2048) _ hz,
    View.ld_unit_zero (S := S64x2048) hz, View.ld_unit_zero (S := S2048x1) hz]

/-- A middle edge block: the block's contribution is added to what the point before left. -/
theorem out_B (c : Dev nD) (i : grid2.Coords) (arg2 : Memref sig .tc .vmem S64x2048 .f32) (harg2 : arg2.IsWhole) (arg3 : Memref sig .tc .vmem S2048x1 .i32) (harg3 : arg3.IsWhole)
    (arg4 : Memref sig .tc .vmem S64x1 .f32) (harg4 : arg4.IsWhole) (arg5 : Memref sig .tc .vmem S64x2048 .f32) (harg5 : arg5.IsWhole)
    (hc0 : ¬cond2_0 i) (hc1 : ¬cond2_1 i)
    (x0 : Vec Ideal S64x2048 .f32) (x1 : Vec Ideal S2048x1 .i32) (x2 : Vec Ideal S64x1 .f32) (xo3 : Vec Ideal S64x2048 .f32) :
    out2_B_3 c i arg2 harg2 arg3 harg3 arg4 harg4 arg5 harg5 hc0 hc1 x0 x1 x2 xo3 = k2_pay2 i x1 x0 xo3 := by
  unfold out2_B_3
  rw [View.read_writes_eq_canon _ _ _ (cover2_B_3 c i arg2 harg2 arg3 harg3 arg4 harg4 arg5 harg5 hc0 hc1 x0 x1 x2 xo3)]
  unfold kernelRun2_B
  dsimp only
  try sl_unfold_words
  rw [View.canon_unit_zero (S := S64x2048) hz]
  simp only [View.readAt_eq_ld, harg2.read_unread, harg3.read_unread, harg5.read_unread,
    View.ld_unit_zero (S := S64x2048) hz, View.ld_unit_zero (S := S2048x1) hz]

/-- The last edge block of a run: the contribution is added, then the bias is added and the block rectified. -/
theorem out_C (c : Dev nD) (i : grid2.Coords) (arg2 : Memref sig .tc .vmem S64x2048 .f32) (harg2 : arg2.IsWhole) (arg3 : Memref sig .tc .vmem S2048x1 .i32) (harg3 : arg3.IsWhole)
    (arg4 : Memref sig .tc .vmem S64x1 .f32) (harg4 : arg4.IsWhole) (arg5 : Memref sig .tc .vmem S64x2048 .f32) (harg5 : arg5.IsWhole)
    (hc0 : ¬cond2_0 i) (hc1 : cond2_1 i)
    (x0 : Vec Ideal S64x2048 .f32) (x1 : Vec Ideal S2048x1 .i32) (x2 : Vec Ideal S64x1 .f32) (xo3 : Vec Ideal S64x2048 .f32) :
    out2_C_3 c i arg2 harg2 arg3 harg3 arg4 harg4 arg5 harg5 hc0 hc1 x0 x1 x2 xo3 = k2_pay3 (k2_pay2 i x1 x0 xo3) x2 := by
  unfold out2_C_3
  rw [View.read_writes_eq_canon _ _ _ (cover2_C_3 c i arg2 harg2 arg3 harg3 arg4 harg4 arg5 harg5 hc0 hc1 x0 x1 x2 xo3)]
  unfold kernelRun2_C
  dsimp only
  try sl_unfold_words
  rw [View.canon_cons_unit_zero (S := S64x2048) hz]
  simp only [View.readAt_eq_ld, harg2.read_unread, harg3.read_unread, harg4.read_unread, harg5.read_unread,
    View.readCov_unit_zero (S := S64x2048) _ hz,
    View.ld_unit_zero (S := S64x2048) hz, View.ld_unit_zero (S := S2048x1) hz, View.ld_unit_zero (S := S64x1) hz]

/-! ## The grid's coordinates and the windows' block indices at a point -/

/-- Point t of the 49 × 831 grid has first coordinate t / 831 … -/
theorem coord0 (t : Fin cfg2.N) : (grid2.coords t 0).val = t.val / 831 := by
  have hN : t.val < 40719 := lt_of_lt_of_eq t.isLt (show cfg2.N = 40719 from N_2)
  show t.val / grid2.stride 0 % grid2.bound 0 = _
  rw [show grid2.stride 0 = 831 from by decide, show grid2.bound 0 = 49 from rfl]
  omega

/-- … and second coordinate t % 831. -/
theorem coord1 (t : Fin cfg2.N) : (grid2.coords t 1).val = t.val % 831 := by
  show t.val / grid2.stride 1 % grid2.bound 1 = _
  rw [show grid2.stride 1 = 1 from by decide, show grid2.bound 1 = 831 from rfl]
  omega

/-- A grid coordinate as a 32-bit word and back is itself. -/
theorem word_coord (n : Nat) (h : n < 40719) : (BitVec.ofNat 32 n).toNat = n := by
  rw [BitVec.toNat_ofNat]
  exact Nat.mod_eq_of_lt (lt_trans h (by norm_num))

/-- The message window sits at block (0, t % 831). -/
theorem idx_msg (t : Fin cfg2.N) : win2_0.index t (0 : Fin 2) = 0 ∧ win2_0.index t (1 : Fin 2) = t.val % 831 := by
  have hN : t.val < 40719 := lt_of_lt_of_eq t.isLt (show cfg2.N = 40719 from N_2)
  refine ⟨rfl, ?_⟩
  show (BitVec.ofNat 32 (grid2.coords t 1).val).toNat = _
  rw [coord1, word_coord _ (by omega)]

/-- The target-word window sits at block (t % 831, 0). -/
theorem idx_col (t : Fin cfg2.N) : win2_1.index t (0 : Fin 2) = t.val % 831 ∧ win2_1.index t (1 : Fin 2) = 0 := by
  have hN : t.val < 40719 := lt_of_lt_of_eq t.isLt (show cfg2.N = 40719 from N_2)
  refine ⟨?_, rfl⟩
  show (BitVec.ofNat 32 (grid2.coords t 1).val).toNat = _
  rw [coord1, word_coord _ (by omega)]

/-- The bias window is the whole bias. -/
theorem idx_bias (t : Fin cfg2.N) : win2_2.index t (0 : Fin 2) = 0 ∧ win2_2.index t (1 : Fin 2) = 0 := ⟨rfl, rfl⟩

/-- The result window sits at block (0, t / 831). -/
theorem idx_out (t : Fin cfg2.N) : win2_3.index t (0 : Fin 2) = 0 ∧ win2_3.index t (1 : Fin 2) = t.val / 831 := by
  have hN : t.val < 40719 := lt_of_lt_of_eq t.isLt (show cfg2.N = 40719 from N_2)
  refine ⟨rfl, ?_⟩
  show (BitVec.ofNat 32 (grid2.coords t 0).val).toNat = _
  rw [coord0, word_coord _ (by omega)]

variable (V : (c : Dev nD) → (b : Ref sig .tc) → Buf (Elt Ideal) ((c : Thread nD τ).loc b))

/-! ## The arrays and the input blocks, by their literal types -/

/-- The messages [64, 1701888], the target words [1701888, 1] and the bias [64, 1] as the region finds them. -/
abbrev msgA (c : Dev nD) : S64x1701888.Idx → EReal := V c main_v45
abbrev colA (c : Dev nD) : S1701888x1.Idx → BitVec 32 := V c main_v46
abbrev biasA (c : Dev nD) : S64x1.Idx → EReal := V c main_v47

/-- The three input blocks at point t. -/
abbrev mblk (c : Dev nD) (t : Fin cfg2.N) : Vec Ideal S64x2048 .f32 := iblk2 V c 0 t
abbrev wblk (c : Dev nD) (t : Fin cfg2.N) : Vec Ideal S2048x1 .i32 := iblk2 V c 1 t
abbrev bblk (c : Dev nD) (t : Fin cfg2.N) : Vec Ideal S64x1 .f32 := iblk2 V c 2 t

/-- Entry (f, e') of the message block at point t is the message of edge 2048·(t % 831) + e' in row f. -/
theorem mblk_apply (c : Dev nD) (t : Fin cfg2.N) (f : Fin 64) (e' : Fin 2048) (k : Fin 1701888)
    (hk : k.val = 2048 * (t.val % 831) + e'.val) : mblk V c t (ix2 f e') = msgA V c (ix2 f k) := by
  obtain ⟨h0, h1⟩ := idx_msg t
  show ((cfg2.win 0).blk t).view.read (Elt Ideal) (V c (Pipeline.arrRef spec2 0)) (ix2 f e') = _
  rw [View.read_apply]
  show V c main_v45 _ = V c main_v45 _
  refine congrArg (V c main_v45) (funext fun a => Fin.ext ?_)
  match a with
  | ⟨0, _⟩ => show win2_0.index t (0 : Fin 2) * 64 + 1 * f.val = f.val; rw [h0]; omega
  | ⟨1, _⟩ => show win2_0.index t (1 : Fin 2) * 2048 + 1 * e'.val = k.val; rw [h1, hk]; omega

/-- Entry (e', 0) of the word block at point t is the target word of edge 2048·(t % 831) + e'. -/
theorem wblk_apply (c : Dev nD) (t : Fin cfg2.N) (e' : Fin 2048) (k : Fin 1701888)
    (hk : k.val = 2048 * (t.val % 831) + e'.val) : wblk V c t (ix2 e' (0 : Fin 1)) = colA V c (ix2 k (0 : Fin 1)) := by
  obtain ⟨h0, h1⟩ := idx_col t
  show ((cfg2.win 1).blk t).view.read (Elt Ideal) (V c (Pipeline.arrRef spec2 1)) (ix2 e' (0 : Fin 1)) = _
  rw [View.read_apply]
  show V c main_v46 _ = V c main_v46 _
  refine congrArg (V c main_v46) (funext fun a => Fin.ext ?_)
  match a with
  | ⟨0, _⟩ => show win2_1.index t (0 : Fin 2) * 2048 + 1 * e'.val = k.val; rw [h0, hk]; omega
  | ⟨1, _⟩ => show win2_1.index t (1 : Fin 2) * 1 + 1 * 0 = 0; rw [h1]

/-- The bias block at any point is the whole bias. -/
theorem bblk_apply (c : Dev nD) (t : Fin cfg2.N) (f : Fin 64) :
    bblk V c t (ix2 f (0 : Fin 1)) = biasA V c (ix2 f (0 : Fin 1)) := by
  obtain ⟨h0, h1⟩ := idx_bias t
  show ((cfg2.win 2).blk t).view.read (Elt Ideal) (V c (Pipeline.arrRef spec2 2)) (ix2 f (0 : Fin 1)) = _
  rw [View.read_apply]
  show V c main_v47 _ = V c main_v47 _
  refine congrArg (V c main_v47) (funext fun a => Fin.ext ?_)
  match a with
  | ⟨0, _⟩ => show win2_2.index t (0 : Fin 2) * 64 + 1 * f.val = f.val; rw [h0]; omega
  | ⟨1, _⟩ => show win2_2.index t (1 : Fin 2) * 1 + 1 * 0 = 0; rw [h1]

/-! ## One point's contribution, and the carried block point by point -/

/-- What point t adds at entry (f, n') of the carried block: the one-hot sum over the 2048 edges of its blocks. -/
def addend (c : Dev nD) (t : Fin cfg2.N) (f : Fin 64) (n' : Fin 2048) : EReal :=
  ∑ e' : Fin 2048, mblk V c t (ix2 f e') *
    hot (wblk V c t (ix2 e' (0 : Fin 1)) = BitVec.ofNat 32 (2048 * (grid2.coords t 0).val + n'.val))

/-- The same for every natural number (zero past the grid), so that sums over ranges of points can be written. -/
def addN (c : Dev nD) (t : ℕ) (f : Fin 64) (n' : Fin 2048) : EReal :=
  if h : t < cfg2.N then addend V c ⟨t, h⟩ f n' else 0

theorem addN_of_lt (c : Dev nD) (t : ℕ) (h : t < cfg2.N) (f : Fin 64) (n' : Fin 2048) :
    addN V c t f n' = addend V c ⟨t, h⟩ f n' := dif_pos h

/-- The carried block's contents depend on the point's number only. -/
theorem outsAt_congr (c : Dev nD) (a b : ℕ) (ha : a < cfg2.N) (hb : b < cfg2.N) (e : a = b) :
    outsAt2 V c a ha = outsAt2 V c b hb := by
  subst e; rfl

/-- At the first point of a run the block holds that point's contribution. -/
theorem step_A (c : Dev nD) (t : Fin cfg2.N) (h0 : t.val % 831 = 0) (h1 : ¬t.val % 831 = 830) (f : Fin 64) (n' : Fin 2048) :
    outsAt2 V c t.val t.isLt (ix2 f n') = addend V c t f n' := by
  rw [outsAt2_A V c t h0 h1]
  refine (congrFun (out_A c (grid2.coords t) (ms2_0 t) (hs2_0 t) (ms2_1 t) (hs2_1 t) (ms2_2 t) (hs2_2 t) (ms2_3 t) (hs2_3 t)
    ((hcond2_0 t).mpr h0) (fun h => h1 ((hcond2_1 t).mp h)) (mblk V c t) (wblk V c t) (bblk V c t)) (ix2 f n')).trans ?_
  refine (pay2_apply (grid2.coords t) (wblk V c t) (mblk V c t) (k2_pay1 (F := Ideal)) f n').trans ?_
  rw [pay1_apply, zero_add]
  rfl

/-- At a middle point it holds what the point before left plus the point's contribution. -/
theorem step_B (c : Dev nD) (t : Fin cfg2.N) (h0 : ¬t.val % 831 = 0) (h1 : ¬t.val % 831 = 830) (f : Fin 64) (n' : Fin 2048) :
    outsAt2 V c t.val t.isLt (ix2 f n')
      = outsAt2 V c (t.val - 1) (Nat.lt_of_le_of_lt (Nat.sub_le _ _) t.isLt) (ix2 f n') + addend V c t f n' := by
  rw [outsAt2_B V c t h0 h1]
  refine (congrFun (out_B c (grid2.coords t) (ms2_0 t) (hs2_0 t) (ms2_1 t) (hs2_1 t) (ms2_2 t) (hs2_2 t) (ms2_3 t) (hs2_3 t)
    (fun h => h0 ((hcond2_0 t).mp h)) (fun h => h1 ((hcond2_1 t).mp h)) (mblk V c t) (wblk V c t) (bblk V c t)
    (outsAt2 V c (t.val - 1) (Nat.lt_of_le_of_lt (Nat.sub_le _ _) t.isLt))) (ix2 f n')).trans ?_
  exact pay2_apply (grid2.coords t) (wblk V c t) (mblk V c t)
    (outsAt2 V c (t.val - 1) (Nat.lt_of_le_of_lt (Nat.sub_le _ _) t.isLt)) f n'

/-- At the last point of a run: the same, plus the bias of the row, rectified. -/
theorem step_C (c : Dev nD) (t : Fin cfg2.N) (h0 : ¬t.val % 831 = 0) (h1 : t.val % 831 = 830) (f : Fin 64) (n' : Fin 2048) :
    outsAt2 V c t.val t.isLt (ix2 f n')
      = max ((outsAt2 V c (t.val - 1) (Nat.lt_of_le_of_lt (Nat.sub_le _ _) t.isLt) (ix2 f n') + addend V c t f n')
          + bblk V c t (ix2 f (0 : Fin 1))) 0 := by
  rw [outsAt2_C V c t h0 h1]
  refine (congrFun (out_C c (grid2.coords t) (ms2_0 t) (hs2_0 t) (ms2_1 t) (hs2_1 t) (ms2_2 t) (hs2_2 t) (ms2_3 t) (hs2_3 t)
    (fun h => h0 ((hcond2_0 t).mp h)) ((hcond2_1 t).mpr h1) (mblk V c t) (wblk V c t) (bblk V c t)
    (outsAt2 V c (t.val - 1) (Nat.lt_of_le_of_lt (Nat.sub_le _ _) t.isLt))) (ix2 f n')).trans ?_
  refine (pay3_apply (k2_pay2 (grid2.coords t) (wblk V c t) (mblk V c t)
    (outsAt2 V c (t.val - 1) (Nat.lt_of_le_of_lt (Nat.sub_le _ _) t.isLt))) (bblk V c t) f n').trans ?_
  refine congrArg (fun z : EReal => max (z + bblk V c t (ix2 f (0 : Fin 1))) 0) ?_
  exact pay2_apply (grid2.coords t) (wblk V c t) (mblk V c t)
    (outsAt2 V c (t.val - 1) (Nat.lt_of_le_of_lt (Nat.sub_le _ _) t.isLt)) f n'

/-- THE RUNNING SUM. After the j-th point (j ≤ 829) of the d-th run the carried block holds, at (f, n'), the sum of the
    contributions of the run's points 0 … j: by induction on j. -/
theorem partial_sum (c : Dev nD) (d : ℕ) (hd : d < 49) (f : Fin 64) (n' : Fin 2048) :
    ∀ (j : ℕ) (hj : j ≤ 829) (h : 831 * d + j < cfg2.N),
      outsAt2 V c (831 * d + j) h (ix2 f n') = ∑ s ∈ Finset.range (j + 1), addN V c (831 * d + s) f n'
  | 0, _, h => by
    rw [Finset.sum_range_succ, Finset.sum_range_zero, zero_add, addN_of_lt V c (831 * d + 0) h f n']
    exact step_A V c ⟨831 * d + 0, h⟩ (by dsimp only; omega) (by dsimp only; omega) f n'
  | j + 1, hj, h => by
    have hN : 831 * d + (j + 1) < 40719 := lt_of_lt_of_eq h (show cfg2.N = 40719 from N_2)
    have hlt : 831 * d + j < cfg2.N := Nat.lt_of_succ_lt h
    rw [Finset.sum_range_succ, addN_of_lt V c (831 * d + (j + 1)) h f n', ← partial_sum c d hd f n' j (by omega) hlt]
    refine (step_B V c ⟨831 * d + (j + 1), h⟩ (by dsimp only; omega) (by dsimp only; omega) f n').trans ?_
    refine congrArg (fun z : EReal => z + addend V c ⟨831 * d + (j + 1), h⟩ f n') ?_
    exact congrFun (outsAt_congr V c _ _ _ _ (by dsimp only; omega)) (ix2 f n')

/-! ## The sums over the whole edge axis -/

/-- The 1701888 edges summed block by block: 831 blocks of 2048. -/
theorem sum_blocks (g : Fin 1701888 → EReal) :
    ∑ e : Fin 1701888, g e
      = ∑ s : Fin 831, ∑ e' : Fin 2048, g ⟨2048 * s.val + e'.val, by have := s.isLt; have := e'.isLt; omega⟩ := by
  rw [← Equiv.sum_comp ((finProdFinEquiv (m := 831) (n := 2048)).trans (finCongr (by norm_num : 831 * 2048 = 1701888))) g,
    Fintype.sum_prod_type]
  refine Finset.sum_congr rfl fun s _ => Finset.sum_congr rfl fun e' _ => congrArg g (Fin.ext ?_)
  show e'.val + 2048 * s.val = 2048 * s.val + e'.val
  omega

/-- The specification's summand at edge e for row f and column number m. -/
def term (c : Dev nD) (f : Fin 64) (m : ℕ) (e : Fin 1701888) : EReal :=
  msgA V c (ix2 f e) * hot (colA V c (ix2 e (0 : Fin 1)) = BitVec.ofNat 32 m)

/-- The contribution of the s-th point of the d-th run is the sum of the specification's summands over the edges
    2048·s … 2048·s + 2047, at column 2048·d + n'. -/
theorem addend_eq (c : Dev nD) (d s : ℕ) (hd : d < 49) (hs : s < 831) (h : 831 * d + s < cfg2.N) (f : Fin 64) (n' : Fin 2048) :
    addend V c ⟨831 * d + s, h⟩ f n'
      = ∑ e' : Fin 2048, term V c f (2048 * d + n'.val) ⟨2048 * s + e'.val, by have := e'.isLt; omega⟩ := by
  unfold addend term
  refine Finset.sum_congr rfl fun e' _ => ?_
  have hb : 2048 * s + e'.val < 1701888 := by have := e'.isLt; omega
  have hk : (⟨2048 * s + e'.val, hb⟩ : Fin 1701888).val
      = 2048 * ((⟨831 * d + s, h⟩ : Fin cfg2.N).val % 831) + e'.val := by
    dsimp only; omega
  refine congrArg₂ (fun a b : EReal => a * b)
    (mblk_apply V c ⟨831 * d + s, h⟩ f e' ⟨2048 * s + e'.val, hb⟩ hk) (hot_congr ?_)
  rw [wblk_apply V c ⟨831 * d + s, h⟩ e' ⟨2048 * s + e'.val, hb⟩ hk, coord0 ⟨831 * d + s, h⟩,
    show (⟨831 * d + s, h⟩ : Fin cfg2.N).val / 831 = d from by dsimp only; omega]

/-- The contributions of the 831 points of the d-th run add up to the specification's sum over all edges. -/
theorem run_sum (c : Dev nD) (d : ℕ) (hd : d < 49) (f : Fin 64) (n' : Fin 2048) :
    ∑ s ∈ Finset.range 831, addN V c (831 * d + s) f n' = ∑ e : Fin 1701888, term V c f (2048 * d + n'.val) e := by
  rw [Finset.sum_range, sum_blocks]
  refine Finset.sum_congr rfl fun s _ => ?_
  have hs : 831 * d + s.val < cfg2.N := by rw [show cfg2.N = 40719 from N_2]; have := s.isLt; omega
  exact (addN_of_lt V c (831 * d + s.val) hs f n').trans (addend_eq V c d s.val hd s.isLt hs f n')

/-- The specification's value at row f and column n. -/
def spec (c : Dev nD) (f : Fin 64) (n : Fin 100352) : EReal :=
  max (scatterT (fun f' e => V c main_v45 (ix2 f' e)) (fun e => V c main_v46 (ix2 e (0 : Fin 1)))
    (fun f' => V c main_v47 (ix2 f' (0 : Fin 1))) f n) 0

/-- AFTER THE LAST POINT of the d-th run the carried block holds the specification's values of the columns
    2048·d … 2048·d + 2047. -/
theorem last_eq (c : Dev nD) (d : ℕ) (hd : d < 49) (t : Fin cfg2.N) (ht : t.val = 831 * d + 830) (f : Fin 64) (n' : Fin 2048) :
    outsAt2 V c t.val t.isLt (ix2 f n') = spec V c f ⟨2048 * d + n'.val, by have := n'.isLt; omega⟩ := by
  obtain ⟨tv, tlt⟩ := t
  dsimp only at ht
  subst ht
  have hN : 831 * d + 830 < 40719 := lt_of_lt_of_eq tlt (show cfg2.N = 40719 from N_2)
  have h829 : 831 * d + 829 < cfg2.N := by rw [show cfg2.N = 40719 from N_2]; omega
  have e1 : outsAt2 V c ((⟨831 * d + 830, tlt⟩ : Fin cfg2.N).val - 1) (Nat.lt_of_le_of_lt (Nat.sub_le _ _) tlt) (ix2 f n')
      = ∑ s ∈ Finset.range 830, addN V c (831 * d + s) f n' :=
    (congrFun (outsAt_congr V c _ (831 * d + 829) _ h829 (by dsimp only; omega)) (ix2 f n')).trans
      (partial_sum V c d hd f n' 829 (le_refl _) h829)
  refine (step_C V c ⟨831 * d + 830, tlt⟩ (by dsimp only; omega) (by dsimp only; omega) f n').trans ?_
  unfold spec Cert.Gcn.scatterT
  refine congrArg₂ (fun a b : EReal => max (a + b) 0) ?_ (bblk_apply V c ⟨831 * d + 830, tlt⟩ f)
  refine (congrArg₂ (fun a b : EReal => a + b) e1 (addN_of_lt V c (831 * d + 830) tlt f n').symm).trans ?_
  refine (Finset.sum_range_succ (fun s => addN V c (831 * d + s) f n') 830).symm.trans ?_
  exact run_sum V c d hd f n'

/-! ## From the blocks to the array -/

/-- The array [64, 100352] whose entry (f, n) is g f n. -/
def arrOf (g : Fin 64 → Fin 100352 → EReal) : S64x100352.Idx → EReal :=
  fun i => g ⟨(i 0).val, idx2_lt0 i⟩ ⟨(i 1).val, idx2_lt1 i⟩

theorem arrOf_ix2 (g : Fin 64 → Fin 100352 → EReal) (f : Fin 64) (n : Fin 100352) : arrOf g (ix2 f n) = g f n := rfl

/-- A block [64, 2048] whose entry (f, n') is g f (2048·d + n'), cut to what point t writes back, is the block at (0, d)
    of the array of g: stated for any g and any block. -/
theorem cut_eq_read (g : Fin 64 → Fin 100352 → EReal) (t : Fin cfg2.N) (d : ℕ) (hd : d < 49)
    (hi : win2_3.index t (1 : Fin 2) = d) (X : Vec Ideal S64x2048 .f32)
    (hX : ∀ (f : Fin 64) (n' : Fin 2048), X (ix2 f n') = g f ⟨2048 * d + n'.val, by have := n'.isLt; omega⟩) :
    (cfg2.win 3).cut (grid2.coords t) X = ((cfg2.win 3).blk t).view.read (Elt Ideal) (arrOf g) := by
  obtain ⟨i0, -⟩ := idx_out t
  funext y
  have hy0 : (y 0).val < 64 := (y 0).isLt
  have hy1 : (y 1).val < 2048 := (y 1).isLt
  have hb : 2048 * d + (y 1).val < 100352 := by omega
  rw [View.read_apply]
  have hj : (cfg2.win 3).xinj (grid2.coords t) y = ix2 (⟨(y 0).val, hy0⟩ : Fin 64) (⟨(y 1).val, hy1⟩ : Fin 2048) :=
    funext fun a => by match a with | ⟨0, _⟩ => rfl | ⟨1, _⟩ => rfl
  refine ((congrArg X hj).trans (hX ⟨(y 0).val, hy0⟩ ⟨(y 1).val, hy1⟩)).trans ?_
  refine (arrOf_ix2 g ⟨(y 0).val, hy0⟩ ⟨2048 * d + (y 1).val, hb⟩).symm.trans ?_
  refine congrArg (arrOf g) (funext fun a => Fin.ext ?_)
  match a with
  | ⟨0, _⟩ => show (y 0).val = win2_3.index t (0 : Fin 2) * 64 + 1 * (y 0).val; rw [i0]; omega
  | ⟨1, _⟩ => show 2048 * d + (y 1).val = win2_3.index t (1 : Fin 2) * 2048 + 1 * (y 1).val; rw [hi]; omega

/-- What the last point of a run writes back is its block of the array of the specification's values. -/
theorem flushed_eq (c : Dev nD) (t : Fin cfg2.N) (hf : (cfg2.win 3).flush t = true) :
    (dat2 V c).flushed 3 t = ((cfg2.win 3).blk t).view.read (Elt Ideal) (arrOf (spec V c)) := by
  have hN : t.val < 40719 := lt_of_lt_of_eq t.isLt (show cfg2.N = 40719 from N_2)
  have h830 : t.val % 831 = 830 := (flush2_3 t).mp hf
  obtain ⟨-, i1⟩ := idx_out t
  show (cfg2.win 3).cut (grid2.coords t) ((dat2 V c).after 3 t) = _
  rw [after2_3]
  exact cut_eq_read (spec V c) t (t.val / 831) (by omega) i1 (outsAt2 V c t.val t.isLt)
    (fun f n' => last_eq V c (t.val / 831) (by omega) t (by omega) f n')

/-- An entry of the array lies in point t's block iff each coordinate lies in the block's range. -/
theorem mem_blk (t : Fin cfg2.N) (i : S64x100352.Idx) :
    i ∈ ((cfg2.win 3).blk t).view.set ↔
      ∀ a : Fin 2, win2_3.index t a * S64x2048.size a ≤ (i a).val ∧ (i a).val < win2_3.index t a * S64x2048.size a + S64x2048.size a := by
  show i ∈ ((View.whole main_v48).slice (win2_3.rect t)).set ↔ _
  rw [View.set_slice_whole, Rect.mem_set_unit]
  exact Iff.rfl

/-- Column n lies in the block the last point of run n / 2048 writes back. -/
theorem cover (c : Dev nD) (i : S64x100352.Idx) :
    ∃ t : Fin cfg2.N, (cfg2.win 3).flush t = true ∧ i ∈ ((cfg2.win 3).blk t).view.set := by
  have hi0 : (i 0).val < 64 := (i 0).isLt
  have hi1 : (i 1).val < 100352 := (i 1).isLt
  have hlt : 831 * ((i 1).val / 2048) + 830 < cfg2.N := by rw [show cfg2.N = 40719 from N_2]; omega
  refine ⟨⟨831 * ((i 1).val / 2048) + 830, hlt⟩, (flush2_3 _).mpr (by dsimp only; omega), ?_⟩
  obtain ⟨i0, i1⟩ := idx_out ⟨831 * ((i 1).val / 2048) + 830, hlt⟩
  rw [mem_blk]
  intro a
  match a with
  | ⟨0, _⟩ =>
    show win2_3.index ⟨831 * ((i 1).val / 2048) + 830, hlt⟩ (0 : Fin 2) * 64 ≤ (i 0).val
      ∧ (i 0).val < win2_3.index ⟨831 * ((i 1).val / 2048) + 830, hlt⟩ (0 : Fin 2) * 64 + 64
    rw [i0]; omega
  | ⟨1, _⟩ =>
    show win2_3.index ⟨831 * ((i 1).val / 2048) + 830, hlt⟩ (1 : Fin 2) * 2048 ≤ (i 1).val
      ∧ (i 1).val < win2_3.index ⟨831 * ((i 1).val / 2048) + 830, hlt⟩ (1 : Fin 2) * 2048 + 2048
    rw [i1]; dsimp only; omega

/-- THE REGION'S VALUE: after the region the aggregate holds, at row f and column n, the messages of the edges whose
    target word is n — summed by a one-hot sum over all 1701888 edges, block by block —, plus the bias, rectified. -/
theorem value (c : Dev nD) (f : Fin 64) (n : Fin 100352) :
    (dat2 (F := Ideal) V c).arrAt 3 cfg2.N (ix2 f n)
      = max (Cert.Gcn.scatterT (fun f' e => V c main_v45 (ix2 f' e)) (fun e => V c main_v46 (ix2 e (0 : Fin 1)))
          (fun f' => V c main_v47 (ix2 f' (0 : Fin 1))) f n) 0 :=
  (congrFun ((dat2 V c).arrAt_eq_of_cover 3 (arrOf (spec V c)) (flushed_eq V c) (cover c)) (ix2 f n)).trans
    (arrOf_ix2 (spec V c) f n)

end Cert.KernelIdeal.Reg2

end
-- ==== Proof.Reg3.lean ====
/-
  REGION 3, the second projection: the kernel multiplies the transposed weights [32, 64] with one 2048-column block
  of the hidden table [64, 100352] per grid point; the 49 blocks tile the result [32, 100352].

  The argument. At the ideal values a change of float format is the identity and a matrix product into the zero
  accumulator is the plain sum of products, so the body leaves, at entry (p, q) of its result block,
  ∑ k, w (p, k) · x (k, q) of the two blocks it was given. At grid point t the weight block is the whole weight
  array and the hidden block is columns 2048 t … 2048 t + 2047 of the table, so what point t writes back is
  block (0, t) of ONE function of the whole arrays: G (f, j) = ∑ k, wT (f, k) · hT (k, j). Column j lies in the
  block of point j / 2048 and every point writes its block back, so the result array ends holding G everywhere.
-/
import proofs.«429796_j5497558139162_1_alg».proof.Proof.FrameKI
import proofs.«429796_j5497558139162_1_alg».proof.Proof.Spec
import proofs.«429796_j5497558139162_1_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Reg3

open Cert.KernelIdeal Cert.KernelIdeal.Gen Cert.KernelIdeal.GenP

variable (V : (c : Dev nD) → (b : Ref sig .tc) → Buf (Elt Ideal) ((c : Thread nD τ).loc b))

/-! ## The body at an entry of its block -/

/-- The offsets of an access to a whole buffer are zero on both axes. -/
theorem hz : (![0, 0] : Fin 2 → Nat) = fun _ => 0 := funext fun a => by
  match a with
  | ⟨0, _⟩ => rfl
  | ⟨1, _⟩ => rfl

/-- What the body stores, at an entry y of the result block: the format changes are the identity and the product
    into the zero accumulator is the plain sum, so the entry is row (y 0) of the weight block times column (y 1)
    of the hidden block. -/
theorem pay_apply (x : Vec Ideal S64x2048 .f32) (w : Vec Ideal S32x64 .f32) (y : S32x2048.Idx) :
    k3_pay1 (F := Ideal) x w y
      = ∑ k : Fin 64, w (ix2 ⟨(y 0).val, (y 0).isLt⟩ k) * x (ix2 k ⟨(y 1).val, (y 1).isLt⟩) := by
  unfold k3_pay1
  refine (PlainDot.matmul_zero_apply_at (M := 32) (K := 64) (N := 2048)
    dot_S32x64_S64x2048_S32x2048_1_0_0_1_n_n rfl rfl rfl rfl rfl rfl rfl rfl none _ _ y).trans ?_
  refine Finset.sum_congr rfl fun k _ => ?_
  simp only [truncf_apply, shapeCast_self]

/-! ## The grid's index maps -/

/-- The three index maps over the 49 grid points: the hidden window and the result window sit at block (0, t), the
    weight window at block (0, 0). -/
theorem idx_facts : ∀ t : Fin cfg3.N,
    win3_0.index t (0 : Fin 2) = 0 ∧ win3_0.index t (1 : Fin 2) = t.val
    ∧ win3_1.index t (0 : Fin 2) = 0 ∧ win3_1.index t (1 : Fin 2) = 0
    ∧ win3_2.index t (0 : Fin 2) = 0 ∧ win3_2.index t (1 : Fin 2) = t.val :=
  (by decide +kernel : ∀ t : Fin grid3.N, _)

/-! ## The input blocks as parts of the whole arrays -/

/-- The weight block at any point is the whole weight array: entry (p, k) of the block is entry (p, k) of the array
    (the row given twice, as a number below 32, so that it can be read off either side). -/
theorem wblk_apply (c : Dev nD) (t : Fin cfg3.N) (p p' : Fin 32) (k : Fin 64) (hp : p'.val = p.val) :
    (iblk3 V c 1 t : Vec Ideal S32x64 .f32) (ix2 p k) = (V c main_v49 : S32x64.Idx → EReal) (ix2 p' k) := by
  obtain ⟨-, -, e2, e3, -, -⟩ := idx_facts t
  unfold iblk3
  rw [View.read_apply]
  show (V c main_v49 : S32x64.Idx → EReal) (((cfg3.win 1).blk t).view.emb (ix2 p k)) = _
  congr 1
  funext a
  apply Fin.ext
  match a with
  | ⟨0, _⟩ => show win3_1.index t (0 : Fin 2) * 32 + 1 * p.val = p'.val; omega
  | ⟨1, _⟩ => show win3_1.index t (1 : Fin 2) * 64 + 1 * k.val = k.val; omega

/-- The hidden block at point t is columns 2048 t … 2048 t + 2047 of the table: entry (k, q) of the block is entry
    (k, 2048 t + q) of the array. -/
theorem xblk_apply (c : Dev nD) (t : Fin cfg3.N) (k : Fin 64) (q : Fin 2048) (j : Fin 100352)
    (hj : j.val = t.val * 2048 + q.val) :
    (iblk3 V c 0 t : Vec Ideal S64x2048 .f32) (ix2 k q) = (V c main_v48 : S64x100352.Idx → EReal) (ix2 k j) := by
  obtain ⟨e0, e1, -, -, -, -⟩ := idx_facts t
  unfold iblk3
  rw [View.read_apply]
  show (V c main_v48 : S64x100352.Idx → EReal) (((cfg3.win 0).blk t).view.emb (ix2 k q)) = _
  congr 1
  funext a
  apply Fin.ext
  match a with
  | ⟨0, _⟩ => show win3_0.index t (0 : Fin 2) * 64 + 1 * k.val = k.val; omega
  | ⟨1, _⟩ => show win3_0.index t (1 : Fin 2) * 2048 + 1 * q.val = j.val; omega

/-! ## The whole result array -/

/-- The result array as ONE function of the two operand arrays: entry (f, j) is row f of the weight transpose times
    column j of the hidden table. -/
def G (c : Dev nD) : S32x100352.Idx → EReal := fun i =>
  Cert.Gcn.projT (fun f' k => (V c main_v49 : S32x64.Idx → EReal) (ix2 f' k))
    (fun k j' => (V c main_v48 : S64x100352.Idx → EReal) (ix2 k j')) ⟨(i 0).val, (i 0).isLt⟩ ⟨(i 1).val, (i 1).isLt⟩

/-- Entry y of what the body leaves at point t is G at the entry's place in the array, row (y 0) and column
    2048 t + (y 1). -/
theorem body_entry (c : Dev nD) (t : Fin cfg3.N) (y : S32x2048.Idx) (i : S32x100352.Idx)
    (hi0 : (i 0).val = (y 0).val) (hi1 : (i 1).val = t.val * 2048 + (y 1).val) :
    k3_pay1 (F := Ideal) (iblk3 V c 0 t) (iblk3 V c 1 t) y = G V c i := by
  refine (pay_apply (iblk3 V c 0 t) (iblk3 V c 1 t) y).trans ?_
  unfold G Cert.Gcn.projT
  refine Finset.sum_congr rfl fun k _ => ?_
  exact congrArg₂ (· * ·)
    (wblk_apply V c t ⟨(y 0).val, (y 0).isLt⟩ ⟨(i 0).val, (i 0).isLt⟩ k hi0)
    (xblk_apply V c t k ⟨(y 1).val, (y 1).isLt⟩ ⟨(i 1).val, (i 1).isLt⟩ hi1)

/-- WHAT POINT t WRITES BACK is block (0, t) of G. -/
theorem flushed_eq (c : Dev nD) (t : Fin cfg3.N) :
    (dat3 (F := Ideal) V c).flushed 2 t = ((cfg3.win 2).blk t).view.read (Elt Ideal) (G V c) := by
  show (cfg3.win 2).cut (grid3.coords t) ((dat3 (F := Ideal) V c).after 2 t) = _
  rw [after3_2]
  unfold out3_2
  rw [View.canon_unit_zero hz]
  simp only [View.ld_unit_zero (S := S64x2048) hz, View.ld_unit_zero (S := S32x64) hz]
  obtain ⟨-, -, -, -, e4, e5⟩ := idx_facts t
  funext y
  show k3_pay1 (F := Ideal) (iblk3 V c 0 t) (iblk3 V c 1 t) ((cfg3.win 2).xinj (grid3.coords t) y)
    = G V c (((cfg3.win 2).blk t).view.emb y)
  refine body_entry V c t _ _ ?_ ?_
  · show win3_2.index t (0 : Fin 2) * 32 + 1 * (y 0).val = (y 0).val; omega
  · show win3_2.index t (1 : Fin 2) * 2048 + 1 * (y 1).val = t.val * 2048 + (y 1).val; omega

/-! ## The blocks cover the array -/

/-- An index of the array is in point t's block iff each coordinate is in the block's range on its axis. -/
theorem mem_blk (t : Fin cfg3.N) (i : S32x100352.Idx) :
    i ∈ ((cfg3.win 2).blk t).view.set ↔ ∀ a : Fin 2, win3_2.index t a * S32x2048.size a ≤ (i a).val
      ∧ (i a).val < win3_2.index t a * S32x2048.size a + S32x2048.size a := by
  show i ∈ ((View.whole main_v50).slice (win3_2.rect t)).set ↔ _
  rw [View.set_slice_whole, Rect.mem_set_unit]
  exact Iff.rfl

/-- Every index of the result array lies in the block of a point that writes back: column j in that of point j / 2048. -/
theorem cover (i : S32x100352.Idx) :
    ∃ t : Fin cfg3.N, (cfg3.win 2).flush t = true ∧ i ∈ ((cfg3.win 2).blk t).view.set := by
  have hi0 : (i 0).val < 32 := (i 0).isLt
  have hi1 : (i 1).val < 100352 := (i 1).isLt
  have hN : grid3.N = 49 := N_3
  obtain ⟨t, ht⟩ : ∃ t : Fin cfg3.N, t.val = (i 1).val / 2048 :=
    ⟨⟨(i 1).val / 2048, by show (i 1).val / 2048 < grid3.N; rw [hN]; omega⟩, rfl⟩
  obtain ⟨-, -, -, -, e4, e5⟩ := idx_facts t
  refine ⟨t, flush3_2 t, ?_⟩
  rw [mem_blk]
  intro a
  match a with
  | ⟨0, _⟩ =>
    show win3_2.index t (0 : Fin 2) * 32 ≤ (i 0).val ∧ (i 0).val < win3_2.index t (0 : Fin 2) * 32 + 32
    omega
  | ⟨1, _⟩ =>
    show win3_2.index t (1 : Fin 2) * 2048 ≤ (i 1).val ∧ (i 1).val < win3_2.index t (1 : Fin 2) * 2048 + 2048
    omega

/-! ## The region's value -/

/-- The result array after the region is G. -/
theorem final (c : Dev nD) : (dat3 (F := Ideal) V c).arrAt 2 cfg3.N = G V c :=
  (dat3 (F := Ideal) V c).arrAt_eq_of_cover 2 (G V c) (fun t _ => flushed_eq V c t) cover

/-- THE REGION'S VALUE: after the region the result array holds, at row f and column j, the product of the weight
    transpose's row f with the hidden table's column j. -/
theorem value (c : Dev nD) (f : Fin 32) (j : Fin 100352) :
    (dat3 (F := Ideal) V c).arrAt 2 cfg3.N (ix2 f j)
      = Cert.Gcn.projT (fun f' k => V c main_v49 (ix2 f' k)) (fun k j' => V c main_v48 (ix2 k j')) f j :=
  congrFun (final V c) (ix2 f j)

end Cert.KernelIdeal.Reg3

end
-- ==== Proof.Reg4.lean ====
/-
  REGION 4, the second gather: per block of 2048 edges the kernel sums, over the 49 chunks of 2048 table columns, the
  product of the chunk [32, 2048] with the one-hot matrix [2048, 2048] of "column number = source word", and scales
  column e by the edge's weight.

  The value is read off in four steps.
  * One trip of the counted loop, at an entry (f, e) of the accumulator: the trip adds
      ∑ j < 2048, chunk (f, j) · [word (2048·k + j) = source word e] ,
    because a matrix product into the zero accumulator is the plain sum of products, the casts to the
    narrower float format are the identity on extended reals, and the compared words are 2048·k + j (the
    broadcast product k·2048 plus the row number) and the source word of column e.
  * All 49 trips, by induction: 0 + the sum of the 49 contributions; a sum over 49 chunks of 2048 columns is a
    sum over all 100352 columns, column 2048·k + j being the j-th of chunk k.
  * One grid point t: the accumulator times the weights' row is block (0, t) of the whole-array function, the
    source words and weights of the block being entries 2048·t + e of their rows.
  * The 831 blocks [32, 2048] tile the result array [32, 1701888]: column c lies in block c / 2048.
-/
import proofs.«429796_j5497558139162_1_alg».proof.Proof.FrameKI
import proofs.«429796_j5497558139162_1_alg».proof.Proof.Spec
import proofs.«429796_j5497558139162_1_alg».proof.Proof.LibPlainDot
import Idealize.ShloMosaic.Lib.Pipeline.Value
import Idealize.ShloMosaic.Lib.ValueIdx
import Idealize.ShloMosaic.PureOps.Ideal.Laws
import Mathlib.Algebra.BigOperators.Fin

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Reg4

open Cert.KernelIdeal Cert.KernelIdeal.Gen Cert.KernelIdeal.GenP
open Cert.Gcn (hot gatherT)

variable (V : (c : Dev nD) → (b : Ref sig .tc) → Buf (Elt Ideal) ((c : Thread nD τ).loc b))

/-! ## Words, offsets and the one-hot weight -/

/-- The loop makes 49 trips. -/
theorem trips_eq : k4_t1_loop.trips = 49 := by decide +kernel

/-- The word the trip broadcasts, k · 2048 computed on 32 bits, is the word of the number 2048 · k; the chunk the trip
    loads starts at row 0 and column 2048 · k. -/
theorem trip_facts : ∀ k : Fin k4_t1_loop.trips,
    Scalar.muli (Scf.iv 0#32 1#32 k) 2048#32 = BitVec.ofNat 32 (2048 * k.val)
      ∧ k4_off1 k 0 = 0 ∧ k4_off1 k 1 = 2048 * k.val := by decide +kernel

/-- The float of a word comparison widened to 32 bits is the one-hot weight of the words' equality. -/
theorem sitofp_cmpi_eq (a b : BitVec 32) :
    (FloatOps.sitofp (F := Ideal) .f32 ((IntOp.cmpi .eq a b).setWidth 32) : Ideal .f32) = hot (a = b) := by
  show (((((IntOp.cmpi .eq a b).setWidth 32).toInt : ℤ) : ℝ) : EReal) = hot (a = b)
  unfold IntOp.cmpi hot
  by_cases h : a = b
  · have e1 : (a == b) = true := by simpa using h
    have e2 : ((BitVec.ofBool true).setWidth 32).toInt = 1 := by decide
    rw [if_pos h]; dsimp only; rw [e1, e2]; simp
  · have e1 : (a == b) = false := by simpa using h
    have e2 : ((BitVec.ofBool false).setWidth 32).toInt = 0 := by decide
    rw [if_neg h]; dsimp only; rw [e1, e2]; simp

/-! ## Layout operations at an entry -/

theorem hz : (![0, 0] : Fin 2 → Nat) = fun _ => 0 := funext fun a => by fin_cases a <;> rfl

/-- A column [2048, 1] broadcast along the second axis, at (j, e): the column's entry j. -/
theorem bcast_col {α : Type} (x : S2048x1.Idx → α) (h : S2048x1.Broadcasts S2048x2048) (j e : Fin 2048) :
    broadcastTo S2048x2048 x h (ix2 j e) = x (ix2 j (0 : Fin 1)) :=
  broadcastTo_apply x h (ix2 j e) (ix2 j (0 : Fin 1)) fun a => by
    match a with
    | ⟨0, _⟩ => rfl
    | ⟨1, _⟩ => rfl

/-- A row [1, 2048] broadcast along the first axis to [2048, 2048], at (j, e): the row's entry e. -/
theorem bcast_row {α : Type} (x : S1x2048.Idx → α) (h : S1x2048.Broadcasts S2048x2048) (j e : Fin 2048) :
    broadcastTo S2048x2048 x h (ix2 j e) = x (ix2 (0 : Fin 1) e) :=
  broadcastTo_apply x h (ix2 j e) (ix2 (0 : Fin 1) e) fun a => by
    match a with
    | ⟨0, _⟩ => rfl
    | ⟨1, _⟩ => rfl

/-- A row [1, 2048] broadcast along the first axis to [32, 2048], at (f, e): the row's entry e. -/
theorem bcast_row32 {α : Type} (x : S1x2048.Idx → α) (h : S1x2048.Broadcasts S32x2048) (f : Fin 32) (e : Fin 2048) :
    broadcastTo S32x2048 x h (ix2 f e) = x (ix2 (0 : Fin 1) e) :=
  broadcastTo_apply x h (ix2 f e) (ix2 (0 : Fin 1) e) fun a => by
    match a with
    | ⟨0, _⟩ => rfl
    | ⟨1, _⟩ => rfl

/-! ## One trip at an entry -/

/-- The one-hot matrix of trip k at (j, e): 1 where the word of 2048 · k + j is the source word of column e. -/
theorem onehot_apply (k : Fin k4_t1_loop.trips) (w : IVec S1x2048 32) (hi : S2048x1.Iotas .tc 32 [0])
    (hc : S2048x1.Broadcasts S2048x2048) (hs : S1x2048.ShapeCasts S1x2048) (hr : S1x2048.Broadcasts S2048x2048)
    (hx : 1 < 32) (ht : FTy.bits .bf16 < FTy.bits .f32) (j e : Fin 2048) :
    (truncf .bf16 (sitofp .f32 (extui 32 (cmpi .eq
        (broadcastTo S2048x2048 (addi (broadcast S2048x1 (Scalar.muli (Scf.iv 0#32 1#32 k) 2048#32)) (iota .tc S2048x1 32 [0] hi)) hc)
        (broadcastTo S2048x2048 (shapeCast S1x2048 w hs) hr)) hx) : FVec Ideal S2048x2048 .f32) ht : FVec Ideal S2048x2048 .bf16) (ix2 j e)
      = hot (BitVec.ofNat 32 (2048 * k.val + j.val) = w (ix2 (0 : Fin 1) e)) := by
  show (FloatOps.sitofp (F := Ideal) .f32 ((IntOp.cmpi .eq
      (broadcastTo S2048x2048 (addi (broadcast S2048x1 (Scalar.muli (Scf.iv 0#32 1#32 k) 2048#32)) (iota .tc S2048x1 32 [0] hi)) hc (ix2 j e))
      (broadcastTo S2048x2048 (shapeCast S1x2048 w hs) hr (ix2 j e))).setWidth 32) : Ideal .f32) = _
  rw [bcast_col, bcast_row, shapeCast_self, sitofp_cmpi_eq]
  have hw : addi (broadcast S2048x1 (Scalar.muli (Scf.iv 0#32 1#32 k) 2048#32)) (iota .tc S2048x1 32 [0] hi) (ix2 j (0 : Fin 1))
      = BitVec.ofNat 32 (2048 * k.val + j.val) := by
    show Scalar.muli (Scf.iv 0#32 1#32 k) 2048#32 + iota .tc S2048x1 32 [0] hi (ix2 j (0 : Fin 1)) = _
    rw [(trip_facts k).1, iota_single_apply]
    exact (BitVec.ofNat_add (2048 * k.val) j.val).symm
  rw [hw]

/-- ONE TRIP at the entry (f, e) of the accumulator: it adds the chunk's row f against the one-hot column e. -/
theorem trip_apply (k : Fin k4_t1_loop.trips) (acc : FVec Ideal S32x2048 .f32) (chunk : FVec Ideal S32x2048 .bf16)
    (w : IVec S1x2048 32) (f : Fin 32) (e : Fin 2048) :
    k4_pay2 (F := Ideal) k acc chunk w (ix2 f e)
      = acc (ix2 f e) + ∑ j : Fin 2048, chunk (ix2 f j) * hot (BitVec.ofNat 32 (2048 * k.val + j.val) = w (ix2 (0 : Fin 1) e)) := by
  unfold k4_pay2
  dsimp only
  refine (addf_apply acc _ (ix2 f e)).trans ?_
  congr 1
  refine (PlainDot.matmul_zero_apply dot_S32x2048_S2048x2048_S32x2048_1_0_0_1_n_n rfl rfl rfl rfl rfl rfl rfl rfl none _ _ f e).trans ?_
  refine Finset.sum_congr rfl fun j _ => ?_
  congr 1
  · exact congrFun (shapeCast_self chunk _) (ix2 f j)
  · exact onehot_apply k w _ _ _ _ _ _ j e

/-- The scaling at the entry (f, e): the accumulator's entry times the weight of column e. -/
theorem scale_apply (acc : FVec Ideal S32x2048 .f32) (nr : FVec Ideal S1x2048 .f32) (f : Fin 32) (e : Fin 2048) :
    k4_pay3 (F := Ideal) acc nr (ix2 f e) = acc (ix2 f e) * nr (ix2 (0 : Fin 1) e) := by
  unfold k4_pay3
  refine (mulf_apply acc _ (ix2 f e)).trans ?_
  congr 1
  rw [bcast_row32, shapeCast_self]

/-- The accumulator starts at zero. -/
theorem init_apply (y : S32x2048.Idx) : k4_pay1 (F := Ideal) y = 0 := by
  show Ideal.ofBits .f32 0x00000000#32 = 0
  exact Ideal.ofBits_zero_f32

/-! ## Sums over chunks -/

/-- A sum over 49 chunks of 2048 consecutive numbers is the sum over the 100352 numbers. -/
theorem sum_chunks (g : ℕ → EReal) :
    ∑ k : Fin 49, ∑ j : Fin 2048, g (2048 * k.val + j.val) = ∑ n : Fin 100352, g n.val := by
  refine (Fintype.sum_prod_type' (fun (k : Fin 49) (j : Fin 2048) => g (2048 * k.val + j.val))).symm.trans ?_
  refine Fintype.sum_equiv ((finProdFinEquiv (m := 49) (n := 2048)).trans (finCongr (by norm_num))) _ _ fun x => ?_
  show g (2048 * x.1.val + x.2.val) = g (x.2.val + 2048 * x.1.val)
  congr 1
  omega

/-! ## The 49 trips -/

/-- Column n of row f of the table (zero past the last column, which no trip reads). -/
def colAt (T : FVec Ideal S32x100352 .bf16) (f : Fin 32) (n : ℕ) : EReal :=
  if h : n < 100352 then T (ix2 f ⟨n, h⟩) else 0

/-- What trip k adds at the entry (f, e). -/
def contrib (T : FVec Ideal S32x100352 .bf16) (w : IVec S1x2048 32) (f : Fin 32) (e : Fin 2048) (k : ℕ) : EReal :=
  ∑ j : Fin 2048, colAt T f (2048 * k + j.val) * hot (BitVec.ofNat 32 (2048 * k + j.val) = w (ix2 (0 : Fin 1) e))

/-- The chunk trip k loads, at (f, j): column 2048 · k + j of row f. -/
theorem chunk_apply (T : FVec Ideal S32x100352 .bf16) (k : Fin k4_t1_loop.trips) (f : Fin 32) (j : Fin 2048) :
    View.ld (Val := Elt Ideal) (e' := .bf16) T (Rect.unit (s := S32x100352) (k4_off1 k) S32x2048.size (k4_off1_inb k)) (ix2 f j)
      = colAt T f (2048 * k.val + j.val) := by
  have hk : k.val < 49 := lt_of_lt_of_eq k.isLt trips_eq
  obtain ⟨-, o0, o1⟩ := trip_facts k
  unfold colAt
  rw [dif_pos (by omega)]
  show T _ = T _
  congr 1
  funext a
  apply Fin.ext
  match a with
  | ⟨0, _⟩ => show k4_off1 k 0 + 1 * f.val = f.val; rw [o0]; omega
  | ⟨1, _⟩ => show k4_off1 k 1 + 1 * j.val = 2048 * k.val + j.val; rw [o1]; omega

/-- The 49 contributions together: the one-hot sum over all 100352 columns. -/
theorem loop_total (T : FVec Ideal S32x100352 .bf16) (w : IVec S1x2048 32) (f : Fin 32) (e : Fin 2048) :
    ∑ k ∈ Finset.range 49, contrib T w f e k
      = ∑ n : Fin 100352, T (ix2 f n) * hot (BitVec.ofNat 32 n.val = w (ix2 (0 : Fin 1) e)) := by
  rw [← Fin.sum_univ_eq_sum_range (fun k => contrib T w f e k) 49]
  unfold contrib
  refine (sum_chunks fun n => colAt T f n * hot (BitVec.ofNat 32 n = w (ix2 (0 : Fin 1) e))).trans ?_
  refine Finset.sum_congr rfl fun n _ => ?_
  unfold colAt
  rw [dif_pos n.isLt]

/-! ## The body's result -/

/-- The trip's result: the trip's arithmetic of the carried value, of the chunk loaded at the trip's offset and of the
    source words' row. -/
theorem tripR_eq (c : Dev nD) (i : grid4.Coords) (a1 : Memref sig .tc .vmem S32x100352 .bf16) (h1 : a1.IsWhole)
    (a2 : Memref sig .tc .vmem S1x2048 .i32) (h2 : a2.IsWhole) (a3 : Memref sig .tc .vmem S1x2048 .f32) (h3 : a3.IsWhole)
    (a4 : Memref sig .tc .vmem S32x2048 .f32) (h4 : a4.IsWhole)
    (x0 : Vec Ideal S32x100352 .bf16) (x1 : Vec Ideal S1x2048 .i32) (k : Fin k4_t1_loop.trips) (acc : FVec Ideal S32x2048 .f32) :
    tripR_k4_t1 (F := Ideal) Variants.none c none i a1 h1 a2 h2 a3 h3 a4 h4 (h1.unread x0) (h2.unread x1) k acc
      = k4_pay2 (F := Ideal) k acc
          (View.ld (Val := Elt Ideal) (e' := .bf16) x0 (Rect.unit (s := S32x100352) (k4_off1 k) S32x2048.size (k4_off1_inb k))) x1 := by
  unfold tripR_k4_t1 trip_k4_t1
  dsimp only
  sl_unfold_run_names
  simp only [View.readAt_eq_ld, h1.read_unread, h2.read_unread, View.ld_unit_zero (S := S1x2048) hz]

/-- The carried value before trip n, at the entry (f, e): zero plus the contributions of the trips before. -/
theorem st_apply (c : Dev nD) (i : grid4.Coords) (a1 : Memref sig .tc .vmem S32x100352 .bf16) (h1 : a1.IsWhole)
    (a2 : Memref sig .tc .vmem S1x2048 .i32) (h2 : a2.IsWhole) (a3 : Memref sig .tc .vmem S1x2048 .f32) (h3 : a3.IsWhole)
    (a4 : Memref sig .tc .vmem S32x2048 .f32) (h4 : a4.IsWhole)
    (x0 : Vec Ideal S32x100352 .bf16) (x1 : Vec Ideal S1x2048 .i32) (f : Fin 32) (e : Fin 2048) :
    ∀ n : ℕ, n ≤ k4_t1_loop.trips →
      st_k4_t1 (F := Ideal) Variants.none c none i a1 h1 a2 h2 a3 h3 a4 h4 (h1.unread x0) (h2.unread x1) k4_pay1 n (ix2 f e)
        = 0 + ∑ k ∈ Finset.range n, contrib x0 x1 f e k
  | 0, _ => by
    rw [Finset.range_zero, Finset.sum_empty, add_zero]
    exact init_apply (ix2 f e)
  | n + 1, hn => by
    have ih := st_apply c i a1 h1 a2 h2 a3 h3 a4 h4 x0 x1 f e n (Nat.le_of_succ_le hn)
    refine (congrFun (st_k4_t1_succ (F := Ideal) Variants.none c none i a1 h1 a2 h2 a3 h3 a4 h4 (h1.unread x0) (h2.unread x1)
      k4_pay1 ⟨n, hn⟩) (ix2 f e)).trans ?_
    refine (congrFun (tripR_eq c i a1 h1 a2 h2 a3 h3 a4 h4 x0 x1 ⟨n, hn⟩ _) (ix2 f e)).trans ?_
    refine (trip_apply ⟨n, hn⟩ _ _ x1 f e).trans ?_
    rw [Finset.sum_range_succ, ← add_assoc]
    congr 1
    unfold contrib
    refine Finset.sum_congr rfl fun j _ => ?_
    rw [chunk_apply]

/-- WHAT THE BODY LEAVES in the result's staging buffer, at the entry (f, e): the one-hot sum over all columns of the
    table's row f against the source word of column e, times the weight of column e. -/
theorem out_apply (c : Dev nD) (i : grid4.Coords) (a1 : Memref sig .tc .vmem S32x100352 .bf16) (h1 : a1.IsWhole)
    (a2 : Memref sig .tc .vmem S1x2048 .i32) (h2 : a2.IsWhole) (a3 : Memref sig .tc .vmem S1x2048 .f32) (h3 : a3.IsWhole)
    (a4 : Memref sig .tc .vmem S32x2048 .f32) (h4 : a4.IsWhole)
    (x0 : Vec Ideal S32x100352 .bf16) (x1 : Vec Ideal S1x2048 .i32) (x2 : Vec Ideal S1x2048 .f32) (f : Fin 32) (e : Fin 2048) :
    out4_A_3 (F := Ideal) c i a1 h1 a2 h2 a3 h3 a4 h4 x0 x1 x2 (ix2 f e)
      = (∑ n : Fin 100352, (x0 : FVec Ideal S32x100352 .bf16) (ix2 f n)
            * hot (BitVec.ofNat 32 n.val = (x1 : IVec S1x2048 32) (ix2 (0 : Fin 1) e)))
          * (x2 : FVec Ideal S1x2048 .f32) (ix2 (0 : Fin 1) e) := by
  have hrun : out4_A_3 (F := Ideal) c i a1 h1 a2 h2 a3 h3 a4 h4 x0 x1 x2
      = k4_pay3 (F := Ideal) (st_k4_t1 (F := Ideal) Variants.none c none i a1 h1 a2 h2 a3 h3 a4 h4 (h1.unread x0) (h2.unread x1)
          k4_pay1 k4_t1_loop.trips) x2 := by
    unfold out4_A_3
    rw [View.read_writes_eq_canon _ _ _ (cover4_A_3 c i a1 h1 a2 h2 a3 h3 a4 h4 x0 x1 x2)]
    unfold kernelRun4_A
    dsimp only
    sl_unfold_run_names
    rw [View.canon_unit_zero hz]
    simp only [View.readAt_eq_ld, h3.read_unread, View.ld_unit_zero (S := S1x2048) hz]
  refine (congrFun hrun (ix2 f e)).trans ?_
  refine (scale_apply _ x2 f e).trans ?_
  refine congrArg (· * _) ?_
  refine (st_apply c i a1 h1 a2 h2 a3 h3 a4 h4 x0 x1 f e k4_t1_loop.trips le_rfl).trans ?_
  rw [zero_add, trips_eq]
  exact loop_total x0 x1 f e

/-! ## From blocks to the array -/

/-- The windows' block indices at point t: the table's one block; block t of the source words, of the weights and of
    the result. -/
theorem idx_facts : ∀ t : Fin cfg4.N, win4_0.index t (0 : Fin 2) = 0 ∧ win4_0.index t (1 : Fin 2) = 0
    ∧ win4_1.index t (0 : Fin 2) = 0 ∧ win4_1.index t (1 : Fin 2) = t.val
    ∧ win4_2.index t (0 : Fin 2) = 0 ∧ win4_2.index t (1 : Fin 2) = t.val
    ∧ win4_3.index t (0 : Fin 2) = 0 ∧ win4_3.index t (1 : Fin 2) = t.val :=
  (by decide +kernel : ∀ t : Fin grid4.N, _)

/-- The table's block at any point is the table. -/
theorem tblk_apply (c : Dev nD) (t : Fin cfg4.N) (f : Fin 32) (n : Fin 100352) :
    (iblk4 V c 0 t : FVec Ideal S32x100352 .bf16) (ix2 f n) = V c main_v50 (ix2 f n) := by
  obtain ⟨e0, e1, -⟩ := idx_facts t
  unfold iblk4
  rw [View.read_apply]
  show V c main_v50 _ = V c main_v50 _
  congr 1
  funext a
  apply Fin.ext
  match a with
  | ⟨0, _⟩ => show win4_0.index t (0 : Fin 2) * 32 + 1 * f.val = f.val; rw [e0]; omega
  | ⟨1, _⟩ => show win4_0.index t (1 : Fin 2) * 100352 + 1 * n.val = n.val; rw [e1]; omega

/-- The source words' block at point t, at column e: the row's entry 2048 · t + e. -/
theorem wblk_apply (c : Dev nD) (t : Fin cfg4.N) (e : Fin 2048) (e' : Fin 1701888) (he : e'.val = 2048 * t.val + e.val) :
    (iblk4 V c 1 t : IVec S1x2048 32) (ix2 (0 : Fin 1) e) = V c main_v51 (ix2 (0 : Fin 1) e') := by
  obtain ⟨-, -, e0, e1, -⟩ := idx_facts t
  unfold iblk4
  rw [View.read_apply]
  show V c main_v51 _ = V c main_v51 _
  congr 1
  funext a
  apply Fin.ext
  match a with
  | ⟨0, _⟩ => show win4_1.index t (0 : Fin 2) * 1 + 1 * 0 = 0; rw [e0]
  | ⟨1, _⟩ => show win4_1.index t (1 : Fin 2) * 2048 + 1 * e.val = e'.val; rw [e1, he]; omega

/-- The weights' block at point t, at column e: the row's entry 2048 · t + e. -/
theorem nblk_apply (c : Dev nD) (t : Fin cfg4.N) (e : Fin 2048) (e' : Fin 1701888) (he : e'.val = 2048 * t.val + e.val) :
    (iblk4 V c 2 t : FVec Ideal S1x2048 .f32) (ix2 (0 : Fin 1) e) = V c main_v52 (ix2 (0 : Fin 1) e') := by
  obtain ⟨-, -, -, -, e0, e1, -⟩ := idx_facts t
  unfold iblk4
  rw [View.read_apply]
  show V c main_v52 _ = V c main_v52 _
  congr 1
  funext a
  apply Fin.ext
  match a with
  | ⟨0, _⟩ => show win4_2.index t (0 : Fin 2) * 1 + 1 * 0 = 0; rw [e0]
  | ⟨1, _⟩ => show win4_2.index t (1 : Fin 2) * 2048 + 1 * e.val = e'.val; rw [e1, he]; omega

/-- THE WHOLE RESULT ARRAY: at row f and column e the specification's message. -/
def G (c : Dev nD) : S32x1701888.Idx → EReal := fun i =>
  gatherT (fun f' j => V c main_v50 (ix2 f' j)) (fun e' => V c main_v51 (ix2 (0 : Fin 1) e'))
    (fun e' => V c main_v52 (ix2 (0 : Fin 1) e')) ⟨(i 0).val, (i 0).isLt⟩ ⟨(i 1).val, (i 1).isLt⟩

/-- What the body leaves at point t, at the entry (f, e) of the block: the message of edge 2048 · t + e. -/
theorem point_value (c : Dev nD) (t : Fin cfg4.N) (f : Fin 32) (e : Fin 2048) (e' : Fin 1701888)
    (he : e'.val = 2048 * t.val + e.val) :
    outsAt4 V c t (ix2 f e)
      = gatherT (fun f' j => V c main_v50 (ix2 f' j)) (fun e'' => V c main_v51 (ix2 (0 : Fin 1) e''))
          (fun e'' => V c main_v52 (ix2 (0 : Fin 1) e'')) f e' := by
  unfold outsAt4
  refine (out_apply c (grid4.coords t) (ms4_0 t) (hs4_0 t) (ms4_1 t) (hs4_1 t) (ms4_2 t) (hs4_2 t) (ms4_3 t) (hs4_3 t)
    (iblk4 V c 0 t) (iblk4 V c 1 t) (iblk4 V c 2 t) f e).trans ?_
  unfold gatherT
  rw [wblk_apply V c t e e' he, nblk_apply V c t e e' he]
  simp only [tblk_apply V c t f]

/-- WHAT POINT t WRITES BACK is block t of the whole-array function. -/
theorem flushed_eq (c : Dev nD) (t : Fin cfg4.N) :
    (dat4 (F := Ideal) V c).flushed 3 t = ((cfg4.win 3).blk t).view.read (Elt Ideal) (G V c) := by
  show (cfg4.win 3).cut (grid4.coords t) ((dat4 (F := Ideal) V c).after 3 t) = _
  rw [after4_3]
  obtain ⟨-, -, -, -, -, -, e0, e1⟩ := idx_facts t
  have hN : cfg4.N = 831 := N_4
  have ht : t.val < 831 := lt_of_lt_of_eq t.isLt hN
  funext j
  have hj0 : (j 0).val < 32 := (j 0).isLt
  have hj1 : (j 1).val < 2048 := (j 1).isLt
  have hx : (cfg4.win 3).xinj (grid4.coords t) j = ix2 (⟨(j 0).val, hj0⟩ : Fin 32) (⟨(j 1).val, hj1⟩ : Fin 2048) :=
    funext fun a => by
      match a with
      | ⟨0, _⟩ => rfl
      | ⟨1, _⟩ => rfl
  show outsAt4 V c t ((cfg4.win 3).xinj (grid4.coords t) j) = G V c (((cfg4.win 3).blk t).view.emb j)
  rw [hx]
  refine (point_value V c t ⟨(j 0).val, hj0⟩ ⟨(j 1).val, hj1⟩ ⟨2048 * t.val + (j 1).val, by omega⟩ rfl).trans ?_
  unfold G
  have h0 : (⟨(j 0).val, hj0⟩ : Fin 32) = ⟨((((cfg4.win 3).blk t).view.emb j) 0).val, ((((cfg4.win 3).blk t).view.emb j) 0).isLt⟩ :=
    Fin.ext (by show (j 0).val = win4_3.index t (0 : Fin 2) * 32 + 1 * (j 0).val; rw [e0]; omega)
  have h1 : (⟨2048 * t.val + (j 1).val, by omega⟩ : Fin 1701888)
      = ⟨((((cfg4.win 3).blk t).view.emb j) 1).val, ((((cfg4.win 3).blk t).view.emb j) 1).isLt⟩ :=
    Fin.ext (by show 2048 * t.val + (j 1).val = win4_3.index t (1 : Fin 2) * 2048 + 1 * (j 1).val; rw [e1]; omega)
  rw [h0, h1]

/-- Every entry of the result array lies in the block of some point: column c in block c / 2048. -/
theorem cover (i : S32x1701888.Idx) :
    ∃ t : Fin cfg4.N, (cfg4.win 3).flush t = true ∧ i ∈ ((cfg4.win 3).blk t).view.set := by
  have hN : cfg4.N = 831 := N_4
  have h0 : (i 0).val < 32 := (i 0).isLt
  have h1 : (i 1).val < 1701888 := (i 1).isLt
  have ht : (i 1).val / 2048 < cfg4.N := by rw [hN]; omega
  obtain ⟨-, -, -, -, -, -, e0, e1⟩ := idx_facts ⟨(i 1).val / 2048, ht⟩
  refine ⟨⟨(i 1).val / 2048, ht⟩, flush4_3 _, ?_⟩
  show i ∈ ((View.whole main_v53).slice (win4_3.rect ⟨(i 1).val / 2048, ht⟩)).set
  rw [View.set_slice_whole, Rect.mem_set_unit]
  intro a
  match a with
  | ⟨0, _⟩ =>
    show win4_3.index ⟨(i 1).val / 2048, ht⟩ (0 : Fin 2) * 32 ≤ (i 0).val
      ∧ (i 0).val < win4_3.index ⟨(i 1).val / 2048, ht⟩ (0 : Fin 2) * 32 + 32
    rw [e0]; omega
  | ⟨1, _⟩ =>
    show win4_3.index ⟨(i 1).val / 2048, ht⟩ (1 : Fin 2) * 2048 ≤ (i 1).val
      ∧ (i 1).val < win4_3.index ⟨(i 1).val / 2048, ht⟩ (1 : Fin 2) * 2048 + 2048
    rw [e1]; show (i 1).val / 2048 * 2048 ≤ (i 1).val ∧ (i 1).val < (i 1).val / 2048 * 2048 + 2048; omega

/-- THE REGION'S VALUE: after the region the message array holds, at row f and column e, the column of the table
    whose number is the word row e — picked by a one-hot sum over all 100352 columns, chunk by chunk — times the
    edge's weight. -/
theorem value (c : Dev nD) (f : Fin 32) (e : Fin 1701888) :
    (dat4 (F := Ideal) V c).arrAt 3 cfg4.N (ix2 f e)
      = Cert.Gcn.gatherT (fun f' j => V c main_v50 (ix2 f' j)) (fun e' => V c main_v51 (ix2 (0 : Fin 1) e'))
          (fun e' => V c main_v52 (ix2 (0 : Fin 1) e')) f e :=
  congrFun ((dat4 (F := Ideal) V c).arrAt_eq_of_cover 3 (G V c) (fun t _ => flushed_eq V c t) (fun i => cover i)) (ix2 f e)

end Cert.KernelIdeal.Reg4

end
-- ==== Proof.Reg5.lean ====
/-
  REGION 5, the second scatter: for each block of 2048 target columns the kernel runs over the 831 edge blocks, adding
  the product of the message block [32, 2048] with the one-hot matrix [2048, 2048] of "target word = column number"
  into the block it carries; the first edge block starts it from zero, the last adds the bias.

  The proof: what each of the three control cases leaves in the carried block, as the body's pure terms of the input
  blocks and of what the point before left; those terms read at an entry (the one-hot entry is the weight of a word
  equation, the product into the zero accumulator is the plain sum over the 2048 edges of the block); the carried block
  after the j-th edge block as the sum of the first j + 1 blocks' contributions, by induction on j; the blocks read as
  parts of the whole arrays; the 831 sums of 2048 terms as one sum over all 1701888 edges; and the result array as the
  blocks the last point of each run of 831 writes back.
-/
import proofs.«429796_j5497558139162_1_alg».proof.Proof.FrameKI
import proofs.«429796_j5497558139162_1_alg».proof.Proof.Spec
import proofs.«429796_j5497558139162_1_alg».proof.Proof.LibPlainDot
import Idealize.ShloMosaic.Lib.Pipeline.Value
import Idealize.ShloMosaic.Lib.ValueIdx
import Idealize.ShloMosaic.Lib.Tactic
import Idealize.ShloMosaic.PureOps.Ideal.Laws
import Mathlib.Algebra.BigOperators.Fin
import Mathlib.Logic.Equiv.Fin.Basic

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Reg5

open Cert.KernelIdeal Cert.KernelIdeal.Gen Cert.KernelIdeal.GenP
open Cert.Gcn (hot scatterT)

/-! ## Words: the one-hot entry -/

/-- The weight of a condition depends only on whether it holds. -/
theorem hot_congr {p q : Prop} [Decidable p] [Decidable q] (h : p ↔ q) : hot p = hot q := by
  unfold Cert.Gcn.hot
  exact if_congr h rfl rfl

/-- Taking 2048·d off a word leaves n' exactly when the word is 2048·d + n' (all modulo 2^32). -/
theorem word_eq (x : BitVec 32) (d n' : Nat) :
    (x - BitVec.ofNat 32 d * 2048#32 = BitVec.ofNat 32 n') ↔ x = BitVec.ofNat 32 (2048 * d + n') := by
  have e : BitVec.ofNat 32 (2048 * d + n') = BitVec.ofNat 32 n' + BitVec.ofNat 32 d * 2048#32 := by
    rw [Nat.add_comm (2048 * d) n', Nat.mul_comm 2048 d, BitVec.ofNat_add, BitVec.ofNat_mul]
  rw [e]
  exact BitVec.sub_eq_iff_eq_add

/-- The float of the widened bit of a word comparison is the weight of the equation. -/
theorem hot_word (x y : BitVec 32) :
    (FloatOps.sitofp (F := Ideal) .f32 ((IntOp.cmpi .eq x y).setWidth 32) : EReal) = hot (x = y) := by
  show (((((IntOp.cmpi .eq x y).setWidth 32).toInt : ℝ)) : EReal) = _
  have hc : IntOp.cmpi .eq x y = BitVec.ofBool (x == y) := rfl
  rw [hc]
  unfold Cert.Gcn.hot
  by_cases h : x = y
  · rw [if_pos h, show (x == y) = true from by simpa using h]
    have e1 : ((BitVec.ofBool true).setWidth 32).toInt = 1 := by decide
    rw [e1]; simp
  · rw [if_neg h, show (x == y) = false from by simpa using h]
    have e0 : ((BitVec.ofBool false).setWidth 32).toInt = 0 := by decide
    rw [e0]; simp

/-! ## The body's pure terms, read at an entry -/

/-- Entry (e', n') of the one-hot matrix the body builds from the block's target words at the d-th column block:
    the weight of "word e' is 2048·d + n'". -/
theorem onehot_apply (d : Nat) (w : IVec S2048x1 32) (e' n' : Fin 2048) :
    (truncf .bf16 (sitofp .f32 (extui 32 (cmpi .eq
        (broadcastTo S2048x2048 (subi (shapeCast S2048x1 w shapeCasts_S2048x1_S2048x1)
          (broadcast S2048x1 (Scalar.muli (BitVec.ofNat 32 d) 2048#32))) broadcasts_S2048x1_S2048x2048)
        (broadcastTo S2048x2048 (iota .tc S1x2048 32 [1] iota_S1x2048_d1_w32) broadcasts_S1x2048_S2048x2048))
        natLt_1_32)) bitsLt_bf16_f32 : FVec Ideal S2048x2048 .bf16) (ix2 e' n')
      = hot (w (ix2 e' (0 : Fin 1)) = BitVec.ofNat 32 (2048 * d + n'.val)) := by
  refine (hot_word _ _).trans ?_
  have hA : broadcastTo S2048x2048 (subi (shapeCast S2048x1 w shapeCasts_S2048x1_S2048x1)
        (broadcast S2048x1 (Scalar.muli (BitVec.ofNat 32 d) 2048#32))) broadcasts_S2048x1_S2048x2048 (ix2 e' n')
      = w (ix2 e' (0 : Fin 1)) - BitVec.ofNat 32 d * 2048#32 := by
    refine (broadcastTo_apply _ _ (ix2 e' n') (ix2 e' (0 : Fin 1))
      (fun a => by match a with | ⟨0, _⟩ => rfl | ⟨1, _⟩ => rfl)).trans ?_
    show shapeCast S2048x1 w shapeCasts_S2048x1_S2048x1 (ix2 e' (0 : Fin 1)) - BitVec.ofNat 32 d * 2048#32 = _
    rw [shapeCast_self]
  have hB : broadcastTo S2048x2048 (iota .tc S1x2048 32 [1] iota_S1x2048_d1_w32) broadcasts_S1x2048_S2048x2048 (ix2 e' n')
      = BitVec.ofNat 32 n'.val := by
    refine (broadcastTo_apply _ _ (ix2 e' n') (ix2 (0 : Fin 1) n')
      (fun a => by match a with | ⟨0, _⟩ => rfl | ⟨1, _⟩ => rfl)).trans ?_
    exact iota_single_apply .tc S1x2048 32 1 iota_S1x2048_d1_w32 (ix2 (0 : Fin 1) n')
  refine hot_congr ?_
  rw [hA, hB]
  exact word_eq _ d n'.val

/-- The reset block is zero everywhere. -/
theorem pay1_apply (j : S32x2048.Idx) : k5_pay1 (F := Ideal) j = 0 := by
  unfold k5_pay1
  exact Ideal.ofBits_zero_f32

/-- The accumulating store at entry (f, n'): what the block held there plus the sum, over the 2048 edges of the
    message block, of the message times the weight of "the edge's target word is column 2048·d + n'". -/
theorem pay2_apply (i : grid5.Coords) (w : Vec Ideal S2048x1 .i32) (x acc : Vec Ideal S32x2048 .f32)
    (f : Fin 32) (n' : Fin 2048) :
    k5_pay2 (F := Ideal) i w x acc (ix2 f n')
      = acc (ix2 f n') + ∑ e' : Fin 2048, x (ix2 f e') *
          hot (w (ix2 e' (0 : Fin 1)) = BitVec.ofNat 32 (2048 * (i 0).val + n'.val)) := by
  unfold k5_pay2
  refine (addf_apply _ _ _).trans ?_
  refine congrArg₂ (fun a b : EReal => a + b) (congrFun (shapeCast_self acc _) (ix2 f n')) ?_
  refine (PlainDot.matmul_zero_apply (M := 32) (K := 2048) (N := 2048)
    dot_S32x2048_S2048x2048_S32x2048_1_0_0_1_n_n rfl rfl rfl rfl rfl rfl rfl rfl none _ _ f n').trans ?_
  refine Finset.sum_congr rfl fun e' _ => ?_
  refine congrArg₂ (fun a b : EReal => a * b) ?_ ?_
  · exact (truncf_apply (φ := .f32) (ψ := .bf16) (shapeCast S32x2048 x shapeCasts_S32x2048_S32x2048) bitsLt_bf16_f32
      (ix2 f e')).trans (congrFun (shapeCast_self x _) (ix2 f e'))
  · exact onehot_apply (i 0).val w e' n'

/-- The last store at entry (f, n'): the block's entry plus the bias of row f. -/
theorem pay3_apply (acc : Vec Ideal S32x2048 .f32) (b : Vec Ideal S32x1 .f32) (f : Fin 32) (n' : Fin 2048) :
    k5_pay3 (F := Ideal) acc b (ix2 f n') = acc (ix2 f n') + b (ix2 f (0 : Fin 1)) := by
  unfold k5_pay3
  refine (addf_apply _ _ _).trans ?_
  refine congrArg₂ (fun a b : EReal => a + b) (congrFun (shapeCast_self acc _) (ix2 f n')) ?_
  refine (broadcastTo_apply _ _ (ix2 f n') (ix2 f (0 : Fin 1))
    (fun a => by match a with | ⟨0, _⟩ => rfl | ⟨1, _⟩ => rfl)).trans ?_
  exact congrFun (shapeCast_self b _) (ix2 f (0 : Fin 1))

/-! ## What each control case leaves in the carried block -/

theorem hz : (![0, 0] : Fin 2 → Nat) = fun _ => 0 := funext fun a => by fin_cases a <;> rfl

/-- The first edge block of a run: zeros are stored and read back, then the block's contribution is added. -/
theorem out_A (c : Dev nD) (i : grid5.Coords) (arg2 : Memref sig .tc .vmem S32x2048 .f32) (harg2 : arg2.IsWhole) (arg3 : Memref sig .tc .vmem S2048x1 .i32) (harg3 : arg3.IsWhole)
    (arg4 : Memref sig .tc .vmem S32x1 .f32) (harg4 : arg4.IsWhole) (arg5 : Memref sig .tc .vmem S32x2048 .f32) (harg5 : arg5.IsWhole)
    (hc0 : cond5_0 i) (hc1 : ¬cond5_1 i)
    (x0 : Vec Ideal S32x2048 .f32) (x1 : Vec Ideal S2048x1 .i32) (x2 : Vec Ideal S32x1 .f32) :
    out5_A_3 c i arg2 harg2 arg3 harg3 arg4 harg4 arg5 harg5 hc0 hc1 x0 x1 x2 = k5_pay2 i x1 x0 (k5_pay1 (F := Ideal)) := by
  unfold out5_A_3
  rw [View.read_writes_eq_canon _ _ _ (cover5_A_3 c i arg2 harg2 arg3 harg3 arg4 harg4 arg5 harg5 hc0 hc1 x0 x1 x2)]
  unfold kernelRun5_A
  dsimp only
  try sl_unfold_words
  rw [View.canon_cons_unit_zero (S := S32x2048) hz]
  simp only [View.readAt_eq_ld, harg2.read_unread, harg3.read_unread, View.readCov_unit_zero (S := S32x2048) _ hz,
    View.ld_unit_zero (S := S32x2048) hz, View.ld_unit_zero (S := S2048x1) hz]

/-- A middle edge block: the block's contribution is added to what the point before left. -/
theorem out_B (c : Dev nD) (i : grid5.Coords) (arg2 : Memref sig .tc .vmem S32x2048 .f32) (harg2 : arg2.IsWhole) (arg3 : Memref sig .tc .vmem S2048x1 .i32) (harg3 : arg3.IsWhole)
    (arg4 : Memref sig .tc .vmem S32x1 .f32) (harg4 : arg4.IsWhole) (arg5 : Memref sig .tc .vmem S32x2048 .f32) (harg5 : arg5.IsWhole)
    (hc0 : ¬cond5_0 i) (hc1 : ¬cond5_1 i)
    (x0 : Vec Ideal S32x2048 .f32) (x1 : Vec Ideal S2048x1 .i32) (x2 : Vec Ideal S32x1 .f32) (xo3 : Vec Ideal S32x2048 .f32) :
    out5_B_3 c i arg2 harg2 arg3 harg3 arg4 harg4 arg5 harg5 hc0 hc1 x0 x1 x2 xo3 = k5_pay2 i x1 x0 xo3 := by
  unfold out5_B_3
  rw [View.read_writes_eq_canon _ _ _ (cover5_B_3 c i arg2 harg2 arg3 harg3 arg4 harg4 arg5 harg5 hc0 hc1 x0 x1 x2 xo3)]
  unfold kernelRun5_B
  dsimp only
  try sl_unfold_words
  rw [View.canon_unit_zero (S := S32x2048) hz]
  simp only [View.readAt_eq_ld, harg2.read_unread, harg3.read_unread, harg5.read_unread,
    View.ld_unit_zero (S := S32x2048) hz, View.ld_unit_zero (S := S2048x1) hz]

/-- The last edge block of a run: the contribution is added, then the bias is added. -/
theorem out_C (c : Dev nD) (i : grid5.Coords) (arg2 : Memref sig .tc .vmem S32x2048 .f32) (harg2 : arg2.IsWhole) (arg3 : Memref sig .tc .vmem S2048x1 .i32) (harg3 : arg3.IsWhole)
    (arg4 : Memref sig .tc .vmem S32x1 .f32) (harg4 : arg4.IsWhole) (arg5 : Memref sig .tc .vmem S32x2048 .f32) (harg5 : arg5.IsWhole)
    (hc0 : ¬cond5_0 i) (hc1 : cond5_1 i)
    (x0 : Vec Ideal S32x2048 .f32) (x1 : Vec Ideal S2048x1 .i32) (x2 : Vec Ideal S32x1 .f32) (xo3 : Vec Ideal S32x2048 .f32) :
    out5_C_3 c i arg2 harg2 arg3 harg3 arg4 harg4 arg5 harg5 hc0 hc1 x0 x1 x2 xo3 = k5_pay3 (k5_pay2 i x1 x0 xo3) x2 := by
  unfold out5_C_3
  rw [View.read_writes_eq_canon _ _ _ (cover5_C_3 c i arg2 harg2 arg3 harg3 arg4 harg4 arg5 harg5 hc0 hc1 x0 x1 x2 xo3)]
  unfold kernelRun5_C
  dsimp only
  try sl_unfold_words
  rw [View.canon_cons_unit_zero (S := S32x2048) hz]
  simp only [View.readAt_eq_ld, harg2.read_unread, harg3.read_unread, harg4.read_unread, harg5.read_unread,
    View.readCov_unit_zero (S := S32x2048) _ hz,
    View.ld_unit_zero (S := S32x2048) hz, View.ld_unit_zero (S := S2048x1) hz, View.ld_unit_zero (S := S32x1) hz]

/-! ## The grid's coordinates and the windows' block indices at a point -/

/-- Point t of the 49 × 831 grid has first coordinate t / 831 … -/
theorem coord0 (t : Fin cfg5.N) : (grid5.coords t 0).val = t.val / 831 := by
  have hN : t.val < 40719 := lt_of_lt_of_eq t.isLt (show cfg5.N = 40719 from N_5)
  show t.val / grid5.stride 0 % grid5.bound 0 = _
  rw [show grid5.stride 0 = 831 from by decide, show grid5.bound 0 = 49 from rfl]
  omega

/-- … and second coordinate t % 831. -/
theorem coord1 (t : Fin cfg5.N) : (grid5.coords t 1).val = t.val % 831 := by
  show t.val / grid5.stride 1 % grid5.bound 1 = _
  rw [show grid5.stride 1 = 1 from by decide, show grid5.bound 1 = 831 from rfl]
  omega

/-- A grid coordinate as a 32-bit word and back is itself. -/
theorem word_coord (n : Nat) (h : n < 40719) : (BitVec.ofNat 32 n).toNat = n := by
  rw [BitVec.toNat_ofNat]
  exact Nat.mod_eq_of_lt (lt_trans h (by norm_num))

/-- The message window sits at block (0, t % 831). -/
theorem idx_msg (t : Fin cfg5.N) : win5_0.index t (0 : Fin 2) = 0 ∧ win5_0.index t (1 : Fin 2) = t.val % 831 := by
  have hN : t.val < 40719 := lt_of_lt_of_eq t.isLt (show cfg5.N = 40719 from N_5)
  refine ⟨rfl, ?_⟩
  show (BitVec.ofNat 32 (grid5.coords t 1).val).toNat = _
  rw [coord1, word_coord _ (by omega)]

/-- The target-word window sits at block (t % 831, 0). -/
theorem idx_col (t : Fin cfg5.N) : win5_1.index t (0 : Fin 2) = t.val % 831 ∧ win5_1.index t (1 : Fin 2) = 0 := by
  have hN : t.val < 40719 := lt_of_lt_of_eq t.isLt (show cfg5.N = 40719 from N_5)
  refine ⟨?_, rfl⟩
  show (BitVec.ofNat 32 (grid5.coords t 1).val).toNat = _
  rw [coord1, word_coord _ (by omega)]

/-- The bias window is the whole bias. -/
theorem idx_bias (t : Fin cfg5.N) : win5_2.index t (0 : Fin 2) = 0 ∧ win5_2.index t (1 : Fin 2) = 0 := ⟨rfl, rfl⟩

/-- The result window sits at block (0, t / 831). -/
theorem idx_out (t : Fin cfg5.N) : win5_3.index t (0 : Fin 2) = 0 ∧ win5_3.index t (1 : Fin 2) = t.val / 831 := by
  have hN : t.val < 40719 := lt_of_lt_of_eq t.isLt (show cfg5.N = 40719 from N_5)
  refine ⟨rfl, ?_⟩
  show (BitVec.ofNat 32 (grid5.coords t 0).val).toNat = _
  rw [coord0, word_coord _ (by omega)]

variable (V : (c : Dev nD) → (b : Ref sig .tc) → Buf (Elt Ideal) ((c : Thread nD τ).loc b))

/-! ## The arrays and the input blocks, by their literal types -/

/-- The messages [32, 1701888], the target words [1701888, 1] and the bias [32, 1] as the region finds them. -/
abbrev msgA (c : Dev nD) : S32x1701888.Idx → EReal := V c main_v53
abbrev colA (c : Dev nD) : S1701888x1.Idx → BitVec 32 := V c main_v54
abbrev biasA (c : Dev nD) : S32x1.Idx → EReal := V c main_v55

/-- The three input blocks at point t. -/
abbrev mblk (c : Dev nD) (t : Fin cfg5.N) : Vec Ideal S32x2048 .f32 := iblk5 V c 0 t
abbrev wblk (c : Dev nD) (t : Fin cfg5.N) : Vec Ideal S2048x1 .i32 := iblk5 V c 1 t
abbrev bblk (c : Dev nD) (t : Fin cfg5.N) : Vec Ideal S32x1 .f32 := iblk5 V c 2 t

/-- Entry (f, e') of the message block at point t is the message of edge 2048·(t % 831) + e' in row f. -/
theorem mblk_apply (c : Dev nD) (t : Fin cfg5.N) (f : Fin 32) (e' : Fin 2048) (k : Fin 1701888)
    (hk : k.val = 2048 * (t.val % 831) + e'.val) : mblk V c t (ix2 f e') = msgA V c (ix2 f k) := by
  obtain ⟨h0, h1⟩ := idx_msg t
  show ((cfg5.win 0).blk t).view.read (Elt Ideal) (V c (Pipeline.arrRef spec5 0)) (ix2 f e') = _
  rw [View.read_apply]
  show V c main_v53 _ = V c main_v53 _
  refine congrArg (V c main_v53) (funext fun a => Fin.ext ?_)
  match a with
  | ⟨0, _⟩ => show win5_0.index t (0 : Fin 2) * 32 + 1 * f.val = f.val; rw [h0]; omega
  | ⟨1, _⟩ => show win5_0.index t (1 : Fin 2) * 2048 + 1 * e'.val = k.val; rw [h1, hk]; omega

/-- Entry (e', 0) of the word block at point t is the target word of edge 2048·(t % 831) + e'. -/
theorem wblk_apply (c : Dev nD) (t : Fin cfg5.N) (e' : Fin 2048) (k : Fin 1701888)
    (hk : k.val = 2048 * (t.val % 831) + e'.val) : wblk V c t (ix2 e' (0 : Fin 1)) = colA V c (ix2 k (0 : Fin 1)) := by
  obtain ⟨h0, h1⟩ := idx_col t
  show ((cfg5.win 1).blk t).view.read (Elt Ideal) (V c (Pipeline.arrRef spec5 1)) (ix2 e' (0 : Fin 1)) = _
  rw [View.read_apply]
  show V c main_v54 _ = V c main_v54 _
  refine congrArg (V c main_v54) (funext fun a => Fin.ext ?_)
  match a with
  | ⟨0, _⟩ => show win5_1.index t (0 : Fin 2) * 2048 + 1 * e'.val = k.val; rw [h0, hk]; omega
  | ⟨1, _⟩ => show win5_1.index t (1 : Fin 2) * 1 + 1 * 0 = 0; rw [h1]

/-- The bias block at any point is the whole bias. -/
theorem bblk_apply (c : Dev nD) (t : Fin cfg5.N) (f : Fin 32) :
    bblk V c t (ix2 f (0 : Fin 1)) = biasA V c (ix2 f (0 : Fin 1)) := by
  obtain ⟨h0, h1⟩ := idx_bias t
  show ((cfg5.win 2).blk t).view.read (Elt Ideal) (V c (Pipeline.arrRef spec5 2)) (ix2 f (0 : Fin 1)) = _
  rw [View.read_apply]
  show V c main_v55 _ = V c main_v55 _
  refine congrArg (V c main_v55) (funext fun a => Fin.ext ?_)
  match a with
  | ⟨0, _⟩ => show win5_2.index t (0 : Fin 2) * 32 + 1 * f.val = f.val; rw [h0]; omega
  | ⟨1, _⟩ => show win5_2.index t (1 : Fin 2) * 1 + 1 * 0 = 0; rw [h1]

/-! ## One point's contribution, and the carried block point by point -/

/-- What point t adds at entry (f, n') of the carried block: the one-hot sum over the 2048 edges of its blocks. -/
def addend (c : Dev nD) (t : Fin cfg5.N) (f : Fin 32) (n' : Fin 2048) : EReal :=
  ∑ e' : Fin 2048, mblk V c t (ix2 f e') *
    hot (wblk V c t (ix2 e' (0 : Fin 1)) = BitVec.ofNat 32 (2048 * (grid5.coords t 0).val + n'.val))

/-- The same for every natural number (zero past the grid), so that sums over ranges of points can be written. -/
def addN (c : Dev nD) (t : ℕ) (f : Fin 32) (n' : Fin 2048) : EReal :=
  if h : t < cfg5.N then addend V c ⟨t, h⟩ f n' else 0

theorem addN_of_lt (c : Dev nD) (t : ℕ) (h : t < cfg5.N) (f : Fin 32) (n' : Fin 2048) :
    addN V c t f n' = addend V c ⟨t, h⟩ f n' := dif_pos h

/-- The carried block's contents depend on the point's number only. -/
theorem outsAt_congr (c : Dev nD) (a b : ℕ) (ha : a < cfg5.N) (hb : b < cfg5.N) (e : a = b) :
    outsAt5 V c a ha = outsAt5 V c b hb := by
  subst e; rfl

/-- At the first point of a run the block holds that point's contribution. -/
theorem step_A (c : Dev nD) (t : Fin cfg5.N) (h0 : t.val % 831 = 0) (h1 : ¬t.val % 831 = 830) (f : Fin 32) (n' : Fin 2048) :
    outsAt5 V c t.val t.isLt (ix2 f n') = addend V c t f n' := by
  rw [outsAt5_A V c t h0 h1]
  refine (congrFun (out_A c (grid5.coords t) (ms5_0 t) (hs5_0 t) (ms5_1 t) (hs5_1 t) (ms5_2 t) (hs5_2 t) (ms5_3 t) (hs5_3 t)
    ((hcond5_0 t).mpr h0) (fun h => h1 ((hcond5_1 t).mp h)) (mblk V c t) (wblk V c t) (bblk V c t)) (ix2 f n')).trans ?_
  refine (pay2_apply (grid5.coords t) (wblk V c t) (mblk V c t) (k5_pay1 (F := Ideal)) f n').trans ?_
  rw [pay1_apply, zero_add]
  rfl

/-- At a middle point it holds what the point before left plus the point's contribution. -/
theorem step_B (c : Dev nD) (t : Fin cfg5.N) (h0 : ¬t.val % 831 = 0) (h1 : ¬t.val % 831 = 830) (f : Fin 32) (n' : Fin 2048) :
    outsAt5 V c t.val t.isLt (ix2 f n')
      = outsAt5 V c (t.val - 1) (Nat.lt_of_le_of_lt (Nat.sub_le _ _) t.isLt) (ix2 f n') + addend V c t f n' := by
  rw [outsAt5_B V c t h0 h1]
  refine (congrFun (out_B c (grid5.coords t) (ms5_0 t) (hs5_0 t) (ms5_1 t) (hs5_1 t) (ms5_2 t) (hs5_2 t) (ms5_3 t) (hs5_3 t)
    (fun h => h0 ((hcond5_0 t).mp h)) (fun h => h1 ((hcond5_1 t).mp h)) (mblk V c t) (wblk V c t) (bblk V c t)
    (outsAt5 V c (t.val - 1) (Nat.lt_of_le_of_lt (Nat.sub_le _ _) t.isLt))) (ix2 f n')).trans ?_
  exact pay2_apply (grid5.coords t) (wblk V c t) (mblk V c t)
    (outsAt5 V c (t.val - 1) (Nat.lt_of_le_of_lt (Nat.sub_le _ _) t.isLt)) f n'

/-- At the last point of a run: the same, plus the bias of the row. -/
theorem step_C (c : Dev nD) (t : Fin cfg5.N) (h0 : ¬t.val % 831 = 0) (h1 : t.val % 831 = 830) (f : Fin 32) (n' : Fin 2048) :
    outsAt5 V c t.val t.isLt (ix2 f n')
      = (outsAt5 V c (t.val - 1) (Nat.lt_of_le_of_lt (Nat.sub_le _ _) t.isLt) (ix2 f n') + addend V c t f n')
          + bblk V c t (ix2 f (0 : Fin 1)) := by
  rw [outsAt5_C V c t h0 h1]
  refine (congrFun (out_C c (grid5.coords t) (ms5_0 t) (hs5_0 t) (ms5_1 t) (hs5_1 t) (ms5_2 t) (hs5_2 t) (ms5_3 t) (hs5_3 t)
    (fun h => h0 ((hcond5_0 t).mp h)) ((hcond5_1 t).mpr h1) (mblk V c t) (wblk V c t) (bblk V c t)
    (outsAt5 V c (t.val - 1) (Nat.lt_of_le_of_lt (Nat.sub_le _ _) t.isLt))) (ix2 f n')).trans ?_
  refine (pay3_apply (k5_pay2 (grid5.coords t) (wblk V c t) (mblk V c t)
    (outsAt5 V c (t.val - 1) (Nat.lt_of_le_of_lt (Nat.sub_le _ _) t.isLt))) (bblk V c t) f n').trans ?_
  refine congrArg (fun z : EReal => z + bblk V c t (ix2 f (0 : Fin 1))) ?_
  exact pay2_apply (grid5.coords t) (wblk V c t) (mblk V c t)
    (outsAt5 V c (t.val - 1) (Nat.lt_of_le_of_lt (Nat.sub_le _ _) t.isLt)) f n'

/-- THE RUNNING SUM. After the j-th point (j ≤ 829) of the d-th run the carried block holds, at (f, n'), the sum of the
    contributions of the run's points 0 … j: by induction on j. -/
theorem partial_sum (c : Dev nD) (d : ℕ) (hd : d < 49) (f : Fin 32) (n' : Fin 2048) :
    ∀ (j : ℕ) (hj : j ≤ 829) (h : 831 * d + j < cfg5.N),
      outsAt5 V c (831 * d + j) h (ix2 f n') = ∑ s ∈ Finset.range (j + 1), addN V c (831 * d + s) f n'
  | 0, _, h => by
    rw [Finset.sum_range_succ, Finset.sum_range_zero, zero_add, addN_of_lt V c (831 * d + 0) h f n']
    exact step_A V c ⟨831 * d + 0, h⟩ (by dsimp only; omega) (by dsimp only; omega) f n'
  | j + 1, hj, h => by
    have hN : 831 * d + (j + 1) < 40719 := lt_of_lt_of_eq h (show cfg5.N = 40719 from N_5)
    have hlt : 831 * d + j < cfg5.N := Nat.lt_of_succ_lt h
    rw [Finset.sum_range_succ, addN_of_lt V c (831 * d + (j + 1)) h f n', ← partial_sum c d hd f n' j (by omega) hlt]
    refine (step_B V c ⟨831 * d + (j + 1), h⟩ (by dsimp only; omega) (by dsimp only; omega) f n').trans ?_
    refine congrArg (fun z : EReal => z + addend V c ⟨831 * d + (j + 1), h⟩ f n') ?_
    exact congrFun (outsAt_congr V c _ _ _ _ (by dsimp only; omega)) (ix2 f n')

/-! ## The sums over the whole edge axis -/

/-- The 1701888 edges summed block by block: 831 blocks of 2048. -/
theorem sum_blocks (g : Fin 1701888 → EReal) :
    ∑ e : Fin 1701888, g e
      = ∑ s : Fin 831, ∑ e' : Fin 2048, g ⟨2048 * s.val + e'.val, by have := s.isLt; have := e'.isLt; omega⟩ := by
  rw [← Equiv.sum_comp ((finProdFinEquiv (m := 831) (n := 2048)).trans (finCongr (by norm_num : 831 * 2048 = 1701888))) g,
    Fintype.sum_prod_type]
  refine Finset.sum_congr rfl fun s _ => Finset.sum_congr rfl fun e' _ => congrArg g (Fin.ext ?_)
  show e'.val + 2048 * s.val = 2048 * s.val + e'.val
  omega

/-- The specification's summand at edge e for row f and column number m. -/
def term (c : Dev nD) (f : Fin 32) (m : ℕ) (e : Fin 1701888) : EReal :=
  msgA V c (ix2 f e) * hot (colA V c (ix2 e (0 : Fin 1)) = BitVec.ofNat 32 m)

/-- The contribution of the s-th point of the d-th run is the sum of the specification's summands over the edges
    2048·s … 2048·s + 2047, at column 2048·d + n'. -/
theorem addend_eq (c : Dev nD) (d s : ℕ) (hd : d < 49) (hs : s < 831) (h : 831 * d + s < cfg5.N) (f : Fin 32) (n' : Fin 2048) :
    addend V c ⟨831 * d + s, h⟩ f n'
      = ∑ e' : Fin 2048, term V c f (2048 * d + n'.val) ⟨2048 * s + e'.val, by have := e'.isLt; omega⟩ := by
  unfold addend term
  refine Finset.sum_congr rfl fun e' _ => ?_
  have hb : 2048 * s + e'.val < 1701888 := by have := e'.isLt; omega
  have hk : (⟨2048 * s + e'.val, hb⟩ : Fin 1701888).val
      = 2048 * ((⟨831 * d + s, h⟩ : Fin cfg5.N).val % 831) + e'.val := by
    dsimp only; omega
  refine congrArg₂ (fun a b : EReal => a * b)
    (mblk_apply V c ⟨831 * d + s, h⟩ f e' ⟨2048 * s + e'.val, hb⟩ hk) (hot_congr ?_)
  rw [wblk_apply V c ⟨831 * d + s, h⟩ e' ⟨2048 * s + e'.val, hb⟩ hk, coord0 ⟨831 * d + s, h⟩,
    show (⟨831 * d + s, h⟩ : Fin cfg5.N).val / 831 = d from by dsimp only; omega]

/-- The contributions of the 831 points of the d-th run add up to the specification's sum over all edges. -/
theorem run_sum (c : Dev nD) (d : ℕ) (hd : d < 49) (f : Fin 32) (n' : Fin 2048) :
    ∑ s ∈ Finset.range 831, addN V c (831 * d + s) f n' = ∑ e : Fin 1701888, term V c f (2048 * d + n'.val) e := by
  rw [Finset.sum_range, sum_blocks]
  refine Finset.sum_congr rfl fun s _ => ?_
  have hs : 831 * d + s.val < cfg5.N := by rw [show cfg5.N = 40719 from N_5]; have := s.isLt; omega
  exact (addN_of_lt V c (831 * d + s.val) hs f n').trans (addend_eq V c d s.val hd s.isLt hs f n')

/-- The specification's value at row f and column n. -/
def spec (c : Dev nD) (f : Fin 32) (n : Fin 100352) : EReal :=
  scatterT (fun f' e => V c main_v53 (ix2 f' e)) (fun e => V c main_v54 (ix2 e (0 : Fin 1)))
    (fun f' => V c main_v55 (ix2 f' (0 : Fin 1))) f n

/-- AFTER THE LAST POINT of the d-th run the carried block holds the specification's values of the columns
    2048·d … 2048·d + 2047. -/
theorem last_eq (c : Dev nD) (d : ℕ) (hd : d < 49) (t : Fin cfg5.N) (ht : t.val = 831 * d + 830) (f : Fin 32) (n' : Fin 2048) :
    outsAt5 V c t.val t.isLt (ix2 f n') = spec V c f ⟨2048 * d + n'.val, by have := n'.isLt; omega⟩ := by
  obtain ⟨tv, tlt⟩ := t
  dsimp only at ht
  subst ht
  have hN : 831 * d + 830 < 40719 := lt_of_lt_of_eq tlt (show cfg5.N = 40719 from N_5)
  have h829 : 831 * d + 829 < cfg5.N := by rw [show cfg5.N = 40719 from N_5]; omega
  have e1 : outsAt5 V c ((⟨831 * d + 830, tlt⟩ : Fin cfg5.N).val - 1) (Nat.lt_of_le_of_lt (Nat.sub_le _ _) tlt) (ix2 f n')
      = ∑ s ∈ Finset.range 830, addN V c (831 * d + s) f n' :=
    (congrFun (outsAt_congr V c _ (831 * d + 829) _ h829 (by dsimp only; omega)) (ix2 f n')).trans
      (partial_sum V c d hd f n' 829 (le_refl _) h829)
  refine (step_C V c ⟨831 * d + 830, tlt⟩ (by dsimp only; omega) (by dsimp only; omega) f n').trans ?_
  unfold spec Cert.Gcn.scatterT
  refine congrArg₂ (fun a b : EReal => a + b) ?_ (bblk_apply V c ⟨831 * d + 830, tlt⟩ f)
  refine (congrArg₂ (fun a b : EReal => a + b) e1 (addN_of_lt V c (831 * d + 830) tlt f n').symm).trans ?_
  refine (Finset.sum_range_succ (fun s => addN V c (831 * d + s) f n') 830).symm.trans ?_
  exact run_sum V c d hd f n'

/-! ## From the blocks to the array -/

/-- The array [32, 100352] whose entry (f, n) is g f n. -/
def arrOf (g : Fin 32 → Fin 100352 → EReal) : S32x100352.Idx → EReal :=
  fun i => g ⟨(i 0).val, idx2_lt0 i⟩ ⟨(i 1).val, idx2_lt1 i⟩

theorem arrOf_ix2 (g : Fin 32 → Fin 100352 → EReal) (f : Fin 32) (n : Fin 100352) : arrOf g (ix2 f n) = g f n := rfl

/-- A block [32, 2048] whose entry (f, n') is g f (2048·d + n'), cut to what point t writes back, is the block at (0, d)
    of the array of g: stated for any g and any block. -/
theorem cut_eq_read (g : Fin 32 → Fin 100352 → EReal) (t : Fin cfg5.N) (d : ℕ) (hd : d < 49)
    (hi : win5_3.index t (1 : Fin 2) = d) (X : Vec Ideal S32x2048 .f32)
    (hX : ∀ (f : Fin 32) (n' : Fin 2048), X (ix2 f n') = g f ⟨2048 * d + n'.val, by have := n'.isLt; omega⟩) :
    (cfg5.win 3).cut (grid5.coords t) X = ((cfg5.win 3).blk t).view.read (Elt Ideal) (arrOf g) := by
  obtain ⟨i0, -⟩ := idx_out t
  funext y
  have hy0 : (y 0).val < 32 := (y 0).isLt
  have hy1 : (y 1).val < 2048 := (y 1).isLt
  have hb : 2048 * d + (y 1).val < 100352 := by omega
  rw [View.read_apply]
  have hj : (cfg5.win 3).xinj (grid5.coords t) y = ix2 (⟨(y 0).val, hy0⟩ : Fin 32) (⟨(y 1).val, hy1⟩ : Fin 2048) :=
    funext fun a => by match a with | ⟨0, _⟩ => rfl | ⟨1, _⟩ => rfl
  refine ((congrArg X hj).trans (hX ⟨(y 0).val, hy0⟩ ⟨(y 1).val, hy1⟩)).trans ?_
  refine (arrOf_ix2 g ⟨(y 0).val, hy0⟩ ⟨2048 * d + (y 1).val, hb⟩).symm.trans ?_
  refine congrArg (arrOf g) (funext fun a => Fin.ext ?_)
  match a with
  | ⟨0, _⟩ => show (y 0).val = win5_3.index t (0 : Fin 2) * 32 + 1 * (y 0).val; rw [i0]; omega
  | ⟨1, _⟩ => show 2048 * d + (y 1).val = win5_3.index t (1 : Fin 2) * 2048 + 1 * (y 1).val; rw [hi]; omega

/-- What the last point of a run writes back is its block of the array of the specification's values. -/
theorem flushed_eq (c : Dev nD) (t : Fin cfg5.N) (hf : (cfg5.win 3).flush t = true) :
    (dat5 V c).flushed 3 t = ((cfg5.win 3).blk t).view.read (Elt Ideal) (arrOf (spec V c)) := by
  have hN : t.val < 40719 := lt_of_lt_of_eq t.isLt (show cfg5.N = 40719 from N_5)
  have h830 : t.val % 831 = 830 := (flush5_3 t).mp hf
  obtain ⟨-, i1⟩ := idx_out t
  show (cfg5.win 3).cut (grid5.coords t) ((dat5 V c).after 3 t) = _
  rw [after5_3]
  exact cut_eq_read (spec V c) t (t.val / 831) (by omega) i1 (outsAt5 V c t.val t.isLt)
    (fun f n' => last_eq V c (t.val / 831) (by omega) t (by omega) f n')

/-- An entry of the array lies in point t's block iff each coordinate lies in the block's range. -/
theorem mem_blk (t : Fin cfg5.N) (i : S32x100352.Idx) :
    i ∈ ((cfg5.win 3).blk t).view.set ↔
      ∀ a : Fin 2, win5_3.index t a * S32x2048.size a ≤ (i a).val ∧ (i a).val < win5_3.index t a * S32x2048.size a + S32x2048.size a := by
  show i ∈ ((View.whole main_v56).slice (win5_3.rect t)).set ↔ _
  rw [View.set_slice_whole, Rect.mem_set_unit]
  exact Iff.rfl

/-- Column n lies in the block the last point of run n / 2048 writes back. -/
theorem cover (c : Dev nD) (i : S32x100352.Idx) :
    ∃ t : Fin cfg5.N, (cfg5.win 3).flush t = true ∧ i ∈ ((cfg5.win 3).blk t).view.set := by
  have hi0 : (i 0).val < 32 := (i 0).isLt
  have hi1 : (i 1).val < 100352 := (i 1).isLt
  have hlt : 831 * ((i 1).val / 2048) + 830 < cfg5.N := by rw [show cfg5.N = 40719 from N_5]; omega
  refine ⟨⟨831 * ((i 1).val / 2048) + 830, hlt⟩, (flush5_3 _).mpr (by dsimp only; omega), ?_⟩
  obtain ⟨i0, i1⟩ := idx_out ⟨831 * ((i 1).val / 2048) + 830, hlt⟩
  rw [mem_blk]
  intro a
  match a with
  | ⟨0, _⟩ =>
    show win5_3.index ⟨831 * ((i 1).val / 2048) + 830, hlt⟩ (0 : Fin 2) * 32 ≤ (i 0).val
      ∧ (i 0).val < win5_3.index ⟨831 * ((i 1).val / 2048) + 830, hlt⟩ (0 : Fin 2) * 32 + 32
    rw [i0]; omega
  | ⟨1, _⟩ =>
    show win5_3.index ⟨831 * ((i 1).val / 2048) + 830, hlt⟩ (1 : Fin 2) * 2048 ≤ (i 1).val
      ∧ (i 1).val < win5_3.index ⟨831 * ((i 1).val / 2048) + 830, hlt⟩ (1 : Fin 2) * 2048 + 2048
    rw [i1]; dsimp only; omega

/-- THE REGION'S VALUE: after the region the aggregate holds, at row f and column n, the messages of the edges whose
    target word is n — summed by a one-hot sum over all 1701888 edges, block by block —, plus the bias. -/
theorem value (c : Dev nD) (f : Fin 32) (n : Fin 100352) :
    (dat5 (F := Ideal) V c).arrAt 3 cfg5.N (ix2 f n)
      = Cert.Gcn.scatterT (fun f' e => V c main_v53 (ix2 f' e)) (fun e => V c main_v54 (ix2 e (0 : Fin 1)))
          (fun f' => V c main_v55 (ix2 f' (0 : Fin 1))) f n :=
  (congrFun ((dat5 V c).arrAt_eq_of_cover 3 (arrOf (spec V c)) (flushed_eq V c) (cover c)) (ix2 f n)).trans
    (arrOf_ix2 (spec V c) f n)

end Cert.KernelIdeal.Reg5

end
-- ==== Proof.KerChain.lean ====
/-
  THE KERNEL PROGRAM'S RESULT, read back through its six regions.

  The program's last host operations slice the first 100000 columns off the second aggregate [32, 100352] and
  transpose them; the second aggregate is region 5's value of region 4's messages, those region 4's value of region 3's
  table, that region 3's value of the rectified first aggregate, and so on back to the transposed, zero-padded feature
  table and the transposed weights. Between the regions the host only reshapes (a vector to a row or a column) and
  transposes. The edge words and weights enter as the three vectors the host prelude leaves (the padded sources,
  targets and weights), which no later operation writes.
-/
import proofs.«429796_j5497558139162_1_alg».proof.Proof.FrameKI
import proofs.«429796_j5497558139162_1_alg».proof.Proof.Spec
import proofs.«429796_j5497558139162_1_alg».proof.Proof.Reg0
import proofs.«429796_j5497558139162_1_alg».proof.Proof.Reg1
import proofs.«429796_j5497558139162_1_alg».proof.Proof.Reg2
import proofs.«429796_j5497558139162_1_alg».proof.Proof.Reg3
import proofs.«429796_j5497558139162_1_alg».proof.Proof.Reg4
import proofs.«429796_j5497558139162_1_alg».proof.Proof.Reg5
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run

set_option maxRecDepth 16384

noncomputable section

open Idealize.ShloMosaic Idealize.ShloMosaic.TcCoe Idealize.SL.Sem
open Idealize.ShloMosaic.ValueIdx

namespace Cert.KernelIdeal.Chain

open Cert.KernelIdeal Cert.KernelIdeal.Gen Cert.KernelIdeal.GenP

/-! ## Small readings and congruences -/

/-- A vector cast to a one-column matrix reads, at (i, u), the vector at i: the row-major position is i · 1 + 0. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The signed reading of the zero word is the real zero. -/
theorem sitofp_zero : FloatOps.sitofp (F := Ideal) .f32 (0#32 : BitVec 32) = (0 : EReal) := by
  have h0 : (0#32 : BitVec 32).toInt = 0 := by first | exact BitVec.toInt_zero | decide
  show (((0#32 : BitVec 32).toInt : ℝ) : EReal) = 0
  rw [h0, Int.cast_zero, EReal.coe_zero]

/-- The three formulas take equal arguments to equal values. -/
theorem projT_congr {Fo K NP : ℕ} {wT wT' : Fin Fo → Fin K → EReal} {xT xT' : Fin K → Fin NP → EReal}
    (h1 : wT = wT') (h2 : xT = xT') : Cert.Gcn.projT wT xT = Cert.Gcn.projT wT' xT' := by
  subst h1; subst h2; rfl

theorem gatherT_congr {Fo NP E : ℕ} {hT hT' : Fin Fo → Fin NP → EReal} {row row' : Fin E → BitVec 32}
    {nrm nrm' : Fin E → EReal} (h1 : hT = hT') (h2 : row = row') (h3 : nrm = nrm') :
    Cert.Gcn.gatherT hT row nrm = Cert.Gcn.gatherT hT' row' nrm' := by
  subst h1; subst h2; subst h3; rfl

theorem scatterT_congr {Fo NP E : ℕ} {msg msg' : Fin Fo → Fin E → EReal} {col col' : Fin E → BitVec 32}
    {bias bias' : Fin Fo → EReal} (h1 : msg = msg') (h2 : col = col') (h3 : bias = bias') :
    Cert.Gcn.scatterT (NP := NP) msg col bias = Cert.Gcn.scatterT (NP := NP) msg' col' bias' := by
  subst h1; subst h2; subst h3; rfl

/-! ## The host stretches, over any contents X at their start

A buffer no operation of a stretch writes passes through it; a buffer the stretch writes holds its operations'
functions of the stretch's inputs, read here at an index. -/

section Host

variable (X : Valuation τ sig (Elt Ideal))

/-- No operation of the stretch writes the buffer: each writes one buffer, and it is another one. -/
local macro "not_written" : tactic =>
  `(tactic| (refine StableHlo.after_of_forall_not_mem _ _ (List.forall_iff_forall_mem.mp ?_)
             simp only [hostOps0, hostOps0_1, hostOps0_2, hostOps0_3, hostOps0_4, hostOps1, hostOps2, hostOps3,
               hostOps4, hostOps5, hostOps6, List.Forall, StableHlo.nullary_writes, StableHlo.unary_writes,
               StableHlo.binary_writes, StableHlo.ternary_writes, StableHlo.reshape_writes, Finset.mem_singleton]
             repeat' apply And.intro
             all_goals (apply StableHlo.devRef_ne_of_ne; first | assumption | decide)))

/-! ### What passes through -/

theorem keep0_arg0 :
    StableHlo.after (hostOps0 (F := Ideal)) X (Proc.devRef .tc main_arg0) = X (Proc.devRef .tc main_arg0) := by
  not_written

theorem keep0_arg3 :
    StableHlo.after (hostOps0 (F := Ideal)) X (Proc.devRef .tc main_arg3) = X (Proc.devRef .tc main_arg3) := by
  not_written

theorem keep01 (b : Ref sig .tc) (h1 : b ≠ main_v22) :
    StableHlo.after (hostOps0_1 (F := Ideal)) X (Proc.devRef .tc b) = X (Proc.devRef .tc b) := by
  not_written

theorem keep02_arg3 :
    StableHlo.after (hostOps0_2 (F := Ideal)) X (Proc.devRef .tc main_arg3) = X (Proc.devRef .tc main_arg3) := by
  not_written

theorem keep03 (b : Ref sig .tc) (h1 : b ≠ main_call1_v0) (h2 : b ≠ main_v40) :
    StableHlo.after (hostOps0_3 (F := Ideal)) X (Proc.devRef .tc b) = X (Proc.devRef .tc b) := by
  not_written

theorem keep04 (b : Ref sig .tc) (h1 : b ≠ main_v41) :
    StableHlo.after (hostOps0_4 (F := Ideal)) X (Proc.devRef .tc b) = X (Proc.devRef .tc b) := by
  not_written

theorem keep1 (b : Ref sig .tc) (h1 : b ≠ main_v43) (h2 : b ≠ main_v44) :
    StableHlo.after (hostOps1 (F := Ideal)) X (Proc.devRef .tc b) = X (Proc.devRef .tc b) := by
  not_written

theorem keep2 (b : Ref sig .tc) (h1 : b ≠ main_v46) (h2 : b ≠ main_v47) :
    StableHlo.after (hostOps2 (F := Ideal)) X (Proc.devRef .tc b) = X (Proc.devRef .tc b) := by
  not_written

theorem keep3 (b : Ref sig .tc) (h1 : b ≠ main_v49) :
    StableHlo.after (hostOps3 (F := Ideal)) X (Proc.devRef .tc b) = X (Proc.devRef .tc b) := by
  not_written

theorem keep4 (b : Ref sig .tc) (h1 : b ≠ main_v51) (h2 : b ≠ main_v52) :
    StableHlo.after (hostOps4 (F := Ideal)) X (Proc.devRef .tc b) = X (Proc.devRef .tc b) := by
  not_written

theorem keep5 (b : Ref sig .tc) (h1 : b ≠ main_v54) (h2 : b ≠ main_v55) :
    StableHlo.after (hostOps5 (F := Ideal)) X (Proc.devRef .tc b) = X (Proc.devRef .tc b) := by
  not_written

theorem keep6 (b : Ref sig .tc) (h1 : b ≠ main_v57) (h2 : b ≠ main_v58) :
    StableHlo.after (hostOps6 (F := Ideal)) X (Proc.devRef .tc b) = X (Proc.devRef .tc b) := by
  not_written

/-! ### What the prelude's last stretches write: the transposed feature table, its padding, the transposed weights -/

/-- The transposed feature table reads, at (k, n), the table at (n, k). -/
theorem host02_v39 (k : Fin 128) (n : Fin 100000) :
    StableHlo.after (hostOps0_2 (F := Ideal)) X (Proc.devRef .tc main_v39) (ix2 k n)
      = X (Proc.devRef .tc main_arg0) (ix2 n k) := by
  have e : (StableHlo.after (hostOps0_2 (F := Ideal)) X (Proc.devRef .tc main_v39) : S128x100000.Idx → EReal)
      = transpose (s := S100000x128) S128x100000 [1, 0] (X (Proc.devRef .tc main_arg0))
          transposes_S100000x128_S128x100000_1_0 := by
    after_results <;> rfl
  exact (congrFun e (ix2 k n)).trans (transpose_ix2_apply _ _ k n)

/-- The integer the padding value is converted from is the zero word. -/
theorem host02_c9 :
    (StableHlo.after (hostOps0_2 (F := Ideal)) X (Proc.devRef .tc main_c_9) : S_.Idx → BitVec 32)
      = constantI S_ 32 0#32 := by
  after_results <;> rfl

/-- The padded table is the pad of the transposed table by the converted integer. -/
theorem host03_v40_eq :
    (StableHlo.after (hostOps0_3 (F := Ideal)) X (Proc.devRef .tc main_v40) : S128x100352.Idx → EReal)
      = pad (s := S128x100000) S128x100352 ![0, 0] ![0, 352] ![0, 0] (X (Proc.devRef .tc main_v39))
          (sitofp .f32 (X (Proc.devRef .tc main_c_9) : IVec S_ 32) : FVec Ideal S_ .f32)
          pads_S128x100000_S128x100352_000_03520 h_S_ := by
  after_results <;> rfl

/-- Inside the first 100000 columns the padded table is the transposed table. -/
theorem host03_v40_in (k : Fin 128) (j : Fin 100352) (h : j.val < 100000) :
    StableHlo.after (hostOps0_3 (F := Ideal)) X (Proc.devRef .tc main_v40) (ix2 k j)
      = X (Proc.devRef .tc main_v39) (ix2 k (⟨j.val, h⟩ : Fin 100000)) := by
  refine (congrFun (host03_v40_eq X) (ix2 k j)).trans ?_
  exact pad_apply_of_inside _ _ _ _ _ _ _ (ix2 k j) (ix2 k (⟨j.val, h⟩ : Fin 100000)) (fun a => match a with
    | ⟨0, _⟩ => by show k.val = 0 + k.val * (0 + 1); omega
    | ⟨1, _⟩ => by show j.val = 0 + j.val * (0 + 1); omega)

/-- Beyond them it is the padding value: the signed reading of the integer. -/
theorem host03_v40_out (k : Fin 128) (j : Fin 100352) (h : ¬ j.val < 100000) :
    StableHlo.after (hostOps0_3 (F := Ideal)) X (Proc.devRef .tc main_v40) (ix2 k j)
      = FloatOps.sitofp (F := Ideal) .f32 (X (Proc.devRef .tc main_c_9) ix0) := by
  refine (congrFun (host03_v40_eq X) (ix2 k j)).trans ?_
  refine (pad_apply_of_not_inside _ _ _ _ _ _ _ (ix2 k j) (1 : Fin 2) (by
    intro hin
    have e : (j.val - 0) / (0 + 1) < 100000 := hin.2.2
    omega)).trans ?_
  exact congrArg (fun i => FloatOps.sitofp (F := Ideal) .f32 (X (Proc.devRef .tc main_c_9) i)) (eq_ix0 _)

/-- The transposed first weight matrix reads, at (f, k), the matrix at (k, f). -/
theorem host04_v41 (f : Fin 64) (k : Fin 128) :
    StableHlo.after (hostOps0_4 (F := Ideal)) X (Proc.devRef .tc main_v41) (ix2 f k)
      = X (Proc.devRef .tc main_arg3) (ix2 k f) := by
  have e : (StableHlo.after (hostOps0_4 (F := Ideal)) X (Proc.devRef .tc main_v41) : S64x128.Idx → EReal)
      = transpose (s := S128x64) S64x128 [1, 0] (X (Proc.devRef .tc main_arg3)) transposes_S128x64_S64x128_1_0 := by
    after_results <;> rfl
  exact (congrFun e (ix2 f k)).trans (transpose_ix2_apply _ _ f k)

/-! ### Between the regions: a vector as a row, a vector as a column, a transpose -/

/-- The source words as a row. -/
theorem host1_v43 (e : Fin 1701888) :
    StableHlo.after (hostOps1 (F := Ideal)) X (Proc.devRef .tc main_v43) (ix2 (0 : Fin 1) e)
      = X (Proc.devRef .tc main_v10) (ix1 e) := by
  have h : (StableHlo.after (hostOps1 (F := Ideal)) X (Proc.devRef .tc main_v43) : S1x1701888.Idx → BitVec 32)
      = shapeCast (s := S1701888) S1x1701888 (X (Proc.devRef .tc main_v10)) shapeCasts_S1701888_S1x1701888 := by
    after_results <;> rfl
  exact (congrFun h (ix2 (0 : Fin 1) e)).trans (shapeCast_a_1a_apply _ _ 0 e)

/-- The edge weights as a row. -/
theorem host1_v44 (e : Fin 1701888) :
    StableHlo.after (hostOps1 (F := Ideal)) X (Proc.devRef .tc main_v44) (ix2 (0 : Fin 1) e)
      = X (Proc.devRef .tc main_v38) (ix1 e) := by
  have h : (StableHlo.after (hostOps1 (F := Ideal)) X (Proc.devRef .tc main_v44) : S1x1701888.Idx → EReal)
      = shapeCast (s := S1701888) S1x1701888 (X (Proc.devRef .tc main_v38)) shapeCasts_S1701888_S1x1701888 := by
    after_results <;> rfl
  exact (congrFun h (ix2 (0 : Fin 1) e)).trans (shapeCast_a_1a_apply _ _ 0 e)

/-- The target words as a column. -/
theorem host2_v46 (e : Fin 1701888) :
    StableHlo.after (hostOps2 (F := Ideal)) X (Proc.devRef .tc main_v46) (ix2 e (0 : Fin 1))
      = X (Proc.devRef .tc main_v12) (ix1 e) := by
  have h : (StableHlo.after (hostOps2 (F := Ideal)) X (Proc.devRef .tc main_v46) : S1701888x1.Idx → BitVec 32)
      = shapeCast (s := S1701888) S1701888x1 (X (Proc.devRef .tc main_v12)) shapeCasts_S1701888_S1701888x1 := by
    after_results <;> rfl
  exact (congrFun h (ix2 e (0 : Fin 1))).trans (shapeCast_a_a1_apply _ _ e 0)

/-- The first bias as a column. -/
theorem host2_v47 (f : Fin 64) :
    StableHlo.after (hostOps2 (F := Ideal)) X (Proc.devRef .tc main_v47) (ix2 f (0 : Fin 1))
      = X (Proc.devRef .tc main_arg4) (ix1 f) := by
  have h : (StableHlo.after (hostOps2 (F := Ideal)) X (Proc.devRef .tc main_v47) : S64x1.Idx → EReal)
      = shapeCast (s := S64) S64x1 (X (Proc.devRef .tc main_arg4)) shapeCasts_S64_S64x1 := by
    after_results <;> rfl
  exact (congrFun h (ix2 f (0 : Fin 1))).trans (shapeCast_a_a1_apply _ _ f 0)

/-- The transposed second weight matrix reads, at (f, k), the matrix at (k, f). -/
theorem host3_v49 (f : Fin 32) (k : Fin 64) :
    StableHlo.after (hostOps3 (F := Ideal)) X (Proc.devRef .tc main_v49) (ix2 f k)
      = X (Proc.devRef .tc main_arg5) (ix2 k f) := by
  have e : (StableHlo.after (hostOps3 (F := Ideal)) X (Proc.devRef .tc main_v49) : S32x64.Idx → EReal)
      = transpose (s := S64x32) S32x64 [1, 0] (X (Proc.devRef .tc main_arg5)) transposes_S64x32_S32x64_1_0 := by
    after_results <;> rfl
  exact (congrFun e (ix2 f k)).trans (transpose_ix2_apply _ _ f k)

/-- The source words as a row, again. -/
theorem host4_v51 (e : Fin 1701888) :
    StableHlo.after (hostOps4 (F := Ideal)) X (Proc.devRef .tc main_v51) (ix2 (0 : Fin 1) e)
      = X (Proc.devRef .tc main_v10) (ix1 e) := by
  have h : (StableHlo.after (hostOps4 (F := Ideal)) X (Proc.devRef .tc main_v51) : S1x1701888.Idx → BitVec 32)
      = shapeCast (s := S1701888) S1x1701888 (X (Proc.devRef .tc main_v10)) shapeCasts_S1701888_S1x1701888 := by
    after_results <;> rfl
  exact (congrFun h (ix2 (0 : Fin 1) e)).trans (shapeCast_a_1a_apply _ _ 0 e)

/-- The edge weights as a row, again. -/
theorem host4_v52 (e : Fin 1701888) :
    StableHlo.after (hostOps4 (F := Ideal)) X (Proc.devRef .tc main_v52) (ix2 (0 : Fin 1) e)
      = X (Proc.devRef .tc main_v38) (ix1 e) := by
  have h : (StableHlo.after (hostOps4 (F := Ideal)) X (Proc.devRef .tc main_v52) : S1x1701888.Idx → EReal)
      = shapeCast (s := S1701888) S1x1701888 (X (Proc.devRef .tc main_v38)) shapeCasts_S1701888_S1x1701888 := by
    after_results <;> rfl
  exact (congrFun h (ix2 (0 : Fin 1) e)).trans (shapeCast_a_1a_apply _ _ 0 e)

/-- The target words as a column, again. -/
theorem host5_v54 (e : Fin 1701888) :
    StableHlo.after (hostOps5 (F := Ideal)) X (Proc.devRef .tc main_v54) (ix2 e (0 : Fin 1))
      = X (Proc.devRef .tc main_v12) (ix1 e) := by
  have h : (StableHlo.after (hostOps5 (F := Ideal)) X (Proc.devRef .tc main_v54) : S1701888x1.Idx → BitVec 32)
      = shapeCast (s := S1701888) S1701888x1 (X (Proc.devRef .tc main_v12)) shapeCasts_S1701888_S1701888x1 := by
    after_results <;> rfl
  exact (congrFun h (ix2 e (0 : Fin 1))).trans (shapeCast_a_a1_apply _ _ e 0)

/-- The second bias as a column. -/
theorem host5_v55 (f : Fin 32) :
    StableHlo.after (hostOps5 (F := Ideal)) X (Proc.devRef .tc main_v55) (ix2 f (0 : Fin 1))
      = X (Proc.devRef .tc main_arg6) (ix1 f) := by
  have h : (StableHlo.after (hostOps5 (F := Ideal)) X (Proc.devRef .tc main_v55) : S32x1.Idx → EReal)
      = shapeCast (s := S32) S32x1 (X (Proc.devRef .tc main_arg6)) shapeCasts_S32_S32x1 := by
    after_results <;> rfl
  exact (congrFun h (ix2 f (0 : Fin 1))).trans (shapeCast_a_a1_apply _ _ f 0)

/-- The result: the first 100000 columns of the second aggregate, transposed; at (n, f) the aggregate at (f, n). -/
theorem host6_v58 (n : Fin 100000) (f : Fin 32) :
    StableHlo.after (hostOps6 (F := Ideal)) X (Proc.devRef .tc main_v58) (ix2 n f)
      = X (Proc.devRef .tc main_v56) (ix2 f (⟨n.val, Nat.lt_trans n.isLt (by decide)⟩ : Fin 100352)) := by
  have e : (StableHlo.after (hostOps6 (F := Ideal)) X (Proc.devRef .tc main_v58) : S100000x32.Idx → EReal)
      = transpose (s := S32x100000) S100000x32 [1, 0]
          (extractStridedSlice (s := S32x100352) S32x100000 ![0, 0] (X (Proc.devRef .tc main_v56))
            slices_S32x100352_S32x100000_0_0)
          transposes_S32x100000_S100000x32_1_0 := by
    after_results <;> rfl
  refine (congrFun e (ix2 n f)).trans ?_
  refine (transpose_ix2_apply _ _ n f).trans ?_
  exact slice2_axis1_apply 0 _ _ f n _ (Nat.zero_add _).symm

end Host

variable (m : (ℓ : Loc nD τ sig) → Buf (Elt Ideal) ℓ) (ρ : Dev nD → PrngReg)

/-! ## The arguments and the prelude's three vectors, as the regions and the stretches between them meet them -/

/-- The feature table, node by feature. -/
abbrev xA (c : Dev nD) : Fin 100000 → Fin 128 → EReal :=
  fun n k => m ((c : Thread nD τ).loc main_arg0) (ix2 n k)
/-- The first weight matrix and bias. -/
abbrev w1A (c : Dev nD) : Fin 128 → Fin 64 → EReal :=
  fun k f => m ((c : Thread nD τ).loc main_arg3) (ix2 k f)
abbrev b1A (c : Dev nD) : Fin 64 → EReal :=
  fun f => m ((c : Thread nD τ).loc main_arg4) (ix1 f)
/-- The second weight matrix and bias. -/
abbrev w2A (c : Dev nD) : Fin 64 → Fin 32 → EReal :=
  fun k f => m ((c : Thread nD τ).loc main_arg5) (ix2 k f)
abbrev b2A (c : Dev nD) : Fin 32 → EReal :=
  fun f => m ((c : Thread nD τ).loc main_arg6) (ix1 f)
/-- The padded source words, target words and edge weights the prelude leaves. -/
abbrev rowA (c : Dev nD) : Fin 1701888 → BitVec 32 :=
  fun e => W5 (F := Ideal) m ρ c (Proc.devRef .tc main_v10) (ix1 e)
abbrev colA (c : Dev nD) : Fin 1701888 → BitVec 32 :=
  fun e => W5 (F := Ideal) m ρ c (Proc.devRef .tc main_v12) (ix1 e)
abbrev nrmA (c : Dev nD) : Fin 1701888 → EReal :=
  fun e => W5 (F := Ideal) m ρ c (Proc.devRef .tc main_v38) (ix1 e)

/-! ### The arguments: no stretch and no region writes one -/

theorem W2_arg0 (c : Dev nD) :
    W2 (F := Ideal) m ρ c (Proc.devRef .tc main_arg0) = m ((c : Thread nD τ).loc main_arg0) :=
  calc W2 (F := Ideal) m ρ c (Proc.devRef .tc main_arg0)
    _ = W1 m ρ c (Proc.devRef .tc main_arg0) := keep01 (W1 m ρ c) main_arg0 (by decide)
    _ = W0 m ρ c (Proc.devRef .tc main_arg0) := keep0_arg0 (W0 m ρ c)
    _ = m ((c : Thread nD τ).loc main_arg0) := rfl

theorem W4_arg3 (c : Dev nD) :
    W4 (F := Ideal) m ρ c (Proc.devRef .tc main_arg3) = m ((c : Thread nD τ).loc main_arg3) :=
  calc W4 (F := Ideal) m ρ c (Proc.devRef .tc main_arg3)
    _ = W3 m ρ c (Proc.devRef .tc main_arg3) := keep03 (W3 m ρ c) main_arg3 (by decide) (by decide)
    _ = W2 m ρ c (Proc.devRef .tc main_arg3) := keep02_arg3 (W2 m ρ c)
    _ = W1 m ρ c (Proc.devRef .tc main_arg3) := keep01 (W1 m ρ c) main_arg3 (by decide)
    _ = W0 m ρ c (Proc.devRef .tc main_arg3) := keep0_arg3 (W0 m ρ c)
    _ = m ((c : Thread nD τ).loc main_arg3) := rfl

theorem W14_arg6 (c : Dev nD) :
    W14 (F := Ideal) m ρ c (Proc.devRef .tc main_arg6) = m ((c : Thread nD τ).loc main_arg6) :=
  calc W14 (F := Ideal) m ρ c (Proc.devRef .tc main_arg6)
    _ = W15 m ρ c (Proc.devRef .tc main_arg6) := (keep5 (W14 m ρ c) main_arg6 (by decide) (by decide)).symm
    _ = W16 m ρ c (Proc.devRef .tc main_arg6) := (W16_of_ne m ρ c main_arg6 (by decide)).symm
    _ = W17 m ρ c (Proc.devRef .tc main_arg6) := (keep6 (W16 m ρ c) main_arg6 (by decide) (by decide)).symm
    _ = m ((c : Thread nD τ).loc main_arg6) := W17_main_arg6 m ρ c

theorem W10_arg5 (c : Dev nD) :
    W10 (F := Ideal) m ρ c (Proc.devRef .tc main_arg5) = m ((c : Thread nD τ).loc main_arg5) :=
  calc W10 (F := Ideal) m ρ c (Proc.devRef .tc main_arg5)
    _ = W11 m ρ c (Proc.devRef .tc main_arg5) := (keep3 (W10 m ρ c) main_arg5 (by decide)).symm
    _ = W12 m ρ c (Proc.devRef .tc main_arg5) := (W12_of_ne m ρ c main_arg5 (by decide)).symm
    _ = W13 m ρ c (Proc.devRef .tc main_arg5) := (keep4 (W12 m ρ c) main_arg5 (by decide) (by decide)).symm
    _ = W14 m ρ c (Proc.devRef .tc main_arg5) := (W14_of_ne m ρ c main_arg5 (by decide)).symm
    _ = W15 m ρ c (Proc.devRef .tc main_arg5) := (keep5 (W14 m ρ c) main_arg5 (by decide) (by decide)).symm
    _ = W16 m ρ c (Proc.devRef .tc main_arg5) := (W16_of_ne m ρ c main_arg5 (by decide)).symm
    _ = W17 m ρ c (Proc.devRef .tc main_arg5) := (keep6 (W16 m ρ c) main_arg5 (by decide) (by decide)).symm
    _ = m ((c : Thread nD τ).loc main_arg5) := W17_main_arg5 m ρ c

theorem W8_arg4 (c : Dev nD) :
    W8 (F := Ideal) m ρ c (Proc.devRef .tc main_arg4) = m ((c : Thread nD τ).loc main_arg4) :=
  calc W8 (F := Ideal) m ρ c (Proc.devRef .tc main_arg4)
    _ = W9 m ρ c (Proc.devRef .tc main_arg4) := (keep2 (W8 m ρ c) main_arg4 (by decide) (by decide)).symm
    _ = W10 m ρ c (Proc.devRef .tc main_arg4) := (W10_of_ne m ρ c main_arg4 (by decide)).symm
    _ = W11 m ρ c (Proc.devRef .tc main_arg4) := (keep3 (W10 m ρ c) main_arg4 (by decide)).symm
    _ = W12 m ρ c (Proc.devRef .tc main_arg4) := (W12_of_ne m ρ c main_arg4 (by decide)).symm
    _ = W13 m ρ c (Proc.devRef .tc main_arg4) := (keep4 (W12 m ρ c) main_arg4 (by decide) (by decide)).symm
    _ = W14 m ρ c (Proc.devRef .tc main_arg4) := (W14_of_ne m ρ c main_arg4 (by decide)).symm
    _ = W15 m ρ c (Proc.devRef .tc main_arg4) := (keep5 (W14 m ρ c) main_arg4 (by decide) (by decide)).symm
    _ = W16 m ρ c (Proc.devRef .tc main_arg4) := (W16_of_ne m ρ c main_arg4 (by decide)).symm
    _ = W17 m ρ c (Proc.devRef .tc main_arg4) := (keep6 (W16 m ρ c) main_arg4 (by decide) (by decide)).symm
    _ = m ((c : Thread nD τ).loc main_arg4) := W17_main_arg4 m ρ c

/-! ### The prelude's three vectors: no later stretch and no region writes one -/

theorem W6_v10 (c : Dev nD) :
    W6 (F := Ideal) m ρ c (Proc.devRef .tc main_v10) = W5 m ρ c (Proc.devRef .tc main_v10) :=
  W6_of_ne m ρ c main_v10 (by decide)

theorem W8_v10 (c : Dev nD) :
    W8 (F := Ideal) m ρ c (Proc.devRef .tc main_v10) = W5 m ρ c (Proc.devRef .tc main_v10) :=
  calc W8 (F := Ideal) m ρ c (Proc.devRef .tc main_v10)
    _ = W7 m ρ c (Proc.devRef .tc main_v10) := W8_of_ne m ρ c main_v10 (by decide)
    _ = W6 m ρ c (Proc.devRef .tc main_v10) := keep1 (W6 m ρ c) main_v10 (by decide) (by decide)
    _ = W5 m ρ c (Proc.devRef .tc main_v10) := W6_v10 m ρ c

theorem W10_v10 (c : Dev nD) :
    W10 (F := Ideal) m ρ c (Proc.devRef .tc main_v10) = W5 m ρ c (Proc.devRef .tc main_v10) :=
  calc W10 (F := Ideal) m ρ c (Proc.devRef .tc main_v10)
    _ = W9 m ρ c (Proc.devRef .tc main_v10) := W10_of_ne m ρ c main_v10 (by decide)
    _ = W8 m ρ c (Proc.devRef .tc main_v10) := keep2 (W8 m ρ c) main_v10 (by decide) (by decide)
    _ = W5 m ρ c (Proc.devRef .tc main_v10) := W8_v10 m ρ c

theorem W12_v10 (c : Dev nD) :
    W12 (F := Ideal) m ρ c (Proc.devRef .tc main_v10) = W5 m ρ c (Proc.devRef .tc main_v10) :=
  calc W12 (F := Ideal) m ρ c (Proc.devRef .tc main_v10)
    _ = W11 m ρ c (Proc.devRef .tc main_v10) := W12_of_ne m ρ c main_v10 (by decide)
    _ = W10 m ρ c (Proc.devRef .tc main_v10) := keep3 (W10 m ρ c) main_v10 (by decide)
    _ = W5 m ρ c (Proc.devRef .tc main_v10) := W10_v10 m ρ c

theorem W6_v38 (c : Dev nD) :
    W6 (F := Ideal) m ρ c (Proc.devRef .tc main_v38) = W5 m ρ c (Proc.devRef .tc main_v38) :=
  W6_of_ne m ρ c main_v38 (by decide)

theorem W8_v38 (c : Dev nD) :
    W8 (F := Ideal) m ρ c (Proc.devRef .tc main_v38) = W5 m ρ c (Proc.devRef .tc main_v38) :=
  calc W8 (F := Ideal) m ρ c (Proc.devRef .tc main_v38)
    _ = W7 m ρ c (Proc.devRef .tc main_v38) := W8_of_ne m ρ c main_v38 (by decide)
    _ = W6 m ρ c (Proc.devRef .tc main_v38) := keep1 (W6 m ρ c) main_v38 (by decide) (by decide)
    _ = W5 m ρ c (Proc.devRef .tc main_v38) := W6_v38 m ρ c

theorem W10_v38 (c : Dev nD) :
    W10 (F := Ideal) m ρ c (Proc.devRef .tc main_v38) = W5 m ρ c (Proc.devRef .tc main_v38) :=
  calc W10 (F := Ideal) m ρ c (Proc.devRef .tc main_v38)
    _ = W9 m ρ c (Proc.devRef .tc main_v38) := W10_of_ne m ρ c main_v38 (by decide)
    _ = W8 m ρ c (Proc.devRef .tc main_v38) := keep2 (W8 m ρ c) main_v38 (by decide) (by decide)
    _ = W5 m ρ c (Proc.devRef .tc main_v38) := W8_v38 m ρ c

theorem W12_v38 (c : Dev nD) :
    W12 (F := Ideal) m ρ c (Proc.devRef .tc main_v38) = W5 m ρ c (Proc.devRef .tc main_v38) :=
  calc W12 (F := Ideal) m ρ c (Proc.devRef .tc main_v38)
    _ = W11 m ρ c (Proc.devRef .tc main_v38) := W12_of_ne m ρ c main_v38 (by decide)
    _ = W10 m ρ c (Proc.devRef .tc main_v38) := keep3 (W10 m ρ c) main_v38 (by decide)
    _ = W5 m ρ c (Proc.devRef .tc main_v38) := W10_v38 m ρ c

theorem W6_v12 (c : Dev nD) :
    W6 (F := Ideal) m ρ c (Proc.devRef .tc main_v12) = W5 m ρ c (Proc.devRef .tc main_v12) :=
  W6_of_ne m ρ c main_v12 (by decide)

theorem W8_v12 (c : Dev nD) :
    W8 (F := Ideal) m ρ c (Proc.devRef .tc main_v12) = W5 m ρ c (Proc.devRef .tc main_v12) :=
  calc W8 (F := Ideal) m ρ c (Proc.devRef .tc main_v12)
    _ = W7 m ρ c (Proc.devRef .tc main_v12) := W8_of_ne m ρ c main_v12 (by decide)
    _ = W6 m ρ c (Proc.devRef .tc main_v12) := keep1 (W6 m ρ c) main_v12 (by decide) (by decide)
    _ = W5 m ρ c (Proc.devRef .tc main_v12) := W6_v12 m ρ c

theorem W10_v12 (c : Dev nD) :
    W10 (F := Ideal) m ρ c (Proc.devRef .tc main_v12) = W5 m ρ c (Proc.devRef .tc main_v12) :=
  calc W10 (F := Ideal) m ρ c (Proc.devRef .tc main_v12)
    _ = W9 m ρ c (Proc.devRef .tc main_v12) := W10_of_ne m ρ c main_v12 (by decide)
    _ = W8 m ρ c (Proc.devRef .tc main_v12) := keep2 (W8 m ρ c) main_v12 (by decide) (by decide)
    _ = W5 m ρ c (Proc.devRef .tc main_v12) := W8_v12 m ρ c

theorem W12_v12 (c : Dev nD) :
    W12 (F := Ideal) m ρ c (Proc.devRef .tc main_v12) = W5 m ρ c (Proc.devRef .tc main_v12) :=
  calc W12 (F := Ideal) m ρ c (Proc.devRef .tc main_v12)
    _ = W11 m ρ c (Proc.devRef .tc main_v12) := W12_of_ne m ρ c main_v12 (by decide)
    _ = W10 m ρ c (Proc.devRef .tc main_v12) := keep3 (W10 m ρ c) main_v12 (by decide)
    _ = W5 m ρ c (Proc.devRef .tc main_v12) := W10_v12 m ρ c

theorem W14_v12 (c : Dev nD) :
    W14 (F := Ideal) m ρ c (Proc.devRef .tc main_v12) = W5 m ρ c (Proc.devRef .tc main_v12) :=
  calc W14 (F := Ideal) m ρ c (Proc.devRef .tc main_v12)
    _ = W13 m ρ c (Proc.devRef .tc main_v12) := W14_of_ne m ρ c main_v12 (by decide)
    _ = W12 m ρ c (Proc.devRef .tc main_v12) := keep4 (W12 m ρ c) main_v12 (by decide) (by decide)
    _ = W5 m ρ c (Proc.devRef .tc main_v12) := W12_v12 m ρ c

/-! ## The six regions, first to last -/

/-- Region 0's inputs at its entry: the transposed weights and the padded, transposed feature table. -/
theorem W5_v41 (c : Dev nD) (f : Fin 64) (k : Fin 128) :
    W5 (F := Ideal) m ρ c (Proc.devRef .tc main_v41) (ix2 f k) = w1A m c k f :=
  (host04_v41 (W4 m ρ c) f k).trans (congrFun (W4_arg3 m ρ c) (ix2 k f))

theorem W5_v40 (c : Dev nD) (k : Fin 128) (j : Fin 100352) :
    W5 (F := Ideal) m ρ c (Proc.devRef .tc main_v40) (ix2 k j) = Cert.Gcn.padT (xA m c) k j := by
  refine (congrFun (keep04 (W4 m ρ c) main_v40 (by decide)) (ix2 k j)).trans ?_
  unfold Cert.Gcn.padT
  by_cases h : j.val < 100000
  · rw [dif_pos h]
    refine (host03_v40_in (W3 m ρ c) k j h).trans ?_
    exact (host02_v39 (W2 m ρ c) k (⟨j.val, h⟩ : Fin 100000)).trans
      (congrFun (W2_arg0 m ρ c) (ix2 (⟨j.val, h⟩ : Fin 100000) k))
  · rw [dif_neg h]
    refine (host03_v40_out (W3 m ρ c) k j h).trans ?_
    exact (congrArg (FloatOps.sitofp (F := Ideal) .f32) (congrFun (host02_c9 (W2 m ρ c)) ix0)).trans sitofp_zero

/-- REGION 0: the first table, the transposed weights times the padded transposed features. -/
theorem table1 (c : Dev nD) (f : Fin 64) (j : Fin 100352) :
    W6 (F := Ideal) m ρ c (Proc.devRef .tc main_v42) (ix2 f j)
      = Cert.Gcn.projT (fun f' k => w1A m c k f') (Cert.Gcn.padT (xA m c)) f j := by
  have hA : (fun (f' : Fin 64) (k : Fin 128) => W5 (F := Ideal) m ρ c (Proc.devRef .tc main_v41) (ix2 f' k))
      = fun f' k => w1A m c k f' := funext fun f' => funext fun k => W5_v41 m ρ c f' k
  have hB : (fun (k : Fin 128) (j' : Fin 100352) => W5 (F := Ideal) m ρ c (Proc.devRef .tc main_v40) (ix2 k j'))
      = Cert.Gcn.padT (xA m c) := funext fun k => funext fun j' => W5_v40 m ρ c k j'
  refine (congrFun (W6_arr m ρ c (2 : Fin cfg0.W)) (ix2 f j)).trans ?_
  refine (Reg0.value (V5 m ρ) c f j).trans ?_
  exact congrFun (congrFun (projT_congr hA hB) f) j

/-- Region 1's inputs at its entry: the first table, the source words and the edge weights as rows. -/
theorem W7_v42 (c : Dev nD) (f : Fin 64) (j : Fin 100352) :
    W7 (F := Ideal) m ρ c (Proc.devRef .tc main_v42) (ix2 f j)
      = Cert.Gcn.projT (fun f' k => w1A m c k f') (Cert.Gcn.padT (xA m c)) f j :=
  (congrFun (keep1 (W6 m ρ c) main_v42 (by decide) (by decide)) (ix2 f j)).trans (table1 m ρ c f j)

theorem W7_v43 (c : Dev nD) (e : Fin 1701888) :
    W7 (F := Ideal) m ρ c (Proc.devRef .tc main_v43) (ix2 (0 : Fin 1) e) = rowA m ρ c e :=
  (host1_v43 (W6 m ρ c) e).trans (congrFun (W6_v10 m ρ c) (ix1 e))

theorem W7_v44 (c : Dev nD) (e : Fin 1701888) :
    W7 (F := Ideal) m ρ c (Proc.devRef .tc main_v44) (ix2 (0 : Fin 1) e) = nrmA m ρ c e :=
  (host1_v44 (W6 m ρ c) e).trans (congrFun (W6_v38 m ρ c) (ix1 e))

/-- REGION 1: the first messages, the table's source columns times the edge weights. -/
theorem messages1 (c : Dev nD) (f : Fin 64) (e : Fin 1701888) :
    W8 (F := Ideal) m ρ c (Proc.devRef .tc main_v45) (ix2 f e)
      = Cert.Gcn.gatherT (Cert.Gcn.projT (fun f' k => w1A m c k f') (Cert.Gcn.padT (xA m c)))
          (rowA m ρ c) (nrmA m ρ c) f e := by
  have h1 : (fun (f' : Fin 64) (j : Fin 100352) => W7 (F := Ideal) m ρ c (Proc.devRef .tc main_v42) (ix2 f' j))
      = Cert.Gcn.projT (fun f' k => w1A m c k f') (Cert.Gcn.padT (xA m c)) :=
    funext fun f' => funext fun j => W7_v42 m ρ c f' j
  have h2 : (fun (e' : Fin 1701888) => W7 (F := Ideal) m ρ c (Proc.devRef .tc main_v43) (ix2 (0 : Fin 1) e'))
      = rowA m ρ c := funext fun e' => W7_v43 m ρ c e'
  have h3 : (fun (e' : Fin 1701888) => W7 (F := Ideal) m ρ c (Proc.devRef .tc main_v44) (ix2 (0 : Fin 1) e'))
      = nrmA m ρ c := funext fun e' => W7_v44 m ρ c e'
  refine (congrFun (W8_arr m ρ c (3 : Fin cfg1.W)) (ix2 f e)).trans ?_
  refine (Reg1.value (V7 m ρ) c f e).trans ?_
  exact congrFun (congrFun (gatherT_congr h1 h2 h3) f) e

/-- Region 2's inputs at its entry: the first messages, the target words and the first bias as columns. -/
theorem W9_v45 (c : Dev nD) (f : Fin 64) (e : Fin 1701888) :
    W9 (F := Ideal) m ρ c (Proc.devRef .tc main_v45) (ix2 f e)
      = Cert.Gcn.gatherT (Cert.Gcn.projT (fun f' k => w1A m c k f') (Cert.Gcn.padT (xA m c)))
          (rowA m ρ c) (nrmA m ρ c) f e :=
  (congrFun (keep2 (W8 m ρ c) main_v45 (by decide) (by decide)) (ix2 f e)).trans (messages1 m ρ c f e)

theorem W9_v46 (c : Dev nD) (e : Fin 1701888) :
    W9 (F := Ideal) m ρ c (Proc.devRef .tc main_v46) (ix2 e (0 : Fin 1)) = colA m ρ c e :=
  (host2_v46 (W8 m ρ c) e).trans (congrFun (W8_v12 m ρ c) (ix1 e))

theorem W9_v47 (c : Dev nD) (f : Fin 64) :
    W9 (F := Ideal) m ρ c (Proc.devRef .tc main_v47) (ix2 f (0 : Fin 1)) = b1A m c f :=
  (host2_v47 (W8 m ρ c) f).trans (congrFun (W8_arg4 m ρ c) (ix1 f))

/-- REGION 2: the first aggregate, rectified: the hidden layer over all 100352 columns. -/
theorem hidden (c : Dev nD) (f : Fin 64) (n : Fin 100352) :
    W10 (F := Ideal) m ρ c (Proc.devRef .tc main_v48) (ix2 f n)
      = Cert.Gcn.kerHidden (xA m c) (w1A m c) (b1A m c) (rowA m ρ c) (colA m ρ c) (nrmA m ρ c) f n := by
  have h1 : (fun (f' : Fin 64) (e : Fin 1701888) => W9 (F := Ideal) m ρ c (Proc.devRef .tc main_v45) (ix2 f' e))
      = Cert.Gcn.gatherT (Cert.Gcn.projT (fun f' k => w1A m c k f') (Cert.Gcn.padT (xA m c)))
          (rowA m ρ c) (nrmA m ρ c) := funext fun f' => funext fun e => W9_v45 m ρ c f' e
  have h2 : (fun (e : Fin 1701888) => W9 (F := Ideal) m ρ c (Proc.devRef .tc main_v46) (ix2 e (0 : Fin 1)))
      = colA m ρ c := funext fun e => W9_v46 m ρ c e
  have h3 : (fun (f' : Fin 64) => W9 (F := Ideal) m ρ c (Proc.devRef .tc main_v47) (ix2 f' (0 : Fin 1)))
      = b1A m c := funext fun f' => W9_v47 m ρ c f'
  unfold Cert.Gcn.kerHidden
  refine (congrFun (W10_arr m ρ c (3 : Fin cfg2.W)) (ix2 f n)).trans ?_
  refine (Reg2.value (V9 m ρ) c f n).trans ?_
  exact congrArg (fun z : EReal => max z 0) (congrFun (congrFun (scatterT_congr h1 h2 h3) f) n)

/-- Region 3's inputs at its entry: the transposed second weights and the hidden layer. -/
theorem W11_v49 (c : Dev nD) (f : Fin 32) (k : Fin 64) :
    W11 (F := Ideal) m ρ c (Proc.devRef .tc main_v49) (ix2 f k) = w2A m c k f :=
  (host3_v49 (W10 m ρ c) f k).trans (congrFun (W10_arg5 m ρ c) (ix2 k f))

theorem W11_v48 (c : Dev nD) (k : Fin 64) (j : Fin 100352) :
    W11 (F := Ideal) m ρ c (Proc.devRef .tc main_v48) (ix2 k j)
      = Cert.Gcn.kerHidden (xA m c) (w1A m c) (b1A m c) (rowA m ρ c) (colA m ρ c) (nrmA m ρ c) k j :=
  (congrFun (keep3 (W10 m ρ c) main_v48 (by decide)) (ix2 k j)).trans (hidden m ρ c k j)

/-- REGION 3: the second table, the transposed second weights times the hidden layer. -/
theorem table2 (c : Dev nD) (f : Fin 32) (j : Fin 100352) :
    W12 (F := Ideal) m ρ c (Proc.devRef .tc main_v50) (ix2 f j)
      = Cert.Gcn.projT (fun f' k => w2A m c k f')
          (Cert.Gcn.kerHidden (xA m c) (w1A m c) (b1A m c) (rowA m ρ c) (colA m ρ c) (nrmA m ρ c)) f j := by
  have hA : (fun (f' : Fin 32) (k : Fin 64) => W11 (F := Ideal) m ρ c (Proc.devRef .tc main_v49) (ix2 f' k))
      = fun f' k => w2A m c k f' := funext fun f' => funext fun k => W11_v49 m ρ c f' k
  have hB : (fun (k : Fin 64) (j' : Fin 100352) => W11 (F := Ideal) m ρ c (Proc.devRef .tc main_v48) (ix2 k j'))
      = Cert.Gcn.kerHidden (xA m c) (w1A m c) (b1A m c) (rowA m ρ c) (colA m ρ c) (nrmA m ρ c) :=
    funext fun k => funext fun j' => W11_v48 m ρ c k j'
  refine (congrFun (W12_arr m ρ c (2 : Fin cfg3.W)) (ix2 f j)).trans ?_
  refine (Reg3.value (V11 m ρ) c f j).trans ?_
  exact congrFun (congrFun (projT_congr hA hB) f) j

/-- Region 4's inputs at its entry: the second table, the source words and the edge weights as rows. -/
theorem W13_v50 (c : Dev nD) (f : Fin 32) (j : Fin 100352) :
    W13 (F := Ideal) m ρ c (Proc.devRef .tc main_v50) (ix2 f j)
      = Cert.Gcn.projT (fun f' k => w2A m c k f')
          (Cert.Gcn.kerHidden (xA m c) (w1A m c) (b1A m c) (rowA m ρ c) (colA m ρ c) (nrmA m ρ c)) f j :=
  (congrFun (keep4 (W12 m ρ c) main_v50 (by decide) (by decide)) (ix2 f j)).trans (table2 m ρ c f j)

theorem W13_v51 (c : Dev nD) (e : Fin 1701888) :
    W13 (F := Ideal) m ρ c (Proc.devRef .tc main_v51) (ix2 (0 : Fin 1) e) = rowA m ρ c e :=
  (host4_v51 (W12 m ρ c) e).trans (congrFun (W12_v10 m ρ c) (ix1 e))

theorem W13_v52 (c : Dev nD) (e : Fin 1701888) :
    W13 (F := Ideal) m ρ c (Proc.devRef .tc main_v52) (ix2 (0 : Fin 1) e) = nrmA m ρ c e :=
  (host4_v52 (W12 m ρ c) e).trans (congrFun (W12_v38 m ρ c) (ix1 e))

/-- REGION 4: the second messages. -/
theorem messages2 (c : Dev nD) (f : Fin 32) (e : Fin 1701888) :
    W14 (F := Ideal) m ρ c (Proc.devRef .tc main_v53) (ix2 f e)
      = Cert.Gcn.gatherT (Cert.Gcn.projT (fun f' k => w2A m c k f')
          (Cert.Gcn.kerHidden (xA m c) (w1A m c) (b1A m c) (rowA m ρ c) (colA m ρ c) (nrmA m ρ c)))
          (rowA m ρ c) (nrmA m ρ c) f e := by
  have h1 : (fun (f' : Fin 32) (j : Fin 100352) => W13 (F := Ideal) m ρ c (Proc.devRef .tc main_v50) (ix2 f' j))
      = Cert.Gcn.projT (fun f' k => w2A m c k f')
          (Cert.Gcn.kerHidden (xA m c) (w1A m c) (b1A m c) (rowA m ρ c) (colA m ρ c) (nrmA m ρ c)) :=
    funext fun f' => funext fun j => W13_v50 m ρ c f' j
  have h2 : (fun (e' : Fin 1701888) => W13 (F := Ideal) m ρ c (Proc.devRef .tc main_v51) (ix2 (0 : Fin 1) e'))
      = rowA m ρ c := funext fun e' => W13_v51 m ρ c e'
  have h3 : (fun (e' : Fin 1701888) => W13 (F := Ideal) m ρ c (Proc.devRef .tc main_v52) (ix2 (0 : Fin 1) e'))
      = nrmA m ρ c := funext fun e' => W13_v52 m ρ c e'
  refine (congrFun (W14_arr m ρ c (3 : Fin cfg4.W)) (ix2 f e)).trans ?_
  refine (Reg4.value (V13 m ρ) c f e).trans ?_
  exact congrFun (congrFun (gatherT_congr h1 h2 h3) f) e

/-- Region 5's inputs at its entry: the second messages, the target words and the second bias as columns. -/
theorem W15_v53 (c : Dev nD) (f : Fin 32) (e : Fin 1701888) :
    W15 (F := Ideal) m ρ c (Proc.devRef .tc main_v53) (ix2 f e)
      = Cert.Gcn.gatherT (Cert.Gcn.projT (fun f' k => w2A m c k f')
          (Cert.Gcn.kerHidden (xA m c) (w1A m c) (b1A m c) (rowA m ρ c) (colA m ρ c) (nrmA m ρ c)))
          (rowA m ρ c) (nrmA m ρ c) f e :=
  (congrFun (keep5 (W14 m ρ c) main_v53 (by decide) (by decide)) (ix2 f e)).trans (messages2 m ρ c f e)

theorem W15_v54 (c : Dev nD) (e : Fin 1701888) :
    W15 (F := Ideal) m ρ c (Proc.devRef .tc main_v54) (ix2 e (0 : Fin 1)) = colA m ρ c e :=
  (host5_v54 (W14 m ρ c) e).trans (congrFun (W14_v12 m ρ c) (ix1 e))

theorem W15_v55 (c : Dev nD) (f : Fin 32) :
    W15 (F := Ideal) m ρ c (Proc.devRef .tc main_v55) (ix2 f (0 : Fin 1)) = b2A m c f :=
  (host5_v55 (W14 m ρ c) f).trans (congrFun (W14_arg6 m ρ c) (ix1 f))

/-- REGION 5: the second aggregate over all 100352 columns. -/
theorem aggregate2 (c : Dev nD) (f : Fin 32) (n : Fin 100352) :
    W16 (F := Ideal) m ρ c (Proc.devRef .tc main_v56) (ix2 f n)
      = Cert.Gcn.scatterT (Cert.Gcn.gatherT (Cert.Gcn.projT (fun f' k => w2A m c k f')
          (Cert.Gcn.kerHidden (xA m c) (w1A m c) (b1A m c) (rowA m ρ c) (colA m ρ c) (nrmA m ρ c)))
          (rowA m ρ c) (nrmA m ρ c)) (colA m ρ c) (b2A m c) f n := by
  have h1 : (fun (f' : Fin 32) (e : Fin 1701888) => W15 (F := Ideal) m ρ c (Proc.devRef .tc main_v53) (ix2 f' e))
      = Cert.Gcn.gatherT (Cert.Gcn.projT (fun f' k => w2A m c k f')
          (Cert.Gcn.kerHidden (xA m c) (w1A m c) (b1A m c) (rowA m ρ c) (colA m ρ c) (nrmA m ρ c)))
          (rowA m ρ c) (nrmA m ρ c) := funext fun f' => funext fun e => W15_v53 m ρ c f' e
  have h2 : (fun (e : Fin 1701888) => W15 (F := Ideal) m ρ c (Proc.devRef .tc main_v54) (ix2 e (0 : Fin 1)))
      = colA m ρ c := funext fun e => W15_v54 m ρ c e
  have h3 : (fun (f' : Fin 32) => W15 (F := Ideal) m ρ c (Proc.devRef .tc main_v55) (ix2 f' (0 : Fin 1)))
      = b2A m c := funext fun f' => W15_v55 m ρ c f'
  refine (congrFun (W16_arr m ρ c (3 : Fin cfg5.W)) (ix2 f n)).trans ?_
  refine (Reg5.value (V15 m ρ) c f n).trans ?_
  exact congrFun (congrFun (scatterT_congr h1 h2 h3) f) n

/-- The program's result at (n, f): the second aggregate at (f, n), n among the first 100000 columns. -/
theorem result (c : Dev nD) (n : Fin 100000) (f : Fin 32) :
    W17 (F := Ideal) m ρ c (Proc.devRef .tc main_v58) (ix2 n f)
      = Cert.Gcn.kerOut (xA m c) (w1A m c) (b1A m c) (w2A m c) (b2A m c) (rowA m ρ c) (colA m ρ c) (nrmA m ρ c) n f := by
  unfold Cert.Gcn.kerOut
  exact (host6_v58 (W16 m ρ c) n f).trans (aggregate2 m ρ c f _)

/-- THE RESULT AT (n, f): the feature-major two-layer formula of the argument arrays and of the three vectors the host
    prelude leaves (padded source words main_v10, padded target words main_v12, padded edge weights main_v38). -/
theorem kernel_value (c : Dev nD) (n : Fin 100000) (f : Fin 32) :
    W17 (F := Ideal) m ρ c (Proc.devRef .tc main_v58) (ix2 n f)
      = Cert.Gcn.kerOut
          (fun n' k => m ((c : Thread nD τ).loc main_arg0) (ix2 n' k))
          (fun k f' => m ((c : Thread nD τ).loc main_arg3) (ix2 k f'))
          (fun f' => m ((c : Thread nD τ).loc main_arg4) (ix1 f'))
          (fun k f' => m ((c : Thread nD τ).loc main_arg5) (ix2 k f'))
          (fun f' => m ((c : Thread nD τ).loc main_arg6) (ix1 f'))
          (fun e => W5 (F := Ideal) m ρ c (Proc.devRef .tc main_v10) (ix1 e))
          (fun e => W5 (F := Ideal) m ρ c (Proc.devRef .tc main_v12) (ix1 e))
          (fun e => W5 (F := Ideal) m ρ c (Proc.devRef .tc main_v38) (ix1 e)) n f :=
  result m ρ c n f

end Cert.KernelIdeal.Chain

end
-- ==== Proof.Edges.lean ====
/-
  The edge list with the self loops appended, as index formulas.

  edge_index is a table of words [2, 1600000]: row 0 the sources, row 1 the targets. Appending one self loop per node
  gives 1700000 edges: edge e < 1600000 has the table's words, edge 1600000 + v has the word v at both ends, and
  weight 1. When every word of the table is below 100000, so is every word of the extended lists, and sources and
  targets are nodes: functions into Fin 100000.
-/
import Idealize.ShloMosaic.PureOps.Ideal
import Idealize.ShloMosaic.Lib.ValueIdx

noncomputable section

namespace Cert.Gcn

open Idealize.ShloMosaic Idealize.ShloMosaic.ValueIdx

/-- The word of edge e on row r of the table (r = 0 the source, r = 1 the target), the self loops appended. -/
def endW (r : Fin 2) (a1 : (⟨2, ![2, 1600000]⟩ : Shape).Idx → BitVec 32) (e : Fin 1700000) : BitVec 32 :=
  if h : e.val < 1600000 then a1 (ix2 r (⟨e.val, h⟩ : Fin 1600000)) else BitVec.ofNat 32 (e.val - 1600000)

/-- The source words. -/
abbrev rowW := endW 0
/-- The target words. -/
abbrev colW := endW 1

/-- The weight of edge e: the given weight, and 1 on a self loop. -/
def wAll (a2 : (⟨1, ![1600000]⟩ : Shape).Idx → EReal) (e : Fin 1700000) : EReal :=
  if h : e.val < 1600000 then a2 (ix1 (⟨e.val, h⟩ : Fin 1600000)) else 1

variable (a1 : (⟨2, ![2, 1600000]⟩ : Shape).Idx → BitVec 32)

/-- With the table's words below 100000, every end word of the extended list is below 100000. -/
theorem endW_lt (hr : ∀ i, (a1 i).toNat < 100000) (r : Fin 2) (e : Fin 1700000) : (endW r a1 e).toNat < 100000 := by
  unfold endW
  split_ifs with h
  · exact hr _
  · have he := e.isLt
    rw [BitVec.toNat_ofNat, Nat.mod_eq_of_lt (by omega)]
    omega

/-- The end of edge e on row r, as a node. -/
def endN (hr : ∀ i, (a1 i).toNat < 100000) (r : Fin 2) (e : Fin 1700000) : Fin 100000 :=
  ⟨(endW r a1 e).toNat, endW_lt a1 hr r e⟩

/-- The word of an end is the 32-bit word of its node number. -/
theorem endW_eq_ofNat (hr : ∀ i, (a1 i).toNat < 100000) (r : Fin 2) (e : Fin 1700000) :
    endW r a1 e = BitVec.ofNat 32 (endN a1 hr r e).val := by
  show endW r a1 e = BitVec.ofNat 32 (endW r a1 e).toNat
  rw [BitVec.ofNat_toNat, BitVec.setWidth_eq]

/-! ## The symmetric normalisation -/

open scoped BigOperators

/-- The wrap a host gather's index word goes through first: w + 100000 where w is negative as a signed word. -/
def wrapW (w : BitVec 32) : BitVec 32 := Scalar.select (IntOp.cmpi .slt w 0#32) (IntOp.addi w 100000#32) w

/-- The entry of a 100000-vector a host gather reads at the index word w: the wrapped word read signed and clamped
    into [0, 99999]. -/
def nodeOf (w : BitVec 32) : Fin 100000 := ⟨min (wrapW w).toInt.toNat 99999, by omega⟩

variable (a2 : (⟨1, ![1600000]⟩ : Shape).Idx → EReal)

/-- The degree of node n: the weights of the edges whose target word reads n, summed onto zero. -/
def degOf (n : Fin 100000) : EReal :=
  0 + ∑ e : Fin 1700000, if (colW a1 e).toInt = (n.val : ℤ) then wAll a2 e else 0

/-- where(d > 0, rsqrt d, 0) at one entry, in the operations' own words at the ideal values. -/
def dinvOf (d : EReal) : EReal :=
  Scalar.select (FloatOps.cmpf (F := Ideal) (φ := .f32) .ogt d (FloatOps.ofBits (F := Ideal) .f32 0x00000000#32))
    (FloatOps.hostUnary (F := Ideal) (φ := .f32) .rsqrt d) (FloatOps.ofBits (F := Ideal) .f32 0x00000000#32)

/-- The weight of edge e after normalisation: dinv[source] · w · dinv[target], the two reads through the host gather. -/
def nrmOf (e : Fin 1700000) : EReal :=
  dinvOf (degOf a1 a2 (nodeOf (rowW a1 e))) * wAll a2 e * dinvOf (degOf a1 a2 (nodeOf (colW a1 e)))

end Cert.Gcn

end
-- ==== Proof.LibScatterRows.lean ====
/-
  ROW SCATTER-ADD READ AT AN ENTRY.

  A segment sum over the leading axis is the accumulating scatter whose dimension numbers are
  update window axes [1] (or none, for a vector), inserted window axes [0], scatter-dims-to-operand-dims
  [0] and index vector axis 1, over an operand [C, A] (or [C]), scatter indices [N, 1] and updates [N, A]
  (or [N]). Update row n carries ONE start index, the word idx[n, 0] read as a signed integer; it is the
  start on operand axis 0, where the window coordinate is 0 because that axis is inserted. On operand axis 1
  the start is 0 (the map does not name the axis) and the window coordinate is the update's own column. So
  update element (n, a') lands at operand element (idx[n, 0], a') when 0 ≤ idx[n, 0] < C and is dropped
  otherwise; the column is always in range, being below A on both sides.

  Hence the result at (c, a) is the operand there plus the sum, over the rows n whose index word reads
  exactly c, of upd[n, a]:

      scatter(x, idx, upd)[c, a] = x[c, a] + ∑ n, if idx[n, 0] = c then upd[n, a] else 0 .

  An index word that is negative or at least C matches no c below C, so the dropped updates need no
  separate clause. The statements hold at every extent C, N, A and every index width w, for any record of
  dimension numbers whose four lists are the ones above. The rank-1 form (operand [C], updates [N]) is the
  same with the column removed.
-/
import Idealize.ShloMosaic.Lib.ValueIdx
import Idealize.ShloMosaic.PureOps.Ideal

noncomputable section

open scoped BigOperators

namespace Idealize.ShloMosaic.ScatterRows

open Idealize.ShloMosaic Idealize.ShloMosaic.ValueIdx

/-! ## Operand [C, A], scatter indices [N, 1], updates [N, A] -/

section Rows2
variable {C N A w : ℕ}

/-- The row scatter's dimension numbers as a record of literal lists: update window axes [1], inserted
    window axes [0], scatter-dims-to-operand-dims [0], index vector axis 1. -/
abbrev rows2 (wf : ScatterDims.WF ⟨2, ![C, A]⟩ ⟨2, ![N, 1]⟩ ⟨2, ![N, A]⟩ [1] [0] [0] 1) :
    ScatterDims ⟨2, ![C, A]⟩ ⟨2, ![N, 1]⟩ ⟨2, ![N, A]⟩ := ⟨[1], [0], [0], 1, wf⟩

/-- On operand axis 0 the window of update (n, a') starts at the index word idx[n, 0], read signed. -/
theorem rows2_start0 (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) :
    (rows2 wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- On operand axis 1, which the map does not name, the window starts at 0. -/
theorem rows2_start1 (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) :
    (rows2 wf).start j idx 1 = 0 := by
  unfold ScatterDims.start
  rw [dif_neg (show ¬ ((1 : Fin 2) ∈ ([0] : List (Fin 2))) by decide)]

/-- Operand axis 0 is inserted: the window coordinate there is 0. -/
theorem rows2_window0 (wf : ScatterDims.WF ⟨2, ![C, A]⟩ ⟨2, ![N, 1]⟩ ⟨2, ![N, A]⟩ [1] [0] [0] 1)
    (j : (⟨2, ![N, A]⟩ : Shape).Idx) :
    (rows2 wf).window j 0 = 0 := by
  unfold ScatterDims.window
  have h : ¬ ((0 : Fin 2) ∈ (rows2 wf).sKept) := by
    show ¬ ((0 : Fin 2) ∈ ([1] : List (Fin 2)))
    decide
  rw [dif_neg h]

/-- Operand axis 1 is the one kept axis: the window coordinate there is the update's column. -/
theorem rows2_window1 (wf : ScatterDims.WF ⟨2, ![C, A]⟩ ⟨2, ![N, 1]⟩ ⟨2, ![N, A]⟩ [1] [0] [0] 1)
    (j : (⟨2, ![N, A]⟩ : Shape).Idx) :
    (rows2 wf).window j 1 = (j 1).val := by
  unfold ScatterDims.window
  have h : (1 : Fin 2) ∈ (rows2 wf).sKept := by
    show (1 : Fin 2) ∈ ([1] : List (Fin 2))
    decide
  rw [dif_pos h]
  rfl

/-- WHERE AN UPDATE LANDS: update (n, a') lands at operand element (c, a) exactly when its row's index word
    reads c and its column is a. (An index word outside [0, C) lands nowhere, and equals no c below C.) -/
theorem rows2_resultIdx?_eq_some (wf : ScatterDims.WF ⟨2, ![C, A]⟩ ⟨2, ![N, 1]⟩ ⟨2, ![N, A]⟩ [1] [0] [0] 1)
    (j : (⟨2, ![N, A]⟩ : Shape).Idx) (idx : IVec ⟨2, ![N, 1]⟩ w) (c : Fin C) (a : Fin A) :
    (rows2 wf).resultIdx? j idx = some (ix2 c a) ↔
      (idx (ix2 (j 0) (0 : Fin 1))).toInt = (c.val : ℤ) ∧ j 1 = a := by
  have e0 : (rows2 wf).start j idx 0 + ((rows2 wf).window j 0 : ℕ) = (idx (ix2 (j 0) (0 : Fin 1))).toInt := by
    rw [rows2_start0, rows2_window0]; simp
  have e1 : (rows2 wf).start j idx 1 + ((rows2 wf).window j 1 : ℕ) = ((j 1).val : ℤ) := by
    rw [rows2_start1, rows2_window1]; simp
  unfold ScatterDims.resultIdx?
  split_ifs with h
  · rw [Option.some.injEq]
    constructor
    · intro hf
      have h0 : ((rows2 wf).start j idx 0 + ((rows2 wf).window j 0 : ℕ)).toNat = c.val :=
        congrArg Fin.val (congrFun hf 0)
      have h1 : ((rows2 wf).start j idx 1 + ((rows2 wf).window j 1 : ℕ)).toNat = a.val :=
        congrArg Fin.val (congrFun hf 1)
      have hp := (h 0).1
      rw [e0] at h0 hp
      rw [e1] at h1
      refine ⟨by omega, Fin.ext (by omega)⟩
    · rintro ⟨hc, ha⟩
      funext b
      refine Fin.ext ?_
      match b with
      | ⟨0, _⟩ =>
        show ((rows2 wf).start j idx 0 + ((rows2 wf).window j 0 : ℕ)).toNat = c.val
        rw [e0, hc]; simp
      | ⟨1, _⟩ =>
        show ((rows2 wf).start j idx 1 + ((rows2 wf).window j 1 : ℕ)).toNat = a.val
        rw [e1, ha]; simp
  · constructor
    · intro hf; cases hf
    · rintro ⟨hc, ha⟩
      refine absurd ?_ h
      intro b
      match b with
      | ⟨0, _⟩ =>
        show 0 ≤ (rows2 wf).start j idx 0 + ((rows2 wf).window j 0 : ℕ) ∧
          (rows2 wf).start j idx 0 + ((rows2 wf).window j 0 : ℕ) < ((C : ℕ) : ℤ)
        rw [e0, hc]
        have := c.isLt
        omega
      | ⟨1, _⟩ =>
        show 0 ≤ (rows2 wf).start j idx 1 + ((rows2 wf).window j 1 : ℕ) ∧
          (rows2 wf).start j idx 1 + ((rows2 wf).window j 1 : ℕ) < ((A : ℕ) : ℤ)
        rw [e1, ha]
        have := a.isLt
        omega

/-- The same, for an update index given by its coordinates. -/
theorem rows2_resultIdx?_ix2 (wf : ScatterDims.WF ⟨2, ![C, A]⟩ ⟨2, ![N, 1]⟩ ⟨2, ![N, A]⟩ [1] [0] [0] 1)
    (n : Fin N) (b : Fin A) (idx : IVec ⟨2, ![N, 1]⟩ w) (c : Fin C) (a : Fin A) :
    (rows2 wf).resultIdx? (ix2 n b) idx = some (ix2 c a) ↔
      (idx (ix2 n (0 : Fin 1))).toInt = (c.val : ℤ) ∧ b = a :=
  rows2_resultIdx?_eq_some wf (ix2 n b) idx c a

/-- The row scatter-add of the literal record, read at (c, a). -/
theorem rows2_apply (wf : ScatterDims.WF ⟨2, ![C, A]⟩ ⟨2, ![N, 1]⟩ ⟨2, ![N, A]⟩ [1] [0] [0] 1)
    (x : (⟨2, ![C, A]⟩ : Shape).Idx → EReal) (idx : IVec ⟨2, ![N, 1]⟩ w)
    (upd : (⟨2, ![N, A]⟩ : Shape).Idx → EReal) (c : Fin C) (a : Fin A) :
    Ideal.hostScatterAdd (rows2 wf) x idx upd (ix2 c a) =
      x (ix2 c a) + ∑ n : Fin N, if (idx (ix2 n (0 : Fin 1))).toInt = (c.val : ℤ) then upd (ix2 n a) else 0 := by
  unfold Ideal.hostScatterAdd
  congr 1
  rw [Finset.sum_filter, sum_idx2]
  refine Finset.sum_congr rfl fun n _ => ?_
  simp only [rows2_resultIdx?_ix2]
  by_cases hc : (idx (ix2 n (0 : Fin 1))).toInt = (c.val : ℤ)
  · simp [hc]
  · simp [hc]

end Rows2

/-- ROW SCATTER-ADD AT AN ENTRY, operand [C, A]: for any dimension-number record with update window axes
    [1], inserted window axes [0], scatter-dims-to-operand-dims [0] and index vector axis 1, the result at
    (c, a) is the operand there plus the sum of upd[n, a] over the rows n whose index word idx[n, 0], read
    signed, is c. Rows whose index word is negative or at least C contribute nothing. -/
theorem scatterRows2_apply {C N A w : ℕ} (d : ScatterDims ⟨2, ![C, A]⟩ ⟨2, ![N, 1]⟩ ⟨2, ![N, A]⟩)
    (hu : d.updateWindowDims = [1]) (hi : d.insertedWindowDims = [0]) (hs : d.scatterDimsToOperandDims = [0])
    (hv : d.indexVectorDim = 1)
    (x : (⟨2, ![C, A]⟩ : Shape).Idx → EReal) (idx : IVec ⟨2, ![N, 1]⟩ w)
    (upd : (⟨2, ![N, A]⟩ : Shape).Idx → EReal) (c : Fin C) (a : Fin A) :
    Ideal.hostScatterAdd d x idx upd (ix2 c a) =
      x (ix2 c a) + ∑ n : Fin N, if (idx (ix2 n (0 : Fin 1))).toInt = (c.val : ℤ) then upd (ix2 n a) else 0 := by
  obtain ⟨uw, iw, sd, iv, wf⟩ := d
  dsimp only at hu hi hs hv
  subst hu hi hs hv
  exact rows2_apply wf x idx upd c a

/-! ## Operand [C], scatter indices [N, 1], updates [N] -/

section Rows1
variable {C N w : ℕ}

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The vector scatter's dimension numbers as a record of literal lists: no update window axes, inserted
    window axes [0], scatter-dims-to-operand-dims [0], index vector axis 1. -/
abbrev rows1 (wf : ScatterDims.WF ⟨1, ![C]⟩ ⟨2, ![N, 1]⟩ ⟨1, ![N]⟩ [] [0] [0] 1) :
    ScatterDims ⟨1, ![C]⟩ ⟨2, ![N, 1]⟩ ⟨1, ![N]⟩ := ⟨[], [0], [0], 1, wf⟩

/-- On the operand's one axis the window of update n starts at the index word idx[n, 0], read signed. -/
theorem rows1_start0 (wf : ScatterDims.WF ⟨1, ![C]⟩ ⟨2, ![N, 1]⟩ ⟨1, ![N]⟩ [] [0] [0] 1)
    (j : (⟨1, ![N]⟩ : Shape).Idx) (idx : IVec ⟨2, ![N, 1]⟩ w) :
    (rows1 wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- The operand's one axis is inserted: the window coordinate there is 0. -/
theorem rows1_window0 (wf : ScatterDims.WF ⟨1, ![C]⟩ ⟨2, ![N, 1]⟩ ⟨1, ![N]⟩ [] [0] [0] 1)
    (j : (⟨1, ![N]⟩ : Shape).Idx) :
    (rows1 wf).window j 0 = 0 := by
  unfold ScatterDims.window
  have h : ¬ ((0 : Fin 1) ∈ (rows1 wf).sKept) := by
    show ¬ ((0 : Fin 1) ∈ ([] : List (Fin 1)))
    decide
  rw [dif_neg h]

/-- WHERE AN UPDATE LANDS: update n lands at operand element c exactly when its index word reads c. -/
theorem rows1_resultIdx?_eq_some (wf : ScatterDims.WF ⟨1, ![C]⟩ ⟨2, ![N, 1]⟩ ⟨1, ![N]⟩ [] [0] [0] 1)
    (j : (⟨1, ![N]⟩ : Shape).Idx) (idx : IVec ⟨2, ![N, 1]⟩ w) (c : Fin C) :
    (rows1 wf).resultIdx? j idx = some (ix1 c) ↔ (idx (ix2 (j 0) (0 : Fin 1))).toInt = (c.val : ℤ) := by
  have e0 : (rows1 wf).start j idx 0 + ((rows1 wf).window j 0 : ℕ) = (idx (ix2 (j 0) (0 : Fin 1))).toInt := by
    rw [rows1_start0, rows1_window0]; simp
  unfold ScatterDims.resultIdx?
  split_ifs with h
  · rw [Option.some.injEq]
    constructor
    · intro hf
      have h0 : ((rows1 wf).start j idx 0 + ((rows1 wf).window j 0 : ℕ)).toNat = c.val :=
        congrArg Fin.val (congrFun hf 0)
      have hp := (h 0).1
      rw [e0] at h0 hp
      omega
    · intro hc
      funext b
      refine Fin.ext ?_
      match b with
      | ⟨0, _⟩ =>
        show ((rows1 wf).start j idx 0 + ((rows1 wf).window j 0 : ℕ)).toNat = c.val
        rw [e0, hc]; simp
  · constructor
    · intro hf; cases hf
    · intro hc
      refine absurd ?_ h
      intro b
      match b with
      | ⟨0, _⟩ =>
        show 0 ≤ (rows1 wf).start j idx 0 + ((rows1 wf).window j 0 : ℕ) ∧
          (rows1 wf).start j idx 0 + ((rows1 wf).window j 0 : ℕ) < ((C : ℕ) : ℤ)
        rw [e0, hc]
        have := c.isLt
        omega

/-- The same, for an update index given by its coordinate. -/
theorem rows1_resultIdx?_ix1 (wf : ScatterDims.WF ⟨1, ![C]⟩ ⟨2, ![N, 1]⟩ ⟨1, ![N]⟩ [] [0] [0] 1)
    (n : Fin N) (idx : IVec ⟨2, ![N, 1]⟩ w) (c : Fin C) :
    (rows1 wf).resultIdx? (ix1 n) idx = some (ix1 c) ↔ (idx (ix2 n (0 : Fin 1))).toInt = (c.val : ℤ) :=
  rows1_resultIdx?_eq_some wf (ix1 n) idx c

/-- The vector scatter-add of the literal record, read at c. -/
theorem rows1_apply (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w)
    (upd : (⟨1, ![N]⟩ : Shape).Idx → EReal) (c : Fin C) :
    Ideal.hostScatterAdd (rows1 wf) x idx upd (ix1 c) =
      x (ix1 c) + ∑ n : Fin N, if (idx (ix2 n (0 : Fin 1))).toInt = (c.val : ℤ) then upd (ix1 n) else 0 := by
  unfold Ideal.hostScatterAdd
  congr 1
  rw [Finset.sum_filter, sum_idx1]
  refine Finset.sum_congr rfl fun n _ => ?_
  simp only [rows1_resultIdx?_ix1]

end Rows1

/-- ROW SCATTER-ADD AT AN ENTRY, operand [C]: for any dimension-number record with no update window axes,
    inserted window axes [0], scatter-dims-to-operand-dims [0] and index vector axis 1, the result at c is the
    operand there plus the sum of upd[n] over the positions n whose index word idx[n, 0], read signed, is c.
    Positions whose index word is negative or at least C contribute nothing. -/
theorem scatterRows1_apply {C N w : ℕ} (d : ScatterDims ⟨1, ![C]⟩ ⟨2, ![N, 1]⟩ ⟨1, ![N]⟩)
    (hu : d.updateWindowDims = []) (hi : d.insertedWindowDims = [0]) (hs : d.scatterDimsToOperandDims = [0])
    (hv : d.indexVectorDim = 1)
    (x : (⟨1, ![C]⟩ : Shape).Idx → EReal) (idx : IVec ⟨2, ![N, 1]⟩ w)
    (upd : (⟨1, ![N]⟩ : Shape).Idx → EReal) (c : Fin C) :
    Ideal.hostScatterAdd d x idx upd (ix1 c) =
      x (ix1 c) + ∑ n : Fin N, if (idx (ix2 n (0 : Fin 1))).toInt = (c.val : ℤ) then upd (ix1 n) else 0 := by
  obtain ⟨uw, iw, sd, iv, wf⟩ := d
  dsimp only at hu hi hs hv
  subst hu hi hs hv
  exact rows1_apply wf x idx upd c

end Idealize.ShloMosaic.ScatterRows

end
-- ==== Proof.KerPrelude.lean ====
/-
  THE KERNEL PROGRAM'S HOST PRELUDE, read at an entry.

  Before its first region the kernel program appends the self loops to the edge list, pads the three lists with 1888
  entries (source word 0, target word 0, weight 0) to 1701888 edges, computes the degrees by a scatter-add of the
  padded weights onto the padded targets, their inverse roots (zero where the degree is not positive), and the
  normalised weight dinv[source] · w · dinv[target] of every padded edge. A padded edge adds 0 to node 0's degree and
  has normalised weight (…) · 0 · (…) = 0; on the first 1700000 edges everything is the unpadded computation.

  The file goes in four steps. First the shape operations the prelude uses, each read at one entry, over arbitrary
  operands: a concatenation of two vectors, a row of a two-row table, a splat scalar, a vector turned into a column,
  a gather of a vector at a column of index words, a sum whose tail vanishes. Then each stretch of host operations as
  equations between the buffers it leaves, over arbitrary contents at its start. Then those equations read at an
  entry. Last the three statements, at the launch contents.
-/
import proofs.«429796_j5497558139162_1_alg».proof.Proof.FrameKI
import proofs.«429796_j5497558139162_1_alg».proof.Proof.Edges
import proofs.«429796_j5497558139162_1_alg».proof.Proof.LibScatterRows
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Mathlib.Algebra.BigOperators.Fin

set_option maxRecDepth 16384

noncomputable section

open Idealize.ShloMosaic Idealize.ShloMosaic.TcCoe Idealize.SL.Sem
open Idealize.ShloMosaic.ValueIdx
open scoped BigOperators

namespace Cert.KernelIdeal.Prelude

open Cert.KernelIdeal Cert.KernelIdeal.Gen Cert.KernelIdeal.GenP

/-! ## The shape operations of the prelude, read at one entry -/

section Shapes
variable {α : Type}

/-- Two vectors laid end to end: below the first extent the first vector's entry, from there on the second's. -/
theorem cat1_apply {n₁ n₂ n : ℕ} (hn : n = n₁ + n₂) (x₁ : (⟨1, ![n₁]⟩ : Shape).Idx → α) (x₂ : (⟨1, ![n₂]⟩ : Shape).Idx → α)
    (h : Shape.Concatenates [(⟨1, ![n₁]⟩ : Shape), ⟨1, ![n₂]⟩] ⟨1, ![n]⟩ 0) (e : Fin n) :
    concatenate ⟨1, ![n]⟩ 0 [⟨⟨1, ![n₁]⟩, x₁⟩, ⟨⟨1, ![n₂]⟩, x₂⟩] h (ix1 e)
      = if h1 : e.val < n₁ then x₁ (ix1 ⟨e.val, h1⟩) else x₂ (ix1 ⟨e.val - n₁, by have := e.isLt; omega⟩) := by
  by_cases h1 : e.val < n₁
  · rw [dif_pos h1]
    exact concatenate_pair_apply_left (t := ⟨1, ![n]⟩) (s₁ := ⟨1, ![n₁]⟩) (s₂ := ⟨1, ![n₂]⟩) 0 x₁ x₂ h (ix1 e) rfl (ix1 ⟨e.val, h1⟩) (fun b => by
      match b with
      | ⟨0, _⟩ => rfl)
  · rw [dif_neg h1]
    exact concatenate_pair_apply_right (t := ⟨1, ![n]⟩) (s₁ := ⟨1, ![n₁]⟩) (s₂ := ⟨1, ![n₂]⟩) 0 x₁ x₂ h (ix1 e) rfl rfl (ix1 ⟨e.val - n₁, by have := e.isLt; omega⟩)
      (fun b hb => by
        match b with
        | ⟨0, _⟩ => exact absurd rfl hb)
      (by
        show (e.val - n₁) + n₁ = e.val
        omega)

/-- Row r of a two-row table, cut out as a one-row table and flattened to a vector, reads the table's row r. -/
theorem row_apply {n : ℕ} (o : ℕ) (a1 : (⟨2, ![2, n]⟩ : Shape).Idx → α)
    (hs : (⟨2, ![2, n]⟩ : Shape).Slices ![o, 0] ⟨2, ![1, n]⟩) (hc : (⟨2, ![1, n]⟩ : Shape).ShapeCasts ⟨1, ![n]⟩)
    (e : Fin n) (r : Fin 2) (hr : r.val = o) :
    shapeCast ⟨1, ![n]⟩ (extractStridedSlice ⟨2, ![1, n]⟩ ![o, 0] a1 hs) hc (ix1 e) = a1 (ix2 r e) :=
  (shapeCast_1a_a_apply _ hc e).trans (slice2_axis0_apply o a1 hs (0 : Fin 1) e r (by simp [hr]))

/-- A scalar splat to any shape reads the scalar everywhere. -/
theorem splat_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A vector of more than one entry turned into a one-column table reads, in row e, the vector's entry e. -/
theorem col_apply {n : ℕ} (hn : n ≠ 1) (h : (⟨1, ![n]⟩ : Shape).BroadcastsInDim ⟨2, ![n, 1]⟩ ![0])
    (x : (⟨1, ![n]⟩ : Shape).Idx → α) (e : Fin n) (u : Fin 1) :
    broadcastInDim ⟨2, ![n, 1]⟩ ![0] h x (ix2 e u) = x (ix1 e) :=
  broadcastInDim_apply _ h x _ _ (fun a => by
    match a with
    | ⟨0, _⟩ =>
      show e.val = if n = 1 then 0 else e.val
      rw [if_neg hn])

/-- The dimension numbers of a gather of single entries of a vector [N] at a column [R, 1] of index words, as a
    record of literal lists: no offset axes, the operand's axis collapsed and named by the start index map, the
    index vector along axis 1, slices of one entry. -/
abbrev pickDims (N R : ℕ) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- That gather read at e: the operand at the index word of row e, read signed and clamped into [0, N − 1]. -/
theorem pickDims_apply {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (pickDims N R wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (pickDims N R wf).start (ix1 e) idx 0 + (pickDims N R wf).batchCoord (ix1 e) 0
    + (pickDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pickDims N R wf).startIndexMap from List.mem_singleton.mpr rfl)]
  have hsi : (pickDims N R wf).siIdx (ix1 e) ⟨List.idxOf (0 : Fin 1) (pickDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The same for any record of dimension numbers whose lists are those. -/
theorem pick_apply {N R w : ℕ} (hN : 0 < N) (d : GatherDims ⟨1, ![N]⟩ ⟨2, ![R, 1]⟩ ⟨1, ![R]⟩)
    (ho : d.offsetDims = []) (hc : d.collapsedSliceDims = [0]) (hb : d.operandBatchingDims = [])
    (hsb : d.startIndicesBatchingDims = []) (hm : d.startIndexMap = [0]) (hv : d.indexVectorDim = 1)
    (hs : d.sliceSizes = ![1])
    (x : (⟨1, ![N]⟩ : Shape).Idx → α) (idx : IVec ⟨2, ![R, 1]⟩ w) (e : Fin R) :
    Host.gather d x idx (ix1 e) = x (ix1 ⟨min (idx (ix2 e (0 : Fin 1))).toInt.toNat (N - 1), by omega⟩) := by
  obtain ⟨od, cd, ob, sb, sm, iv, ss, wf⟩ := d
  dsimp only at ho hc hb hsb hm hv hs
  subst ho hc hb hsb hm hv hs
  exact pickDims_apply hN wf x idx e

/-- At the ideal values the host's accumulating scatter is the exact one: every entry plus the updates that land on it. -/
theorem scatterAdd_ideal {s si u : Shape} {w : ℕ} {φ : FTy} (d : ScatterDims s si u) (x : FVec Ideal s φ)
    (idx : IVec si w) (upd : FVec Ideal u φ) :
    Host.scatterAdd (F := Ideal) d x idx upd = Ideal.hostScatterAdd d x idx upd := rfl

/-- A sum over a + b terms whose last b vanish is the sum of its first a. -/
theorem sum_pad {a b n : ℕ} (hn : n = a + b) (f : Fin n → EReal) (hz : ∀ i : Fin n, a ≤ i.val → f i = 0) :
    ∑ i, f i = ∑ i : Fin a, f ⟨i.val, by have := i.isLt; omega⟩ := by
  subst hn
  exact Fin.sum_trunc f (fun j => hz _ (Nat.le_add_right a j.val))

end Shapes

/-! ## The prelude's lists, over arbitrary tables -/

section Lists

/-- The word 1.0 of the self loops' weights is the number one. -/
theorem one_f32 : Ideal.ofBits .f32 0x3F800000#32 = 1 := by
  simp [Ideal.ofBits, Ideal.ieee, -EReal.coe_mul]; norm_num

/-- Row r of the table followed by the node numbers: the end words of the list with the self loops appended. -/
theorem ext_apply (o : ℕ) (r : Fin 2) (hr : r.val = o) (a1 : S2x1600000.Idx → BitVec 32)
    (hs : S2x1600000.Slices ![o, 0] S1x1600000) (hc : S1x1600000.ShapeCasts S1600000)
    (hcat : Shape.Concatenates [S1600000, S100000] S1700000 0) (e : Fin 1700000) :
    concatenate S1700000 0 [⟨S1600000, shapeCast S1600000 (extractStridedSlice S1x1600000 ![o, 0] a1 hs) hc⟩,
      ⟨S100000, iotaInDim S100000 32 0⟩] hcat (ix1 e) = Cert.Gcn.endW r a1 e := by
  rw [cat1_apply (n₁ := 1600000) (n₂ := 100000) (n := 1700000) (by norm_num)]
  unfold Cert.Gcn.endW
  by_cases h : e.val < 1600000
  · rw [dif_pos h, dif_pos h]; exact row_apply o a1 hs hc ⟨e.val, h⟩ r hr
  · rw [dif_neg h, dif_neg h]; rfl

/-- The given weights followed by ones: the weights of the list with the self loops appended. -/
theorem wext_apply (a2 : S1600000.Idx → EReal) (dims : Fin S_.rank → Fin S100000.rank)
    (hb : S_.BroadcastsInDim S100000 dims) (hcat : Shape.Concatenates [S1600000, S100000] S1700000 0)
    (e : Fin 1700000) :
    concatenate S1700000 0 [⟨S1600000, a2⟩,
      ⟨S100000, broadcastInDim S100000 dims hb (constant (F := Ideal) S_ .f32 0x3F800000#32)⟩] hcat (ix1 e)
      = Cert.Gcn.wAll a2 e := by
  rw [cat1_apply (n₁ := 1600000) (n₂ := 100000) (n := 1700000) (by norm_num)]
  unfold Cert.Gcn.wAll
  by_cases h : e.val < 1600000
  · rw [dif_pos h, dif_pos h]
  · rw [dif_neg h, dif_neg h]; exact one_f32

/-- A list of 1700000 entries followed by 1888 copies of a scalar. -/
theorem pad_apply {α : Type} (x : S1700000.Idx → α) (z : S_.Idx → α) (dims : Fin S_.rank → Fin S1888.rank)
    (hb : S_.BroadcastsInDim S1888 dims) (hcat : Shape.Concatenates [S1700000, S1888] S1701888 0)
    (e : Fin 1701888) :
    concatenate S1701888 0 [⟨S1700000, x⟩, ⟨S1888, broadcastInDim S1888 dims hb z⟩] hcat (ix1 e)
      = if h : e.val < 1700000 then x (ix1 ⟨e.val, h⟩) else z ix0 := by
  rw [cat1_apply (n₁ := 1700000) (n₂ := 1888) (n := 1701888) (by norm_num)]
  by_cases h : e.val < 1700000
  · rw [dif_pos h, dif_pos h]
  · rw [dif_neg h, dif_neg h]; exact splat_apply dims hb z _

/-- The select of the inverse root where the degree is positive and of zero elsewhere, read at an entry. -/
theorem dinv_entry (X : S100000.Idx → EReal) (dims : Fin S_.rank → Fin S100000.rank)
    (hb : S_.BroadcastsInDim S100000 dims) (n : Fin 100000) :
    select (cmpf (F := Ideal) (φ := .f32) .ogt X
        (broadcastInDim S100000 dims hb (constant (F := Ideal) S_ .f32 0x00000000#32)))
      (Host.rsqrt (F := Ideal) (φ := .f32) X)
      (broadcastInDim S100000 dims hb (constant (F := Ideal) S_ .f32 0x00000000#32)) (ix1 n)
      = Cert.Gcn.dinvOf (X (ix1 n)) := rfl

end Lists

/-! ## The stretches of host operations, over arbitrary contents at their start

Each equation says what one buffer holds once the stretch has run, in the buffers the stretch began from and, for the
later operations, in the buffers it wrote before. -/

section Stretches
variable (V : Valuation τ sig (Elt Ideal))

/-- The first stretch: the padded source words. -/
theorem s0_v10 :
    (StableHlo.after (hostOps0 (F := Ideal)) V (Proc.devRef .tc main_v10) : S1701888.Idx → BitVec 32)
      = concatenate S1701888 0
          [⟨S1700000, concatenate S1700000 0
              [⟨S1600000, shapeCast S1600000 (extractStridedSlice (s := S2x1600000) S1x1600000 ![0, 0]
                  (V (Proc.devRef .tc main_arg1)) slices_S2x1600000_S1x1600000_0_0) shapeCasts_S1x1600000_S1600000⟩,
               ⟨S100000, iotaInDim S100000 32 0⟩] concatenates_S1600000_S100000_S1700000_d0⟩,
           ⟨S1888, broadcastInDim (s := S_) S1888 ![] bcast_S_S1888 (constantI S_ 32 0#32)⟩]
          concatenates_S1700000_S1888_S1701888_d0 := by
  dsimp only [hostOps0]; after_results <;> rfl

/-- The first stretch: the padded target words. -/
theorem s0_v12 :
    (StableHlo.after (hostOps0 (F := Ideal)) V (Proc.devRef .tc main_v12) : S1701888.Idx → BitVec 32)
      = concatenate S1701888 0
          [⟨S1700000, concatenate S1700000 0
              [⟨S1600000, shapeCast S1600000 (extractStridedSlice (s := S2x1600000) S1x1600000 ![1, 0]
                  (V (Proc.devRef .tc main_arg1)) slices_S2x1600000_S1x1600000_1_0) shapeCasts_S1x1600000_S1600000⟩,
               ⟨S100000, iotaInDim S100000 32 0⟩] concatenates_S1600000_S100000_S1700000_d0⟩,
           ⟨S1888, broadcastInDim (s := S_) S1888 ![] bcast_S_S1888 (constantI S_ 32 0#32)⟩]
          concatenates_S1700000_S1888_S1701888_d0 := by
  dsimp only [hostOps0]; after_results <;> rfl

/-- The first stretch: the padded weights. -/
theorem s0_v14 :
    (StableHlo.after (hostOps0 (F := Ideal)) V (Proc.devRef .tc main_v14) : S1701888.Idx → EReal)
      = concatenate S1701888 0
          [⟨S1700000, concatenate S1700000 0
              [⟨S1600000, (V (Proc.devRef .tc main_arg2) : S1600000.Idx → EReal)⟩,
               ⟨S100000, broadcastInDim (s := S_) S100000 ![] bcast_S_S100000
                  (constant (F := Ideal) S_ .f32 0x3F800000#32)⟩] concatenates_S1600000_S100000_S1700000_d0⟩,
           ⟨S1888, broadcastInDim (s := S_) S1888 ![] bcast_S_S1888 (constant (F := Ideal) S_ .f32 0x00000000#32)⟩]
          concatenates_S1700000_S1888_S1701888_d0 := by
  dsimp only [hostOps0]; after_results <;> rfl

/-- The first stretch: the degrees, the padded weights scattered onto the padded targets from zero. -/
theorem s0_v17 :
    (StableHlo.after (hostOps0 (F := Ideal)) V (Proc.devRef .tc main_v17) : S100000.Idx → EReal)
      = Host.scatterAdd (F := Ideal) scatter_S100000_S1701888x1_S1701888_n_0_0_1
          (broadcastInDim (s := S_) S100000 ![] bcast_S_S100000 (constant (F := Ideal) S_ .f32 0x00000000#32))
          (broadcastInDim (s := S1701888) S1701888x1 ![0] bcast_S1701888_S1701888x1_0
            (StableHlo.after (hostOps0 (F := Ideal)) V (Proc.devRef .tc main_v12) : S1701888.Idx → BitVec 32))
          (StableHlo.after (hostOps0 (F := Ideal)) V (Proc.devRef .tc main_v14) : S1701888.Idx → EReal) := by
  dsimp only [hostOps0]; after_results_simp <;> rfl

/-- The first stretch: which degrees are positive. -/
theorem s0_v19 :
    (StableHlo.after (hostOps0 (F := Ideal)) V (Proc.devRef .tc main_v19) : S100000.Idx → BitVec 1)
      = cmpf (F := Ideal) (φ := .f32) .ogt
          (StableHlo.after (hostOps0 (F := Ideal)) V (Proc.devRef .tc main_v17) : S100000.Idx → EReal)
          (broadcastInDim (s := S_) S100000 ![] bcast_S_S100000 (constant (F := Ideal) S_ .f32 0x00000000#32)) := by
  dsimp only [hostOps0]; after_results <;> rfl

/-- The first stretch: the degrees' inverse roots. -/
theorem s0_v20 :
    (StableHlo.after (hostOps0 (F := Ideal)) V (Proc.devRef .tc main_v20) : S100000.Idx → EReal)
      = Host.rsqrt (F := Ideal) (φ := .f32)
          (StableHlo.after (hostOps0 (F := Ideal)) V (Proc.devRef .tc main_v17) : S100000.Idx → EReal) := by
  dsimp only [hostOps0]; after_results <;> rfl

/-- The first stretch: the zeros the select falls back to. -/
theorem s0_v21 :
    (StableHlo.after (hostOps0 (F := Ideal)) V (Proc.devRef .tc main_v21) : S100000.Idx → EReal)
      = broadcastInDim (s := S_) S100000 ![] bcast_S_S100000 (constant (F := Ideal) S_ .f32 0x00000000#32) := by
  dsimp only [hostOps0]; after_results <;> rfl

/-- The second stretch, one select: the inverse root where the degree is positive, zero elsewhere. -/
theorem s1_v22 :
    (StableHlo.after (hostOps0_1 (F := Ideal)) V (Proc.devRef .tc main_v22) : S100000.Idx → EReal)
      = select (V (Proc.devRef .tc main_v19) : S100000.Idx → BitVec 1)
          (V (Proc.devRef .tc main_v20) : S100000.Idx → EReal) (V (Proc.devRef .tc main_v21) : S100000.Idx → EReal) := by
  dsimp only [hostOps0_1]; after_results <;> (try simp only [StableHlo.TRef.ofBuf, StableHlo.TRef.toBuf, cast_eq]) <;> rfl

/-- The index column a gather of the third stretch reads: the words, wrapped where negative, as a column. -/
abbrev wrapCol (x : S1701888.Idx → BitVec 32) : S1701888x1.Idx → BitVec 32 :=
  broadcastInDim (s := S1701888) S1701888x1 ![0] bcast_S1701888_S1701888x1_0
    (select (cmpi .slt x (broadcastInDim (s := S_) S1701888 ![] bcast_S_S1701888 (constantI S_ 32 0#32)))
      (addi x (broadcastInDim (s := S_) S1701888 ![] bcast_S_S1701888 (constantI S_ 32 100000#32))) x)

/-- The third stretch: the inverse roots gathered at the sources. -/
theorem s2_v29 :
    (StableHlo.after (hostOps0_2 (F := Ideal)) V (Proc.devRef .tc main_v29) : S1701888.Idx → EReal)
      = Host.gather gather_S100000_S1701888x1_S1701888_n_0_n_n_0_1_1
          (V (Proc.devRef .tc main_v22) : S100000.Idx → EReal)
          (wrapCol (V (Proc.devRef .tc main_v10) : S1701888.Idx → BitVec 32)) := by
  dsimp only [hostOps0_2]; after_results <;> rfl

/-- The third stretch: the inverse roots gathered at the targets. -/
theorem s2_v37 :
    (StableHlo.after (hostOps0_2 (F := Ideal)) V (Proc.devRef .tc main_v37) : S1701888.Idx → EReal)
      = Host.gather gather_S100000_S1701888x1_S1701888_n_0_n_n_0_1_1
          (V (Proc.devRef .tc main_v22) : S100000.Idx → EReal)
          (wrapCol (V (Proc.devRef .tc main_v12) : S1701888.Idx → BitVec 32)) := by
  dsimp only [hostOps0_2]; after_results <;> rfl

/-- The third stretch: the normalised weights, the two gathers multiplied onto the padded weights. -/
theorem s2_v38 :
    (StableHlo.after (hostOps0_2 (F := Ideal)) V (Proc.devRef .tc main_v38) : S1701888.Idx → EReal)
      = mulf (F := Ideal) (φ := .f32)
          (mulf (F := Ideal) (φ := .f32)
            (StableHlo.after (hostOps0_2 (F := Ideal)) V (Proc.devRef .tc main_v29) : S1701888.Idx → EReal)
            (V (Proc.devRef .tc main_v14) : S1701888.Idx → EReal))
          (StableHlo.after (hostOps0_2 (F := Ideal)) V (Proc.devRef .tc main_v37) : S1701888.Idx → EReal) := by
  dsimp only [hostOps0_2]; after_results_simp <;> rfl

end Stretches

/-! ## The stretches read at an entry -/

section Entries
variable (V : Valuation τ sig (Elt Ideal))

/-- The padded source words after the first stretch. -/
theorem s0_v10_apply (e : Fin 1701888) :
    (StableHlo.after (hostOps0 (F := Ideal)) V (Proc.devRef .tc main_v10) : S1701888.Idx → BitVec 32) (ix1 e)
      = if h : e.val < 1700000 then Cert.Gcn.rowW (V (Proc.devRef .tc main_arg1)) ⟨e.val, h⟩ else 0#32 := by
  rw [s0_v10 V, pad_apply]
  by_cases h : e.val < 1700000
  · rw [dif_pos h, dif_pos h]; exact ext_apply 0 0 rfl _ _ _ _ ⟨e.val, h⟩
  · rw [dif_neg h, dif_neg h]; rfl

/-- The padded target words after the first stretch. -/
theorem s0_v12_apply (e : Fin 1701888) :
    (StableHlo.after (hostOps0 (F := Ideal)) V (Proc.devRef .tc main_v12) : S1701888.Idx → BitVec 32) (ix1 e)
      = if h : e.val < 1700000 then Cert.Gcn.colW (V (Proc.devRef .tc main_arg1)) ⟨e.val, h⟩ else 0#32 := by
  rw [s0_v12 V, pad_apply]
  by_cases h : e.val < 1700000
  · rw [dif_pos h, dif_pos h]; exact ext_apply 1 1 rfl _ _ _ _ ⟨e.val, h⟩
  · rw [dif_neg h, dif_neg h]; rfl

/-- The padded weights after the first stretch. -/
theorem s0_v14_apply (e : Fin 1701888) :
    (StableHlo.after (hostOps0 (F := Ideal)) V (Proc.devRef .tc main_v14) : S1701888.Idx → EReal) (ix1 e)
      = if h : e.val < 1700000 then Cert.Gcn.wAll (V (Proc.devRef .tc main_arg2)) ⟨e.val, h⟩ else 0 := by
  rw [s0_v14 V, pad_apply]
  by_cases h : e.val < 1700000
  · rw [dif_pos h, dif_pos h]; exact wext_apply _ _ _ _ ⟨e.val, h⟩
  · rw [dif_neg h, dif_neg h]; exact Ideal.ofBits_zero_f32

/-- The padded weights at an edge below 1700000. -/
theorem s0_v14_lt (e : Fin 1700000) (h : e.val < 1701888) :
    (StableHlo.after (hostOps0 (F := Ideal)) V (Proc.devRef .tc main_v14) : S1701888.Idx → EReal) (ix1 ⟨e.val, h⟩)
      = Cert.Gcn.wAll (V (Proc.devRef .tc main_arg2)) e := by
  rw [s0_v14_apply V ⟨e.val, h⟩, dif_pos e.isLt]

/-- The padded target words at an edge below 1700000. -/
theorem s0_v12_lt (e : Fin 1700000) (h : e.val < 1701888) :
    (StableHlo.after (hostOps0 (F := Ideal)) V (Proc.devRef .tc main_v12) : S1701888.Idx → BitVec 32) (ix1 ⟨e.val, h⟩)
      = Cert.Gcn.colW (V (Proc.devRef .tc main_arg1)) e := by
  rw [s0_v12_apply V ⟨e.val, h⟩, dif_pos e.isLt]

/-- The degrees after the first stretch: the padding adds zeros, so each is the unpadded list's degree. -/
theorem s0_v17_apply (n : Fin 100000) :
    (StableHlo.after (hostOps0 (F := Ideal)) V (Proc.devRef .tc main_v17) : S100000.Idx → EReal) (ix1 n)
      = Cert.Gcn.degOf (V (Proc.devRef .tc main_arg1)) (V (Proc.devRef .tc main_arg2)) n := by
  rw [s0_v17 V, scatterAdd_ideal,
    ScatterRows.scatterRows1_apply scatter_S100000_S1701888x1_S1701888_n_0_0_1 rfl rfl rfl rfl]
  unfold Cert.Gcn.degOf
  refine congrArg₂ (· + ·) Ideal.ofBits_zero_f32 ?_
  refine (sum_pad (a := 1700000) (b := 1888) (by norm_num) _ ?_).trans ?_
  · intro i hi
    rw [s0_v14_apply V i, dif_neg (Nat.not_lt.mpr hi)]
    exact ite_self _
  · refine Finset.sum_congr rfl fun e _ => ?_
    rw [col_apply (n := 1701888) (by norm_num), s0_v12_lt V e, s0_v14_lt V e]

/-- A gather of a 100000-vector at the wrapped index column reads the vector at the node of the word. -/
theorem gather_wrap_apply (x : S100000.Idx → EReal) (w : S1701888.Idx → BitVec 32) (e : Fin 1701888) :
    Host.gather gather_S100000_S1701888x1_S1701888_n_0_n_n_0_1_1 x (wrapCol w) (ix1 e)
      = x (ix1 (Cert.Gcn.nodeOf (w (ix1 e)))) := by
  refine (pick_apply (N := 100000) (R := 1701888) (by norm_num) gather_S100000_S1701888x1_S1701888_n_0_n_n_0_1_1
    rfl rfl rfl rfl rfl rfl rfl x (wrapCol w) e).trans ?_
  refine congrArg (fun k : Fin 100000 => x (ix1 k)) (Fin.ext ?_)
  show min ((wrapCol w) (ix2 e (0 : Fin 1))).toInt.toNat (100000 - 1)
    = min (Cert.Gcn.wrapW (w (ix1 e))).toInt.toNat 99999
  unfold wrapCol
  rw [col_apply (n := 1701888) (by norm_num)]
  rfl

/-- The inverse roots gathered at the sources, after the third stretch. -/
theorem s2_v29_apply (e : Fin 1701888) :
    (StableHlo.after (hostOps0_2 (F := Ideal)) V (Proc.devRef .tc main_v29) : S1701888.Idx → EReal) (ix1 e)
      = (V (Proc.devRef .tc main_v22) : S100000.Idx → EReal)
          (ix1 (Cert.Gcn.nodeOf ((V (Proc.devRef .tc main_v10) : S1701888.Idx → BitVec 32) (ix1 e)))) := by
  rw [s2_v29 V]; exact gather_wrap_apply _ _ e

/-- The inverse roots gathered at the targets, after the third stretch. -/
theorem s2_v37_apply (e : Fin 1701888) :
    (StableHlo.after (hostOps0_2 (F := Ideal)) V (Proc.devRef .tc main_v37) : S1701888.Idx → EReal) (ix1 e)
      = (V (Proc.devRef .tc main_v22) : S100000.Idx → EReal)
          (ix1 (Cert.Gcn.nodeOf ((V (Proc.devRef .tc main_v12) : S1701888.Idx → BitVec 32) (ix1 e)))) := by
  rw [s2_v37 V]; exact gather_wrap_apply _ _ e

/-- The normalised weights after the third stretch. -/
theorem s2_v38_apply (e : Fin 1701888) :
    (StableHlo.after (hostOps0_2 (F := Ideal)) V (Proc.devRef .tc main_v38) : S1701888.Idx → EReal) (ix1 e)
      = HMul.hMul (α := EReal) (β := EReal) (γ := EReal)
          (HMul.hMul (α := EReal) (β := EReal) (γ := EReal)
            ((V (Proc.devRef .tc main_v22) : S100000.Idx → EReal)
              (ix1 (Cert.Gcn.nodeOf ((V (Proc.devRef .tc main_v10) : S1701888.Idx → BitVec 32) (ix1 e)))))
            ((V (Proc.devRef .tc main_v14) : S1701888.Idx → EReal) (ix1 e)))
          ((V (Proc.devRef .tc main_v22) : S100000.Idx → EReal)
            (ix1 (Cert.Gcn.nodeOf ((V (Proc.devRef .tc main_v12) : S1701888.Idx → BitVec 32) (ix1 e))))) := by
  rw [s2_v38 V, mulf_apply, mulf_apply, s2_v29_apply V, s2_v37_apply V]

end Entries

/-! ## At the launch contents -/

section Launch
variable (m : (ℓ : Loc nD τ sig) → Buf (Elt Ideal) ℓ) (ρ : Dev nD → PrngReg)

/-- A buffer that no operation of a stretch writes holds after the stretch what it held before. -/
local macro "kept" : tactic => `(tactic| (
  refine StableHlo.after_of_forall_not_mem _ _ (List.forall_iff_forall_mem.mp ?_)
  simp only [hostOps0_1, hostOps0_2, hostOps0_3, hostOps0_4, List.flatten_cons, List.flatten_nil, List.append_nil,
    List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-- The padded source words are written in the first stretch and by no later one of the prelude. -/
theorem W5_v10 (c : Dev nD) :
    W5 (F := Ideal) m ρ c (Proc.devRef .tc main_v10) = W1 (F := Ideal) m ρ c (Proc.devRef .tc main_v10) :=
  calc W5 (F := Ideal) m ρ c (Proc.devRef .tc main_v10)
    _ = W4 (F := Ideal) m ρ c (Proc.devRef .tc main_v10) := by kept
    _ = W3 (F := Ideal) m ρ c (Proc.devRef .tc main_v10) := by kept
    _ = W2 (F := Ideal) m ρ c (Proc.devRef .tc main_v10) := by kept
    _ = W1 (F := Ideal) m ρ c (Proc.devRef .tc main_v10) := by kept

/-- So are the padded target words. -/
theorem W5_v12 (c : Dev nD) :
    W5 (F := Ideal) m ρ c (Proc.devRef .tc main_v12) = W1 (F := Ideal) m ρ c (Proc.devRef .tc main_v12) :=
  calc W5 (F := Ideal) m ρ c (Proc.devRef .tc main_v12)
    _ = W4 (F := Ideal) m ρ c (Proc.devRef .tc main_v12) := by kept
    _ = W3 (F := Ideal) m ρ c (Proc.devRef .tc main_v12) := by kept
    _ = W2 (F := Ideal) m ρ c (Proc.devRef .tc main_v12) := by kept
    _ = W1 (F := Ideal) m ρ c (Proc.devRef .tc main_v12) := by kept

/-- The normalised weights are written in the third stretch and by no later one of the prelude. -/
theorem W5_v38 (c : Dev nD) :
    W5 (F := Ideal) m ρ c (Proc.devRef .tc main_v38) = W3 (F := Ideal) m ρ c (Proc.devRef .tc main_v38) :=
  calc W5 (F := Ideal) m ρ c (Proc.devRef .tc main_v38)
    _ = W4 (F := Ideal) m ρ c (Proc.devRef .tc main_v38) := by kept
    _ = W3 (F := Ideal) m ρ c (Proc.devRef .tc main_v38) := by kept

/-- The one select of the second stretch leaves the three padded lists as the first stretch wrote them. -/
theorem W2_v10 (c : Dev nD) :
    W2 (F := Ideal) m ρ c (Proc.devRef .tc main_v10) = W1 (F := Ideal) m ρ c (Proc.devRef .tc main_v10) := by kept
theorem W2_v12 (c : Dev nD) :
    W2 (F := Ideal) m ρ c (Proc.devRef .tc main_v12) = W1 (F := Ideal) m ρ c (Proc.devRef .tc main_v12) := by kept
theorem W2_v14 (c : Dev nD) :
    W2 (F := Ideal) m ρ c (Proc.devRef .tc main_v14) = W1 (F := Ideal) m ρ c (Proc.devRef .tc main_v14) := by kept

/-- The padded source words at the launch contents. -/
theorem rowP1 (c : Dev nD) (e : Fin 1701888) :
    (W1 (F := Ideal) m ρ c (Proc.devRef .tc main_v10) : S1701888.Idx → BitVec 32) (ix1 e)
      = if h : e.val < 1700000 then Cert.Gcn.rowW (m ((c : Thread nD τ).loc main_arg1)) ⟨e.val, h⟩ else 0#32 :=
  s0_v10_apply (W0 (F := Ideal) m ρ c) e

/-- The padded target words at the launch contents. -/
theorem colP1 (c : Dev nD) (e : Fin 1701888) :
    (W1 (F := Ideal) m ρ c (Proc.devRef .tc main_v12) : S1701888.Idx → BitVec 32) (ix1 e)
      = if h : e.val < 1700000 then Cert.Gcn.colW (m ((c : Thread nD τ).loc main_arg1)) ⟨e.val, h⟩ else 0#32 :=
  s0_v12_apply (W0 (F := Ideal) m ρ c) e

/-- The padded weights at the launch contents. -/
theorem wP1 (c : Dev nD) (e : Fin 1701888) :
    (W1 (F := Ideal) m ρ c (Proc.devRef .tc main_v14) : S1701888.Idx → EReal) (ix1 e)
      = if h : e.val < 1700000 then Cert.Gcn.wAll (m ((c : Thread nD τ).loc main_arg2)) ⟨e.val, h⟩ else 0 :=
  s0_v14_apply (W0 (F := Ideal) m ρ c) e

/-- The degrees at the launch contents. -/
theorem deg1 (c : Dev nD) (n : Fin 100000) :
    (W1 (F := Ideal) m ρ c (Proc.devRef .tc main_v17) : S100000.Idx → EReal) (ix1 n)
      = Cert.Gcn.degOf (m ((c : Thread nD τ).loc main_arg1)) (m ((c : Thread nD τ).loc main_arg2)) n :=
  s0_v17_apply (W0 (F := Ideal) m ρ c) n

/-- The inverse roots of the degrees, zero where the degree is not positive, at the launch contents. -/
theorem dinv2 (c : Dev nD) (n : Fin 100000) :
    (W2 (F := Ideal) m ρ c (Proc.devRef .tc main_v22) : S100000.Idx → EReal) (ix1 n)
      = Cert.Gcn.dinvOf
          (Cert.Gcn.degOf (m ((c : Thread nD τ).loc main_arg1)) (m ((c : Thread nD τ).loc main_arg2)) n) := by
  have h22 : (W2 (F := Ideal) m ρ c (Proc.devRef .tc main_v22) : S100000.Idx → EReal)
      = select (W1 (F := Ideal) m ρ c (Proc.devRef .tc main_v19) : S100000.Idx → BitVec 1)
          (W1 (F := Ideal) m ρ c (Proc.devRef .tc main_v20) : S100000.Idx → EReal)
          (W1 (F := Ideal) m ρ c (Proc.devRef .tc main_v21) : S100000.Idx → EReal) :=
    s1_v22 (W1 (F := Ideal) m ρ c)
  have h19 : (W1 (F := Ideal) m ρ c (Proc.devRef .tc main_v19) : S100000.Idx → BitVec 1)
      = cmpf (F := Ideal) (φ := .f32) .ogt
          (W1 (F := Ideal) m ρ c (Proc.devRef .tc main_v17) : S100000.Idx → EReal)
          (broadcastInDim (s := S_) S100000 ![] bcast_S_S100000 (constant (F := Ideal) S_ .f32 0x00000000#32)) :=
    s0_v19 (W0 (F := Ideal) m ρ c)
  have h20 : (W1 (F := Ideal) m ρ c (Proc.devRef .tc main_v20) : S100000.Idx → EReal)
      = Host.rsqrt (F := Ideal) (φ := .f32)
          (W1 (F := Ideal) m ρ c (Proc.devRef .tc main_v17) : S100000.Idx → EReal) :=
    s0_v20 (W0 (F := Ideal) m ρ c)
  have h21 : (W1 (F := Ideal) m ρ c (Proc.devRef .tc main_v21) : S100000.Idx → EReal)
      = broadcastInDim (s := S_) S100000 ![] bcast_S_S100000 (constant (F := Ideal) S_ .f32 0x00000000#32) :=
    s0_v21 (W0 (F := Ideal) m ρ c)
  rw [h22, h19, h20, h21, dinv_entry, deg1]

/-- The padded source words: the extended list's word below 1700000, the word 0 on the padding. -/
theorem rowP_eq (c : Dev nD) (e : Fin 1701888) :
    W5 (F := Ideal) m ρ c (Proc.devRef .tc main_v10) (ix1 e)
      = if h : e.val < 1700000 then Cert.Gcn.rowW (m ((c : Thread nD τ).loc main_arg1)) ⟨e.val, h⟩ else 0#32 := by
  rw [W5_v10 m ρ c]; exact rowP1 m ρ c e

/-- The padded target words: the extended list's word below 1700000, the word 0 on the padding. -/
theorem colP_eq (c : Dev nD) (e : Fin 1701888) :
    W5 (F := Ideal) m ρ c (Proc.devRef .tc main_v12) (ix1 e)
      = if h : e.val < 1700000 then Cert.Gcn.colW (m ((c : Thread nD τ).loc main_arg1)) ⟨e.val, h⟩ else 0#32 := by
  rw [W5_v12 m ρ c]; exact colP1 m ρ c e

/-- The padded normalised weights: the unpadded normalised weight below 1700000, zero on the padding. -/
theorem nrmP_eq (c : Dev nD) (e : Fin 1701888) :
    W5 (F := Ideal) m ρ c (Proc.devRef .tc main_v38) (ix1 e)
      = if h : e.val < 1700000 then
          Cert.Gcn.nrmOf (m ((c : Thread nD τ).loc main_arg1)) (m ((c : Thread nD τ).loc main_arg2)) ⟨e.val, h⟩
        else 0 := by
  rw [W5_v38 m ρ c]
  refine (s2_v38_apply (W2 (F := Ideal) m ρ c) e).trans ?_
  rw [W2_v10 m ρ c, W2_v12 m ρ c, W2_v14 m ρ c, dinv2 m ρ c, dinv2 m ρ c, rowP1 m ρ c, colP1 m ρ c, wP1 m ρ c]
  by_cases h : e.val < 1700000
  · rw [dif_pos h, dif_pos h, dif_pos h, dif_pos h]
    rfl
  · rw [dif_neg h, dif_neg h, dif_neg h, dif_neg h, mul_zero, zero_mul]

end Launch

end Cert.KernelIdeal.Prelude

end
-- ==== Proof.RefNorm.lean ====
/-
  THE REFERENCE PROGRAM'S EDGE LISTS AND NORMALISED WEIGHTS, read at an entry.

  The reference appends the self loops to the edge list (a concatenation with an iota, and of the weights with ones),
  sums the weights onto their targets (a scatter-add onto zeros), takes the inverse roots of the degrees (zero where a
  degree is not positive) and multiplies dinv[source] · w · dinv[target], the two reads through a gather whose index
  words are wrapped (negative words plus 100000) and clamped.

  Proved here, at every edge e of the extended list: the extended source and target words are the table's word below
  1600000 and the self loop's node number after (row_eq, col_eq), and the normalised weight is
  dinv(deg(source node)) · w · dinv(deg(target node)) with deg the sum of the weights whose target word reads the node
  (nrm_eq). No range hypothesis on the words is used.
-/
import proofs.«429796_j5497558139162_1_alg».proof.Proof.Gen.ReferenceIdeal.Read
import proofs.«429796_j5497558139162_1_alg».proof.Proof.Edges
import proofs.«429796_j5497558139162_1_alg».proof.Proof.LibScatterRows
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open Idealize.ShloMosaic Idealize.ShloMosaic.TcCoe Idealize.SL.Sem
open Idealize.ShloMosaic.ValueIdx

namespace Cert.ReferenceIdeal.RefNorm

open Cert.ReferenceIdeal Cert.ReferenceIdeal.Gen Cert.ReferenceIdeal.Read
open scoped BigOperators

/-! ## Two general readings: a concatenation of two vectors, and a gather of single entries of a vector -/

/-- A vector of 1600000 entries followed by one of 100000, read at entry e: the first below 1600000, the second
    after, 1600000 less. -/
theorem cat_apply {α : Type} (h : Shape.Concatenates [S1600000, S100000] S1700000 0)
    (x₁ : S1600000.Idx → α) (x₂ : S100000.Idx → α) (e : Fin 1700000) :
    concatenate S1700000 0 [⟨S1600000, x₁⟩, ⟨S100000, x₂⟩] h (ix1 e)
      = if hlt : e.val < 1600000 then x₁ (ix1 (⟨e.val, hlt⟩ : Fin 1600000))
        else x₂ (ix1 (⟨e.val - 1600000, by have := e.isLt; omega⟩ : Fin 100000)) := by
  by_cases hlt : e.val < 1600000
  · rw [dif_pos hlt]
    exact concatenate_pair_apply_left (0 : Fin S1700000.rank) x₁ x₂ h (ix1 e) rfl (ix1 (⟨e.val, hlt⟩ : Fin 1600000))
      (fun b => by
        match b with
        | ⟨0, _⟩ => rfl)
  · rw [dif_neg hlt]
    exact concatenate_pair_apply_right (0 : Fin S1700000.rank) x₁ x₂ h (ix1 e) rfl rfl
      (ix1 (⟨e.val - 1600000, by have := e.isLt; omega⟩ : Fin 100000))
      (fun b hb => by
        match b with
        | ⟨0, _⟩ => exact absurd rfl hb)
      (by show (e.val - 1600000) + 1600000 = e.val; omega)

section Gather
variable {α : Type}

/-- The dimension numbers of x[idx] for a vector x : [N] at start indices [R, 1]: no offset axes, collapsed axis 0,
    start index map [0], index vector axis 1, slice sizes [1]. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- That gather read at r: the vector at the start index idx[r, 0], read signed and clamped into [0, N − 1]. -/
theorem gather_vec_literal {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 (⟨min (idx (ix2 r (0 : Fin 1))).toInt.toNat (N - 1), by omega⟩ : Fin N)) := by
  unfold Host.gather
  congr 1
  funext a
  obtain rfl : a = 0 := Subsingleton.elim _ _
  refine Fin.ext ?_
  show (vecDims N R wf).start (ix1 r) idx 0 + (vecDims N R wf).batchCoord (ix1 r) 0
    + (vecDims N R wf).offCoord (ix1 r) 0 = _
  -- the one operand axis is collapsed and not batching: the coordinate is the clamped start alone
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 r) ⟨List.idxOf (0 : Fin 1) (vecDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The same for any record of dimension numbers with those lists. -/
theorem gather_vec_apply {N R w : Nat} (hN : 0 < N) (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![R, 1]⟩ w) (r : Fin R) :
    Host.gather d x idx (ix1 r)
      = x (ix1 (⟨min (idx (ix2 r (0 : Fin 1))).toInt.toNat (N - 1), by omega⟩ : Fin N)) := by
  obtain ⟨od, cd, ob, sb, sm, iv, ss, wf⟩ := d
  dsimp only at h1 h2 h3 h4 h5 h6 h7
  subst h1 h2 h3 h4 h5 h6 h7
  exact gather_vec_literal hN wf x idx r

end Gather

variable (x1 : (⟨S2x1600000, .i32⟩ : BufTy).Contents (Elt Ideal)) (x2 : (⟨S1600000, .f32⟩ : BufTy).Contents (Elt Ideal))

/-! ## The extended word lists and weights -/

/-- The extended source words. -/
theorem row_eq (e : Fin 1700000) : val_main_v5 (F := Ideal) x1 (ix1 e) = Cert.Gcn.rowW x1 e := by
  unfold val_main_v5
  rw [cat_apply]
  show _ = Cert.Gcn.endW 0 x1 e
  unfold Cert.Gcn.endW
  by_cases hlt : e.val < 1600000
  · rw [dif_pos hlt, dif_pos hlt, val_main_v1_apply, val_main_v0_apply]
    congr 1
    funext a
    refine Fin.ext ?_
    match a with
    | ⟨0, _⟩ => rfl
    | ⟨1, _⟩ => exact Nat.mod_eq_of_lt hlt
  · rw [dif_neg hlt, dif_neg hlt]
    rfl

/-- The extended target words. -/
theorem col_eq (e : Fin 1700000) : val_main_v6 (F := Ideal) x1 (ix1 e) = Cert.Gcn.colW x1 e := by
  unfold val_main_v6
  rw [cat_apply]
  show _ = Cert.Gcn.endW 1 x1 e
  unfold Cert.Gcn.endW
  by_cases hlt : e.val < 1600000
  · rw [dif_pos hlt, dif_pos hlt, val_main_v3_apply, val_main_v2_apply]
    congr 1
    funext a
    refine Fin.ext ?_
    match a with
    | ⟨0, _⟩ => rfl
    | ⟨1, _⟩ => exact Nat.mod_eq_of_lt hlt
  · rw [dif_neg hlt, dif_neg hlt]
    rfl

/-- The extended weights: the given weight, and 1 on a self loop. -/
theorem w_eq (e : Fin 1700000) : val_main_v8 (F := Ideal) x2 (ix1 e) = Cert.Gcn.wAll x2 e := by
  unfold val_main_v8
  rw [cat_apply]
  unfold Cert.Gcn.wAll
  by_cases hlt : e.val < 1600000
  · rw [dif_pos hlt, dif_pos hlt]
  · rw [dif_neg hlt, dif_neg hlt, val_main_v7_apply, val_main_cst_apply]
    exact Ideal.ofBits_one_f32

/-! ## The degrees and their inverse roots -/

/-- The index column of the degree sum is the extended target words. -/
theorem v10_eq (e : Fin 1700000) :
    val_main_v10 (F := Ideal) x1 (ix2 e (0 : Fin 1)) = Cert.Gcn.colW x1 e := by
  have h : idx_main_v10 (ix2 e (0 : Fin 1)) = ix1 e := funext fun a => by
    match a with
    | ⟨0, _⟩ => rfl
  rw [val_main_v10_apply, h, col_eq]

/-- At the ideal values the host's accumulating scatter is the exact one, as functions of the index. -/
theorem scatterAdd_ideal {s si u : Shape} {φ : FTy} {w : Nat} (d : ScatterDims s si u) (x : FVec Ideal s φ)
    (idx : IVec si w) (upd : FVec Ideal u φ) :
    Host.scatterAdd d x idx upd = Ideal.hostScatterAdd d x idx upd := rfl

/-- The zero vector the degrees are summed onto. -/
theorem v9_eq (n : Fin 100000) : val_main_v9 (F := Ideal) (ix1 n) = (0 : EReal) := by
  rw [val_main_v9_apply, val_main_cst_0_apply, Ideal.ofBits_def, Ideal.ofBits_zero_f32]

/-- The degree of node n. -/
theorem deg_eq (n : Fin 100000) :
    val_main_v11 (F := Ideal) x1 x2 (ix1 n) = Cert.Gcn.degOf x1 x2 n := by
  have h := ScatterRows.scatterRows1_apply scatter_S100000_S1700000x1_S1700000_n_0_0_1 rfl rfl rfl rfl
    (val_main_v9 (F := Ideal)) (val_main_v10 (F := Ideal) x1) (val_main_v8 (F := Ideal) x2) n
  have hs : ∀ e : Fin 1700000,
      (if (val_main_v10 (F := Ideal) x1 (ix2 e (0 : Fin 1))).toInt = (n.val : ℤ) then val_main_v8 (F := Ideal) x2 (ix1 e)
        else (0 : EReal))
      = if (Cert.Gcn.colW x1 e).toInt = (n.val : ℤ) then Cert.Gcn.wAll x2 e else 0 := fun e => by
    rw [v10_eq, w_eq]
  unfold val_main_v11 Cert.Gcn.degOf
  rw [scatterAdd_ideal, h, v9_eq, Finset.sum_congr rfl (fun e _ => hs e)]

/-- The inverse root of the degree of node n, zero where the degree is not positive. -/
theorem dinv_eq (n : Fin 100000) :
    val_main_v16 (F := Ideal) x1 x2 (ix1 n) = Cert.Gcn.dinvOf (Cert.Gcn.degOf x1 x2 n) := by
  unfold Cert.Gcn.dinvOf
  rw [val_main_v16_apply, val_main_v13_apply, val_main_v14_apply, val_main_v15_apply, val_main_v12_apply,
    val_main_cst_1_apply, val_main_cst_2_apply, deg_eq]

/-! ## The two reads through the gather -/

/-- The source words after the wrap. -/
theorem v21_eq (e : Fin 1700000) :
    val_main_v21 (F := Ideal) x1 (ix1 e) = Cert.Gcn.wrapW (Cert.Gcn.rowW x1 e) := by
  unfold Cert.Gcn.wrapW
  rw [val_main_v21_apply, val_main_v18_apply, val_main_v20_apply, val_main_v17_apply, val_main_v19_apply,
    val_main_c_apply, val_main_c_3_apply, row_eq]

/-- The target words after the wrap. -/
theorem v29_eq (e : Fin 1700000) :
    val_main_v29 (F := Ideal) x1 (ix1 e) = Cert.Gcn.wrapW (Cert.Gcn.colW x1 e) := by
  unfold Cert.Gcn.wrapW
  rw [val_main_v29_apply, val_main_v26_apply, val_main_v28_apply, val_main_v25_apply, val_main_v27_apply,
    val_main_c_4_apply, val_main_c_5_apply, col_eq]

/-- The index column of the first gather. -/
theorem v22_eq (e : Fin 1700000) :
    val_main_v22 (F := Ideal) x1 (ix2 e (0 : Fin 1)) = Cert.Gcn.wrapW (Cert.Gcn.rowW x1 e) := by
  have h : idx_main_v22 (ix2 e (0 : Fin 1)) = ix1 e := funext fun a => by
    match a with
    | ⟨0, _⟩ => rfl
  rw [val_main_v22_apply, h, v21_eq]

/-- The index column of the second gather. -/
theorem v30_eq (e : Fin 1700000) :
    val_main_v30 (F := Ideal) x1 (ix2 e (0 : Fin 1)) = Cert.Gcn.wrapW (Cert.Gcn.colW x1 e) := by
  have h : idx_main_v30 (ix2 e (0 : Fin 1)) = ix1 e := funext fun a => by
    match a with
    | ⟨0, _⟩ => rfl
  rw [val_main_v30_apply, h, v29_eq]

/-- The gather of a 100000-vector at a column of 1700000 index words whose entry e is the wrapped word of w reads the
    vector at the node of w. -/
theorem gather_node (x : S100000.Idx → EReal) (idx : IVec S1700000x1 32) (e : Fin 1700000) (w : BitVec 32)
    (hw : idx (ix2 e (0 : Fin 1)) = Cert.Gcn.wrapW w) :
    Host.gather gather_S100000_S1700000x1_S1700000_n_0_n_n_0_1_1 x idx (ix1 e) = x (ix1 (Cert.Gcn.nodeOf w)) := by
  rw [gather_vec_apply (by decide) gather_S100000_S1700000x1_S1700000_n_0_n_n_0_1_1 rfl rfl rfl rfl rfl rfl rfl]
  congr 2
  refine Fin.ext ?_
  show min (idx (ix2 e (0 : Fin 1))).toInt.toNat (100000 - 1) = min (Cert.Gcn.wrapW w).toInt.toNat 99999
  rw [hw]

/-- dinv read at the source of edge e. -/
theorem v23_eq (e : Fin 1700000) : val_main_v23 (F := Ideal) x1 x2 (ix1 e)
    = Cert.Gcn.dinvOf (Cert.Gcn.degOf x1 x2 (Cert.Gcn.nodeOf (Cert.Gcn.rowW x1 e))) := by
  unfold val_main_v23
  rw [gather_node _ _ e _ (v22_eq x1 e), dinv_eq]

/-- dinv read at the target of edge e. -/
theorem v31_eq (e : Fin 1700000) : val_main_v31 (F := Ideal) x1 x2 (ix1 e)
    = Cert.Gcn.dinvOf (Cert.Gcn.degOf x1 x2 (Cert.Gcn.nodeOf (Cert.Gcn.colW x1 e))) := by
  unfold val_main_v31
  rw [gather_node _ _ e _ (v30_eq x1 e), dinv_eq]

/-- The normalised weight of edge e. -/
theorem nrm_eq (e : Fin 1700000) : val_main_v32 (F := Ideal) x1 x2 (ix1 e) = Cert.Gcn.nrmOf x1 x2 e := by
  unfold Cert.Gcn.nrmOf
  rw [val_main_v32_apply, val_main_v24_apply, Ideal.mulf_def, Ideal.mulf_def, v23_eq, v31_eq, w_eq]

end Cert.ReferenceIdeal.RefNorm

end
-- ==== Proof.LibRowGather.lean ====
/-
  A `stablehlo.gather` of WHOLE ROWS of a rank-2 operand, read at an index.

  What `x[idx]` of a table `x : [N, C]` at an integer vector `idx : [R]` lowers to: start indices `[R, 1]`, offset_dims
  `[1]`, collapsed_slice_dims `[0]`, start_index_map `[0]`, index_vector_dim `1`, slice sizes `[1, C]`. Result element
  `(r, j)` is the operand at row `idx[r, 0]` — read as a signed integer and clamped into `[0, N − 1]`, as the host gather
  clamps every start index — and column `j`.
-/
import Idealize.ShloMosaic.PureOps.Ideal
import Idealize.ShloMosaic.Lib.ValueIdx

noncomputable section

namespace Cert.LibRowGather

open Idealize.ShloMosaic Idealize.ShloMosaic.ValueIdx

variable {α : Type}

/-- Those dimension numbers for an operand `[N, C]`, start indices `[R, 1]` and result `[R, C]`; their conditions `wf`
    are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, j)`: the operand at the start index `idx[r, 0]`, read signed and clamped into
    `[0, N − 1]`, and at column `j`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowDims N C R wf) x idx y
      = x (ix2 (⟨min (idx (ix2 (⟨(y 0).val, idx2_lt0 y⟩ : Fin R) (0 : Fin 1))).toInt.toNat (N - 1), by omega⟩ : Fin N)
            (⟨(y 1).val, idx2_lt1 y⟩ : Fin C)) := by
  unfold Host.gather
  congr 1
  funext a
  refine Fin.ext ?_
  show (rowDims N C R wf).start y idx a + (rowDims N C R wf).batchCoord y a + (rowDims N C R wf).offCoord y a = _
  rw [GatherDims.batchCoord_eq_zero _ _ _ List.not_mem_nil]
  simp only [Nat.add_zero]
  match a with
  | ⟨0, _⟩ =>
    -- operand axis 0 (rows): in the start index map and collapsed, so the coordinate is the clamped start alone
    rw [GatherDims.offCoord_eq_zero _ _ _ (fun h => ((GatherDims.mem_sKept _ _).mp h).1 (List.mem_singleton.mpr rfl))]
    simp only [Nat.add_zero]
    unfold GatherDims.start
    rw [dif_pos (show (⟨0, by omega⟩ : Fin 2) ∈ (rowDims N C R wf).startIndexMap from List.mem_singleton.mpr rfl)]
    have hsi : (rowDims N C R wf).siIdx y ⟨List.idxOf (⟨0, by omega⟩ : Fin 2) (rowDims N C R wf).startIndexMap,
        List.idxOf_lt_length_iff.2 (List.mem_singleton.mpr rfl)⟩
          = ix2 (⟨(y 0).val, idx2_lt0 y⟩ : Fin R) (0 : Fin 1) := by
      funext b; refine Fin.ext ?_
      match b with
      | ⟨0, _⟩ => rfl
      | ⟨1, _⟩ => rfl
    rw [hsi]
    rfl
  | ⟨1, h1⟩ =>
    -- operand axis 1 (columns): not in the start index map, so the start is 0; it is the one kept axis, read by the
    -- result's offset axis 1
    have hne : (⟨1, h1⟩ : Fin 2) ≠ 0 := fun h => Nat.one_ne_zero (congrArg Fin.val h)
    have hst : (rowDims N C R wf).start y idx ⟨1, h1⟩ = 0 := by
      unfold GatherDims.start
      rw [dif_neg (fun h => hne (List.mem_singleton.mp h))]
    have hk : (⟨1, h1⟩ : Fin 2) ∈ (rowDims N C R wf).sKept :=
      (GatherDims.mem_sKept _ _).mpr ⟨fun h => hne (List.mem_singleton.mp h), List.not_mem_nil⟩
    rw [hst, Nat.zero_add]
    unfold GatherDims.offCoord
    rw [dif_pos hk]
    rfl

end Cert.LibRowGather

end
-- ==== Proof.RefLayers.lean ====
/-
  THE REFERENCE PROGRAM'S RESULT at an entry: the node-major two-layer formula.

  Each layer multiplies the node features by the weights, gathers the source row of every edge, scales it by the
  edge's normalised weight, sums the rows onto their targets (a scatter-add onto zeros) and adds the bias; a rectifier
  sits between the layers. With every index word a node number below 100000 the gather's wrap and clamp do nothing and
  "the target word reads n" is "the target is n".
-/
import proofs.«429796_j5497558139162_1_alg».proof.Proof.Gen.ReferenceIdeal.Read
import proofs.«429796_j5497558139162_1_alg».proof.Proof.Spec
import proofs.«429796_j5497558139162_1_alg».proof.Proof.Edges
import proofs.«429796_j5497558139162_1_alg».proof.Proof.RefNorm
import proofs.«429796_j5497558139162_1_alg».proof.Proof.LibScatterRows
import proofs.«429796_j5497558139162_1_alg».proof.Proof.LibRowGather
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx

namespace Cert.ReferenceIdeal.RefLayers

open Cert.ReferenceIdeal Cert.ReferenceIdeal.Gen Cert.ReferenceIdeal.Read
open scoped BigOperators

/-! ## Index words below 100000

A word whose natural number is below 100000 has its top bit clear: read signed it is that number, the wrap
(add 100000 where negative) leaves it alone, and the clamp into [0, 99999] does too. -/

/-- Read signed, a word below 100000 is its natural number. -/
theorem toInt_of_lt (w : BitVec 32) (h : w.toNat < 100000) : w.toInt = (w.toNat : ℤ) := by
  have e := BitVec.toInt_eq_toNat_cond w
  omega

/-- The wrap leaves a word below 100000 alone: it is not negative. -/
theorem wrapW_of_lt (w : BitVec 32) (h : w.toNat < 100000) : Cert.Gcn.wrapW w = w := by
  have hlt : w.slt 0#32 = false := by
    simp only [BitVec.slt, BitVec.toInt_zero, decide_eq_false_iff_not, Int.not_lt]
    rw [toInt_of_lt w h]
    exact Int.natCast_nonneg _
  show (if BitVec.ofBool (w.slt 0#32) = 1 then IntOp.addi w 100000#32 else w) = w
  rw [hlt]
  rfl

/-- Wrapped, read signed and clamped into [0, 99999], a word below 100000 is still its natural number. -/
theorem clamp_of_lt (w : BitVec 32) (h : w.toNat < 100000) :
    min (Cert.Gcn.wrapW w).toInt.toNat (100000 - 1) = w.toNat := by
  rw [wrapW_of_lt w h, toInt_of_lt w h]
  omega

/-- A word below 100000 reads n, signed, exactly when its node is n. -/
theorem toInt_eq_iff (w : BitVec 32) (h : w.toNat < 100000) (n : Fin 100000) :
    w.toInt = (n.val : ℤ) ↔ (⟨w.toNat, h⟩ : Fin 100000) = n := by
  rw [toInt_of_lt w h]
  constructor
  · intro h'
    exact Fin.ext (by exact_mod_cast h')
  · intro h'
    subst h'
    rfl

/-! ## The two reads that depend on the index words, at any feature width -/

section Reads
variable {Fo : ℕ} (a1 : (⟨2, ![2, 1600000]⟩ : Shape).Idx → BitVec 32) (hr : ∀ i, (a1 i).toNat < 100000)

/-- THE GATHER OF THE SOURCE ROWS: with start words the wrapped source words, row e of the result is the table's row
    at the source of edge e. -/
theorem gather_read
    (wf : GatherDims.WF ⟨2, ![100000, Fo]⟩ ⟨2, ![1700000, 1]⟩ ⟨2, ![1700000, Fo]⟩ [1] [0] [] [0] [] 1 ![1, Fo])
    (h : (⟨2, ![100000, Fo]⟩ : Shape).Idx → EReal) (src : IVec ⟨2, ![1700000, 1]⟩ 32)
    (hsrc : ∀ e : Fin 1700000, src (ix2 e (0 : Fin 1)) = Cert.Gcn.wrapW (Cert.Gcn.rowW a1 e))
    (e : Fin 1700000) (f : Fin Fo) :
    Host.gather (Cert.LibRowGather.rowDims 100000 Fo 1700000 wf) h src (ix2 e f)
      = h (ix2 (Cert.Gcn.endN a1 hr 0 e) f) := by
  refine (Cert.LibRowGather.gather_rows_apply (by decide) wf h src (ix2 e f)).trans ?_
  refine congrArg h (funext fun a => ?_)
  match a with
  | ⟨0, _⟩ =>
    refine Fin.ext ?_
    show min (src (ix2 e (0 : Fin 1))).toInt.toNat (100000 - 1) = (Cert.Gcn.rowW a1 e).toNat
    rw [hsrc, clamp_of_lt _ (Cert.Gcn.endW_lt a1 hr 0 e)]
  | ⟨1, _⟩ => rfl

/-- THE SCATTER-ADD ONTO THE TARGETS: with index words the target words and a zero operand, entry (n, f) of the
    result is the sum of the updates of the edges whose target is n. -/
theorem scatter_read
    (d : ScatterDims ⟨2, ![100000, Fo]⟩ ⟨2, ![1700000, 1]⟩ ⟨2, ![1700000, Fo]⟩)
    (hu : d.updateWindowDims = [1]) (hi : d.insertedWindowDims = [0]) (hs : d.scatterDimsToOperandDims = [0])
    (hv : d.indexVectorDim = 1)
    (z : (⟨2, ![100000, Fo]⟩ : Shape).Idx → EReal) (tgt : IVec ⟨2, ![1700000, 1]⟩ 32)
    (upd : (⟨2, ![1700000, Fo]⟩ : Shape).Idx → EReal) (n : Fin 100000) (f : Fin Fo)
    (hz : z (ix2 n f) = 0)
    (htgt : ∀ e : Fin 1700000, tgt (ix2 e (0 : Fin 1)) = Cert.Gcn.colW a1 e)
    (u : Fin 1700000 → EReal) (hupd : ∀ e : Fin 1700000, upd (ix2 e f) = u e) :
    Host.scatterAdd (F := Ideal) (φ := .f32) d z tgt upd (ix2 n f)
      = 0 + ∑ e : Fin 1700000, if Cert.Gcn.endN a1 hr 1 e = n then u e else 0 := by
  show Ideal.hostScatterAdd d z tgt upd (ix2 n f) = _
  refine (Idealize.ShloMosaic.ScatterRows.scatterRows2_apply d hu hi hs hv z tgt upd n f).trans ?_
  rw [hz]
  refine congrArg (HAdd.hAdd (0 : EReal)) (Finset.sum_congr rfl fun e _ => ?_)
  rw [htgt, hupd]
  exact if_congr (toInt_eq_iff _ (Cert.Gcn.endW_lt a1 hr 1 e) n) rfl rfl

end Reads

/-- The layer formula, spelt out. -/
theorem refLayer_eq {Fi Fo : ℕ} (R C : Fin 1700000 → Fin 100000) (nrm : Fin 1700000 → EReal)
    (hin : Fin 100000 → Fin Fi → EReal) (W : Fin Fi → Fin Fo → EReal) (b : Fin Fo → EReal)
    (n : Fin 100000) (f : Fin Fo) :
    Cert.Gcn.refLayer R C nrm hin W b n f
      = (0 + ∑ e : Fin 1700000, if C e = n then nrm e * (∑ k : Fin Fi, hin (R e) k * W k f) else 0) + b f := rfl

/-- The two-layer formula is the layer formula at the rectified first layer. -/
theorem refOut_eq (x : Fin 100000 → Fin 128 → EReal) (W1 : Fin 128 → Fin 64 → EReal) (b1 : Fin 64 → EReal)
    (W2 : Fin 64 → Fin 32 → EReal) (b2 : Fin 32 → EReal) (R C : Fin 1700000 → Fin 100000)
    (nrm : Fin 1700000 → EReal) (n : Fin 100000) (f : Fin 32) :
    Cert.Gcn.refOut x W1 b1 W2 b2 R C nrm n f
      = Cert.Gcn.refLayer R C nrm (fun n' f' => max (Cert.Gcn.refLayer R C nrm x W1 b1 n' f') 0) W2 b2 n f := rfl

variable (x0 : (⟨S100000x128, .f32⟩ : BufTy).Contents (Elt Ideal)) (x1 : (⟨S2x1600000, .i32⟩ : BufTy).Contents (Elt Ideal))
  (x2 : (⟨S1600000, .f32⟩ : BufTy).Contents (Elt Ideal)) (x3 : (⟨S128x64, .f32⟩ : BufTy).Contents (Elt Ideal))
  (x4 : (⟨S64, .f32⟩ : BufTy).Contents (Elt Ideal)) (x5 : (⟨S64x32, .f32⟩ : BufTy).Contents (Elt Ideal))
  (x6 : (⟨S32, .f32⟩ : BufTy).Contents (Elt Ideal))

/-! ## The first layer: operations 33 to 50 -/

/-- The product of the features and the first weights at (m, f). -/
theorem v33_eq (m : Fin 100000) (f : Fin 64) :
    val_main_v33 (F := Ideal) x0 x3 (ix2 m f) = ∑ k : Fin 128, x0 (ix2 m k) * x3 (ix2 k f) := by
  rw [val_main_v33_apply]
  refine Finset.sum_congr rfl fun k _ => ?_
  have hl : lidx_main_v33 (ix2 m f) k = ix2 m k := by
    funext a; match a with | ⟨0, _⟩ => rfl | ⟨1, _⟩ => rfl
  have hr' : ridx_main_v33 (ix2 m f) k = ix2 k f := by
    funext a; match a with | ⟨0, _⟩ => rfl | ⟨1, _⟩ => rfl
  rw [hl, hr']

/-- The gather's start words are the wrapped source words. -/
theorem v40_eq (e : Fin 1700000) :
    val_main_v40 (F := Ideal) x1 (ix2 e (0 : Fin 1)) = Cert.Gcn.wrapW (Cert.Gcn.rowW x1 e) := by
  rw [val_main_v40_apply]
  have hi : idx_main_v40 (ix2 e (0 : Fin 1)) = ix1 e := by
    funext a; match a with | ⟨0, _⟩ => rfl
  rw [hi, val_main_v39_apply, val_main_v36_apply, val_main_v38_apply, val_main_v35_apply, val_main_v37_apply,
    val_main_c_6_apply, val_main_c_7_apply, RefNorm.row_eq]
  rfl

/-- The normalised weights, copied along the feature axis. -/
theorem v42_eq (e : Fin 1700000) (f : Fin 64) :
    val_main_v42 (F := Ideal) x1 x2 (ix2 e f) = Cert.Gcn.nrmOf x1 x2 e := by
  rw [val_main_v42_apply, val_main_v34_apply]
  have hi : idx_main_v34 (idx_main_v42 (ix2 e f)) = ix1 e := by
    funext a; match a with | ⟨0, _⟩ => rfl
  rw [hi, RefNorm.nrm_eq]

/-- The scatter's index words are the target words. -/
theorem v45_eq (e : Fin 1700000) :
    val_main_v45 (F := Ideal) x1 (ix2 e (0 : Fin 1)) = Cert.Gcn.colW x1 e := by
  rw [val_main_v45_apply]
  have hi : idx_main_v45 (ix2 e (0 : Fin 1)) = ix1 e := by
    funext a; match a with | ⟨0, _⟩ => rfl
  rw [hi, RefNorm.col_eq]

/-- The scatter's operand is zero everywhere. -/
theorem v44_eq (i : S100000x64.Idx) : val_main_v44 (F := Ideal) i = (0 : EReal) := by
  rw [val_main_v44_apply, val_main_cst_8_apply, Ideal.ofBits_def, Ideal.ofBits_zero_f32]

/-- The bias, copied along the node axis. -/
theorem v48_eq (n : Fin 100000) (f : Fin 64) : val_main_v48 (F := Ideal) x4 (ix2 n f) = x4 (ix1 f) := by
  rw [val_main_v48_apply, val_main_v47_apply]
  have hi : idx_main_v47 (idx_main_v48 (ix2 n f)) = ix1 f := by
    funext a; match a with | ⟨0, _⟩ => rfl
  rw [hi]

section Layer1
variable (hr : ∀ i, (x1 i).toNat < 100000)

/-- The message of edge e at feature f: its weight times the source's row of the product. -/
theorem v43_eq (e : Fin 1700000) (f : Fin 64) :
    val_main_v43 (F := Ideal) x0 x1 x2 x3 (ix2 e f)
      = Cert.Gcn.nrmOf x1 x2 e * ∑ k : Fin 128, x0 (ix2 (Cert.Gcn.endN x1 hr 0 e) k) * x3 (ix2 k f) := by
  rw [val_main_v43_apply, v42_eq]
  unfold val_main_v41
  have hd : gather_S100000x64_S1700000x1_S1700000x64_1_0_n_n_0_1_164
      = Cert.LibRowGather.rowDims 100000 64 1700000 gather_S100000x64_S1700000x1_S1700000x64_1_0_n_n_0_1_164_wf := rfl
  rw [hd, gather_read x1 hr _ _ _ (v40_eq x1), v33_eq]
  rfl

/-- The aggregate of the first layer at (n, f): the messages of the edges whose target is n, summed onto zero. -/
theorem v46_eq (n : Fin 100000) (f : Fin 64) :
    val_main_v46 (F := Ideal) x0 x1 x2 x3 (ix2 n f)
      = 0 + ∑ e : Fin 1700000, if Cert.Gcn.endN x1 hr 1 e = n then
          Cert.Gcn.nrmOf x1 x2 e * ∑ k : Fin 128, x0 (ix2 (Cert.Gcn.endN x1 hr 0 e) k) * x3 (ix2 k f) else 0 := by
  have h1 : scatter_S100000x64_S1700000x1_S1700000x64_1_0_0_1.updateWindowDims = [1] := rfl
  have h2 : scatter_S100000x64_S1700000x1_S1700000x64_1_0_0_1.insertedWindowDims = [0] := rfl
  have h3 : scatter_S100000x64_S1700000x1_S1700000x64_1_0_0_1.scatterDimsToOperandDims = [0] := rfl
  have h4 : scatter_S100000x64_S1700000x1_S1700000x64_1_0_0_1.indexVectorDim = 1 := rfl
  have hs := scatter_read (Fo := 64) x1 hr scatter_S100000x64_S1700000x1_S1700000x64_1_0_0_1 h1 h2 h3 h4
    (val_main_v44 (F := Ideal)) (val_main_v45 (F := Ideal) x1) (val_main_v43 (F := Ideal) x0 x1 x2 x3) n f
    (v44_eq _) (v45_eq x1)
    (fun e => Cert.Gcn.nrmOf x1 x2 e * ∑ k : Fin 128, x0 (ix2 (Cert.Gcn.endN x1 hr 0 e) k) * x3 (ix2 k f))
    (fun e => v43_eq x0 x1 x2 x3 hr e f)
  unfold val_main_v46
  exact hs

/-- THE FIRST LAYER before its rectifier is the layer formula at the inputs, the first weights and the first bias. -/
theorem v49_eq (n : Fin 100000) (f : Fin 64) :
    val_main_v49 (F := Ideal) x0 x1 x2 x3 x4 (ix2 n f)
      = Cert.Gcn.refLayer (Cert.Gcn.endN x1 hr 0) (Cert.Gcn.endN x1 hr 1) (Cert.Gcn.nrmOf x1 x2)
          (fun n' k => x0 (ix2 n' k)) (fun k f' => x3 (ix2 k f')) (fun f' => x4 (ix1 f')) n f := by
  rw [val_main_v49_apply, v46_eq x0 x1 x2 x3 hr, v48_eq, Ideal.addf_def, refLayer_eq]

/-- The first layer's result: the rectified formula. -/
theorem v50_eq (n : Fin 100000) (f : Fin 64) :
    val_main_v50 (F := Ideal) x0 x1 x2 x3 x4 (ix2 n f)
      = max (Cert.Gcn.refLayer (Cert.Gcn.endN x1 hr 0) (Cert.Gcn.endN x1 hr 1) (Cert.Gcn.nrmOf x1 x2)
          (fun n' k => x0 (ix2 n' k)) (fun k f' => x3 (ix2 k f')) (fun f' => x4 (ix1 f')) n f) 0 := by
  rw [val_main_v50_apply, v49_eq x0 x1 x2 x3 x4 hr, val_main_call1_v0_apply, val_main_call1_cst_apply,
    Ideal.ofBits_def, Ideal.ofBits_zero_f32, Ideal.maximumf_def]

end Layer1

/-! ## The second layer: operations 51 to 67 -/

/-- The gather's start words are the wrapped source words. -/
theorem v58_eq (e : Fin 1700000) :
    val_main_v58 (F := Ideal) x1 (ix2 e (0 : Fin 1)) = Cert.Gcn.wrapW (Cert.Gcn.rowW x1 e) := by
  rw [val_main_v58_apply]
  have hi : idx_main_v58 (ix2 e (0 : Fin 1)) = ix1 e := by
    funext a; match a with | ⟨0, _⟩ => rfl
  rw [hi, val_main_v57_apply, val_main_v54_apply, val_main_v56_apply, val_main_v53_apply, val_main_v55_apply,
    val_main_c_9_apply, val_main_c_10_apply, RefNorm.row_eq]
  rfl

/-- The normalised weights, copied along the feature axis. -/
theorem v60_eq (e : Fin 1700000) (f : Fin 32) :
    val_main_v60 (F := Ideal) x1 x2 (ix2 e f) = Cert.Gcn.nrmOf x1 x2 e := by
  rw [val_main_v60_apply, val_main_v52_apply]
  have hi : idx_main_v52 (idx_main_v60 (ix2 e f)) = ix1 e := by
    funext a; match a with | ⟨0, _⟩ => rfl
  rw [hi, RefNorm.nrm_eq]

/-- The scatter's index words are the target words. -/
theorem v63_eq (e : Fin 1700000) :
    val_main_v63 (F := Ideal) x1 (ix2 e (0 : Fin 1)) = Cert.Gcn.colW x1 e := by
  rw [val_main_v63_apply]
  have hi : idx_main_v63 (ix2 e (0 : Fin 1)) = ix1 e := by
    funext a; match a with | ⟨0, _⟩ => rfl
  rw [hi, RefNorm.col_eq]

/-- The scatter's operand is zero everywhere. -/
theorem v62_eq (i : S100000x32.Idx) : val_main_v62 (F := Ideal) i = (0 : EReal) := by
  rw [val_main_v62_apply, val_main_cst_11_apply, Ideal.ofBits_def, Ideal.ofBits_zero_f32]

/-- The bias, copied along the node axis. -/
theorem v66_eq (n : Fin 100000) (f : Fin 32) : val_main_v66 (F := Ideal) x6 (ix2 n f) = x6 (ix1 f) := by
  rw [val_main_v66_apply, val_main_v65_apply]
  have hi : idx_main_v65 (idx_main_v66 (ix2 n f)) = ix1 f := by
    funext a; match a with | ⟨0, _⟩ => rfl
  rw [hi]

section Layer2
variable (hr : ∀ i, (x1 i).toNat < 100000)

/-- The product of the rectified first layer and the second weights at (m, f). -/
theorem v51_eq (m : Fin 100000) (f : Fin 32) :
    val_main_v51 (F := Ideal) x0 x1 x2 x3 x4 x5 (ix2 m f)
      = ∑ k : Fin 64, max (Cert.Gcn.refLayer (Cert.Gcn.endN x1 hr 0) (Cert.Gcn.endN x1 hr 1) (Cert.Gcn.nrmOf x1 x2)
          (fun n' k' => x0 (ix2 n' k')) (fun k' f' => x3 (ix2 k' f')) (fun f' => x4 (ix1 f')) m k) 0 * x5 (ix2 k f) := by
  rw [val_main_v51_apply]
  refine Finset.sum_congr rfl fun k _ => ?_
  have hl : lidx_main_v51 (ix2 m f) k = ix2 m k := by
    funext a; match a with | ⟨0, _⟩ => rfl | ⟨1, _⟩ => rfl
  have hr' : ridx_main_v51 (ix2 m f) k = ix2 k f := by
    funext a; match a with | ⟨0, _⟩ => rfl | ⟨1, _⟩ => rfl
  rw [hl, hr', v50_eq x0 x1 x2 x3 x4 hr]

/-- The message of edge e at feature f: its weight times the source's row of the product. -/
theorem v61_eq (e : Fin 1700000) (f : Fin 32) :
    val_main_v61 (F := Ideal) x0 x1 x2 x3 x4 x5 (ix2 e f)
      = Cert.Gcn.nrmOf x1 x2 e * ∑ k : Fin 64,
          max (Cert.Gcn.refLayer (Cert.Gcn.endN x1 hr 0) (Cert.Gcn.endN x1 hr 1) (Cert.Gcn.nrmOf x1 x2)
            (fun n' k' => x0 (ix2 n' k')) (fun k' f' => x3 (ix2 k' f')) (fun f' => x4 (ix1 f'))
            (Cert.Gcn.endN x1 hr 0 e) k) 0 * x5 (ix2 k f) := by
  rw [val_main_v61_apply, v60_eq]
  unfold val_main_v59
  have hd : gather_S100000x32_S1700000x1_S1700000x32_1_0_n_n_0_1_132
      = Cert.LibRowGather.rowDims 100000 32 1700000 gather_S100000x32_S1700000x1_S1700000x32_1_0_n_n_0_1_132_wf := rfl
  rw [hd, gather_read x1 hr _ _ _ (v58_eq x1), v51_eq x0 x1 x2 x3 x4 x5 hr]
  rfl

/-- The aggregate of the second layer at (n, f): the messages of the edges whose target is n, summed onto zero. -/
theorem v64_eq (n : Fin 100000) (f : Fin 32) :
    val_main_v64 (F := Ideal) x0 x1 x2 x3 x4 x5 (ix2 n f)
      = 0 + ∑ e : Fin 1700000, if Cert.Gcn.endN x1 hr 1 e = n then
          Cert.Gcn.nrmOf x1 x2 e * ∑ k : Fin 64,
            max (Cert.Gcn.refLayer (Cert.Gcn.endN x1 hr 0) (Cert.Gcn.endN x1 hr 1) (Cert.Gcn.nrmOf x1 x2)
              (fun n' k' => x0 (ix2 n' k')) (fun k' f' => x3 (ix2 k' f')) (fun f' => x4 (ix1 f'))
              (Cert.Gcn.endN x1 hr 0 e) k) 0 * x5 (ix2 k f) else 0 := by
  have h1 : scatter_S100000x32_S1700000x1_S1700000x32_1_0_0_1.updateWindowDims = [1] := rfl
  have h2 : scatter_S100000x32_S1700000x1_S1700000x32_1_0_0_1.insertedWindowDims = [0] := rfl
  have h3 : scatter_S100000x32_S1700000x1_S1700000x32_1_0_0_1.scatterDimsToOperandDims = [0] := rfl
  have h4 : scatter_S100000x32_S1700000x1_S1700000x32_1_0_0_1.indexVectorDim = 1 := rfl
  have hs := scatter_read (Fo := 32) x1 hr scatter_S100000x32_S1700000x1_S1700000x32_1_0_0_1 h1 h2 h3 h4
    (val_main_v62 (F := Ideal)) (val_main_v63 (F := Ideal) x1) (val_main_v61 (F := Ideal) x0 x1 x2 x3 x4 x5) n f
    (v62_eq _) (v63_eq x1)
    (fun e => Cert.Gcn.nrmOf x1 x2 e * ∑ k : Fin 64,
      max (Cert.Gcn.refLayer (Cert.Gcn.endN x1 hr 0) (Cert.Gcn.endN x1 hr 1) (Cert.Gcn.nrmOf x1 x2)
        (fun n' k' => x0 (ix2 n' k')) (fun k' f' => x3 (ix2 k' f')) (fun f' => x4 (ix1 f'))
        (Cert.Gcn.endN x1 hr 0 e) k) 0 * x5 (ix2 k f))
    (fun e => v61_eq x0 x1 x2 x3 x4 x5 hr e f)
  unfold val_main_v64
  exact hs

end Layer2

/-- THE RESULT AT (n, f), every index word below 100000: the node-major two-layer formula over the edges' sources,
    targets and normalised weights. -/
theorem ref_value (hr : ∀ i, (x1 i).toNat < 100000) (n : Fin 100000) (f : Fin 32) :
    val_main_v67 (F := Ideal) x0 x1 x2 x3 x4 x5 x6 (ix2 n f)
      = Cert.Gcn.refOut (fun n' k => x0 (ix2 n' k)) (fun k f' => x3 (ix2 k f')) (fun f' => x4 (ix1 f'))
          (fun k f' => x5 (ix2 k f')) (fun f' => x6 (ix1 f'))
          (Cert.Gcn.endN x1 hr 0) (Cert.Gcn.endN x1 hr 1) (Cert.Gcn.nrmOf x1 x2) n f := by
  rw [val_main_v67_apply, v64_eq x0 x1 x2 x3 x4 x5 hr, v66_eq, Ideal.addf_def, refOut_eq, refLayer_eq]

end Cert.ReferenceIdeal.RefLayers

end
-- ==== Proof.Math.lean ====
/-
  The feature-major arrangement of the two-layer graph convolution computes the node-major one.

  One layer, feature-major, at a node n < 100000 and a feature f, is

      (∑ e : Fin 1701888, ((∑ j : Fin 100352, hT f j · [j = row e]) · nrm e) · [col e = n]) + b f ,
      hT f j = ∑ k, W k f · xT k j .

  Three facts turn it into the node-major formula:
  * a sum against a one-hot weight keeps exactly one term, because distinct numbers below 2^32 are
    distinct 32-bit words, and x · 1 = x, x · 0 = 0 for every extended real x, the infinities included;
  * the padded edges e ≥ 1700000 carry the weight 0, so each of their messages is (…) · 0 = 0;
  * every source word is below 100000, so the padded columns of the feature table are never picked.
  The layer statement is proved once for arbitrary feature counts and used for both layers.
-/
import proofs.«429796_j5497558139162_1_alg».proof.Proof.Spec
import Mathlib.Algebra.BigOperators.Fin
import Mathlib.Data.EReal.Basic

noncomputable section

open scoped BigOperators

namespace Cert.Gcn

/-- The one-hot weight of a true condition is 1. -/
theorem hot_of_true {p : Prop} [Decidable p] (h : p) : hot p = 1 := if_pos h

/-- The one-hot weight of a false condition is 0. -/
theorem hot_of_false {p : Prop} [Decidable p] (h : ¬ p) : hot p = 0 := if_neg h

/-- Two numbers below 2^32 with the same 32-bit word are equal. -/
theorem eq_of_word_eq {a b : ℕ} (ha : a < 2 ^ 32) (hb : b < 2 ^ 32)
    (h : BitVec.ofNat 32 a = BitVec.ofNat 32 b) : a = b := by
  have h' := congrArg BitVec.toNat h
  rw [BitVec.toNat_ofNat, BitVec.toNat_ofNat, Nat.mod_eq_of_lt ha, Nat.mod_eq_of_lt hb] at h'
  exact h'

/-- A sum against the one-hot weight of the word of r keeps the term number r. -/
theorem sum_mul_hot_word {NP : ℕ} (hNP : NP ≤ 2 ^ 32) (h : Fin NP → EReal) (r : ℕ) (hr : r < NP) :
    ∑ j : Fin NP, h j * hot (BitVec.ofNat 32 j.val = BitVec.ofNat 32 r) = h ⟨r, hr⟩ := by
  rw [Finset.sum_eq_single (⟨r, hr⟩ : Fin NP)]
  · rw [hot_of_true rfl, mul_one]
  · intro j _ hj
    rw [hot_of_false, mul_zero]
    intro hEq
    apply hj
    apply Fin.ext
    exact eq_of_word_eq (lt_of_lt_of_le j.isLt hNP) (lt_of_lt_of_le hr hNP) hEq
  · intro hnot
    exact absurd (Finset.mem_univ _) hnot

/-- A sum over Fin N whose terms vanish from index a on is the sum of its first a terms. -/
theorem sum_eq_sum_prefix {a N : ℕ} (haN : a ≤ N) (g : Fin N → EReal)
    (hz : ∀ e : Fin N, a ≤ e.val → g e = 0) :
    ∑ e : Fin N, g e = ∑ e : Fin a, g ⟨e.val, lt_of_lt_of_le e.isLt haN⟩ := by
  obtain ⟨b, rfl⟩ := Nat.exists_eq_add_of_le haN
  have htail : ∑ i : Fin b, g (Fin.natAdd a i) = 0 :=
    Finset.sum_eq_zero (fun i _ => hz _ (Nat.le_add_right a i.val))
  rw [Fin.sum_univ_add, htail, add_zero]
  rfl

section Layer
variable {Fi Fo : ℕ} (R C : Fin 1700000 → Fin 100000) (nrm : Fin 1700000 → EReal)
  (rowP colP : Fin 1701888 → BitVec 32) (nrmP : Fin 1701888 → EReal)
  (hrow : ∀ e : Fin 1701888,
    rowP e = BitVec.ofNat 32 (if h : e.val < 1700000 then (R ⟨e.val, h⟩).val else 0))
  (hcol : ∀ e : Fin 1701888,
    colP e = BitVec.ofNat 32 (if h : e.val < 1700000 then (C ⟨e.val, h⟩).val else 0))
  (hnrm : ∀ e : Fin 1701888, nrmP e = if h : e.val < 1700000 then nrm ⟨e.val, h⟩ else 0)
  (hin : Fin 100000 → Fin Fi → EReal) (xT : Fin Fi → Fin 100352 → EReal)
  (hx : ∀ (k : Fin Fi) (j : Fin 100000), xT k ⟨j.val, Nat.lt_trans j.isLt (by decide)⟩ = hin j k)
  (W : Fin Fi → Fin Fo → EReal)

include hnrm in
/-- A padded edge sends the message 0 to every column. -/
theorem message_padded (f : Fin Fo) (n : ℕ) (e : Fin 1701888) (he : 1700000 ≤ e.val) :
    gatherT (projT (fun f' k => W k f') xT) rowP nrmP f e * hot (colP e = BitVec.ofNat 32 n) = 0 := by
  unfold gatherT
  rw [hnrm, dif_neg (Nat.not_lt.2 he), mul_zero, zero_mul]

include hrow hcol hnrm hx in
/-- A true edge e sends nrm e · (hin (R e) · W) to the column of its target and 0 to the others. -/
theorem message_true (f : Fin Fo) (n : Fin 100000) (e : Fin 1700000) :
    gatherT (projT (fun f' k => W k f') xT) rowP nrmP f ⟨e.val, Nat.lt_trans e.isLt (by decide)⟩
        * hot (colP ⟨e.val, Nat.lt_trans e.isLt (by decide)⟩ = BitVec.ofNat 32 n.val)
      = if C e = n then nrm e * (∑ k : Fin Fi, hin (R e) k * W k f) else 0 := by
  have he : (⟨e.val, Nat.lt_trans e.isLt (by decide)⟩ : Fin 1701888).val < 1700000 := e.isLt
  unfold gatherT
  rw [hrow, hcol, hnrm, dif_pos he, dif_pos he, dif_pos he]
  change (∑ j : Fin 100352, projT (fun f' k => W k f') xT f j
      * hot (BitVec.ofNat 32 j.val = BitVec.ofNat 32 (R e).val)) * nrm e
      * hot (BitVec.ofNat 32 (C e).val = BitVec.ofNat 32 n.val) = _
  rw [sum_mul_hot_word (by decide) _ (R e).val (Nat.lt_trans (R e).isLt (by decide))]
  have hproj : projT (fun f' k => W k f') xT f ⟨(R e).val, Nat.lt_trans (R e).isLt (by decide)⟩
      = ∑ k : Fin Fi, hin (R e) k * W k f := by
    unfold projT
    exact Finset.sum_congr rfl (fun k _ => by rw [hx k (R e), mul_comm])
  rw [hproj]
  by_cases hC : C e = n
  · rw [if_pos hC, hot_of_true (by rw [hC]), mul_one, mul_comm]
  · rw [if_neg hC, hot_of_false, mul_zero]
    intro hEq
    apply hC
    apply Fin.ext
    exact eq_of_word_eq (Nat.lt_trans (C e).isLt (by decide)) (Nat.lt_trans n.isLt (by decide)) hEq

include hrow hcol hnrm hx in
/-- One feature-major layer, read at a node n < 100000, is the node-major layer. -/
theorem layerT_eq_refLayer (b : Fin Fo → EReal) (n : Fin 100000) (f : Fin Fo) :
    scatterT (NP := 100352) (gatherT (projT (fun f' k => W k f') xT) rowP nrmP) colP b f
        ⟨n.val, Nat.lt_trans n.isLt (by decide)⟩
      = refLayer R C nrm hin W b n f := by
  unfold scatterT refLayer
  rw [zero_add]
  refine congrArg (fun s => s + b f) ?_
  refine (sum_eq_sum_prefix (a := 1700000) (N := 1701888) (by decide) _
    (fun e he => message_padded nrm rowP colP nrmP hnrm xT W f n.val e he)).trans ?_
  exact Finset.sum_congr rfl
    (fun e _ => message_true R C nrm rowP colP nrmP hrow hcol hnrm hin xT hx W f n e)

end Layer

/-- The feature-major arrangement of the two layers, read at a node n < 100000, is the node-major one. -/
theorem kerOut_eq_refOut (x : Fin 100000 → Fin 128 → EReal) (W1 : Fin 128 → Fin 64 → EReal) (b1 : Fin 64 → EReal)
    (W2 : Fin 64 → Fin 32 → EReal) (b2 : Fin 32 → EReal)
    (R C : Fin 1700000 → Fin 100000) (nrm : Fin 1700000 → EReal)
    (rowP colP : Fin 1701888 → BitVec 32) (nrmP : Fin 1701888 → EReal)
    (hrow : ∀ e : Fin 1701888, rowP e = BitVec.ofNat 32 (if h : e.val < 1700000 then (R ⟨e.val, h⟩).val else 0))
    (hcol : ∀ e : Fin 1701888, colP e = BitVec.ofNat 32 (if h : e.val < 1700000 then (C ⟨e.val, h⟩).val else 0))
    (hnrm : ∀ e : Fin 1701888, nrmP e = if h : e.val < 1700000 then nrm ⟨e.val, h⟩ else 0)
    (n : Fin 100000) (f : Fin 32) :
    kerOut x W1 b1 W2 b2 rowP colP nrmP n f = refOut x W1 b1 W2 b2 R C nrm n f := by
  unfold kerOut refOut
  refine layerT_eq_refLayer R C nrm rowP colP nrmP hrow hcol hnrm
    (fun n' f' => max (refLayer R C nrm x W1 b1 n' f') 0) (kerHidden x W1 b1 rowP colP nrmP) ?_ W2 b2 n f
  intro k j
  unfold kerHidden
  rw [layerT_eq_refLayer R C nrm rowP colP nrmP hrow hcol hnrm x (padT x)
    (fun k' j' => by unfold padT; exact dif_pos j'.isLt) W1 b1 j k]

end Cert.Gcn

end
-- ==== Proof.PreRange.lean ====
/-
  The precondition read at its last conjunct. The printed predicate is a chain of conjunctions of one-bit words; its last
  conjunct is the conjunction, over every position of the [2 x 1600000] index table, of (0 <= word, signed) and
  (word < 100000, signed). When the whole predicate is 1, that conjunct is 1, so each position's bit is 1, so each word
  lies in [0, 100000) read signed. Such a word has its top bit clear: it is below 100000 read unsigned, and its signed
  and unsigned readings agree.
-/
import proofs.«429796_j5497558139162_1_alg».proof.Pre_finite_inputs
import Idealize.ShloMosaic.Lib.ReduceAll
import Idealize.ShloMosaic.Lib.ValueIdx

noncomputable section

namespace Cert.PreRange

open Idealize.ShloMosaic

/-- The rank-0 shape has one index. -/
instance : Subsingleton Cert.Pre_finite_inputs.S_.Idx := ⟨fun a b => funext fun d => d.elim0⟩

/-- A 32-bit word in [0, 100000) read signed is below 100000 read unsigned, and the two readings agree. -/
theorem word_range (w : BitVec 32) (h0 : IntOp.cmpi .sge w 0#32 = 1#1) (h1 : IntOp.cmpi .slt w 100000#32 = 1#1) :
    w.toNat < 100000 ∧ w.toInt = (w.toNat : ℤ) := by
  rw [IntOp.cmpi_sge, show (0#32 : BitVec 32).toInt = 0 from by decide] at h0
  rw [IntOp.cmpi_slt, show (100000#32 : BitVec 32).toInt = 100000 from by decide] at h1
  have hlt := w.isLt
  have hc := BitVec.toInt_eq_toNat_cond w
  split at hc <;> omega

/-- Every word of the index table is in range when the precondition holds. -/
theorem index_range [hP : Cert.Pre_finite_inputs.Facts]
    (a0 : FVec Ideal Cert.Pre_finite_inputs.S100000x128 .f32) (a1 : IVec Cert.Pre_finite_inputs.S2x1600000 32)
    (a2 : FVec Ideal Cert.Pre_finite_inputs.S1600000 .f32) (a3 : FVec Ideal Cert.Pre_finite_inputs.S128x64 .f32)
    (a4 : FVec Ideal Cert.Pre_finite_inputs.S64 .f32) (a5 : FVec Ideal Cert.Pre_finite_inputs.S64x32 .f32)
    (a6 : FVec Ideal Cert.Pre_finite_inputs.S32 .f32)
    (h : Cert.Pre_finite_inputs.fn (F := Ideal) a0 a1 a2 a3 a4 a5 a6 = fun _ => 1#1)
    (i : Cert.Pre_finite_inputs.S2x1600000.Idx) :
    (a1 i).toNat < 100000 ∧ (a1 i).toInt = ((a1 i).toNat : ℤ) := by
  -- the predicate at its one index
  have e := congrFun h ValueIdx.ix0
  dsimp only [Cert.Pre_finite_inputs.fn, Cert.Pre_finite_inputs.fn_part1, Cert.Pre_finite_inputs.fn_part2] at e
  -- the outermost conjunction: its right operand is the conjunction over the index table
  have eall := (IntOp.andi_eq_one.1 e).2
  -- that conjunction is 1, so the bit at position i is 1
  have ei := Host.reduce_andi_all _ _ _ _ _ eall i
  -- the bit at i is (0 <= a1 i) and (a1 i < 100000), each compare against a broadcast scalar constant
  obtain ⟨hge, hlt⟩ := IntOp.andi_eq_one.1 ei
  exact word_range (a1 i) hge hlt

end Cert.PreRange

end
-- ==== Proof.lean ====
/-
  A two-layer graph convolution (GCNConv with self loops and symmetric normalisation) computed feature-major by six
  TPU kernels, against its node-major jnp reference: equal results over the extended reals, for finite float inputs
  and edge words that are node numbers (0 ≤ edge_index < 100000).

  The kernel program keeps every node table transposed, [features, nodes], pads the node axis to 100352 and the edge
  axis to 1701888, and replaces both irregular steps by dense products with one-hot matrices: the gather of an edge's
  source row is the sum over ALL columns j of the column times [j = source word], and the scatter-add onto the targets
  is the sum over ALL edges e of the message times [target word = n]. In the extended reals x · 0 = 0 and x · 1 = x
  hold for every x, so each one-hot sum keeps exactly one term (the source is a node number, hence a column below
  100352) resp. exactly the edges whose target is n; the 1888 padding edges carry normalised weight (…) · 0 · (…) = 0
  and add 0 to node 0; the padded node columns are never picked because every source word is below 100000. What is
  left is the reference's formula, up to the order of factors. No distributive law is used, so finiteness of the
  floats is not needed; the range of the edge words is, because outside it the reference clamps an index where the
  kernel's one-hot sum picks nothing.

  Spec.lean states both arrangements over Fin-indexed functions; Math.lean proves them equal; Reg0 … Reg5 read the six
  regions' result arrays; KerChain threads them through the host operations between the regions; KerPrelude and
  RefNorm read the two programs' edge lists and normalised weights; RefLayers reads the reference's two layers;
  PreRange decodes the precondition's range conjunct. The frames are the generated frame certificates (in copies whose
  schedule facts over the two 40719-point grids are proved by arithmetic), the reference's frame its generated run.
-/
import proofs.«429796_j5497558139162_1_alg».proof.Defs
import proofs.«429796_j5497558139162_1_alg».proof.Proof.FrameK
import proofs.«429796_j5497558139162_1_alg».proof.Proof.RunV
import proofs.«429796_j5497558139162_1_alg».proof.Proof.KerChain
import proofs.«429796_j5497558139162_1_alg».proof.Proof.KerPrelude
import proofs.«429796_j5497558139162_1_alg».proof.Proof.RefLayers
import proofs.«429796_j5497558139162_1_alg».proof.Proof.Math
import proofs.«429796_j5497558139162_1_alg».proof.Proof.PreRange
import proofs.«429796_j5497558139162_1_alg».proof.Proof.Gen.ReferenceIdeal.Run
import proofs.«429796_j5497558139162_1_alg».proof.Proof.Gen.ReferenceIdeal.Read
import proofs.«429796_j5497558139162_1_alg».proof.Proof.Gen.Pre_finite_inputs

noncomputable section

namespace Cert.Proof

open Idealize.ShloMosaic Idealize.SL.Sem Idealize.ShloMosaic.ValueIdx

/-- The word-level kernel program runs and leaves its arguments: its frame certificate. -/
theorem frame_k : Cert.frame_Kernel := fun m ρ _ => Cert.Kernel.GenP.frame m ρ

/-- The idealized kernel program runs and leaves its arguments: its frame certificate. -/
theorem frame_ki : Cert.frame_KernelIdeal := fun m ρ _ => Cert.KernelIdeal.GenP.frame m ρ

/-- The reference runs and leaves its arguments: its run, the result dropped. -/
theorem frame_r : Cert.frame_ReferenceIdeal := fun m ρ _ =>
  (θ_run Cert.ReferenceIdeal.defs _ _).mono (fun _ h c => (h c).2) (Cert.ReferenceIdeal.Value.run (F := Ideal) m ρ)

section Algebraic

variable (m : (ℓ : Loc Cert.KernelIdeal.nD Cert.KernelIdeal.τ Cert.KernelIdeal.sig) → Buf (Elt Ideal) ℓ)

/-- The common result on core c: the node-major formula of the kernel program's argument arrays. -/
def result (c : Dev Cert.KernelIdeal.nD)
    (hr : ∀ i, (m ((c.tc : Thread Cert.KernelIdeal.nD Cert.KernelIdeal.τ).loc Cert.KernelIdeal.main_arg1) i).toNat < 100000) :
    Buf (Elt Ideal) ((c.tc : Thread Cert.KernelIdeal.nD Cert.KernelIdeal.τ).loc Cert.KernelIdeal.main_v58) :=
  fun j => Cert.Gcn.refOut
    (fun n k => m ((c.tc : Thread Cert.KernelIdeal.nD Cert.KernelIdeal.τ).loc Cert.KernelIdeal.main_arg0) (ix2 n k))
    (fun k f => m ((c.tc : Thread Cert.KernelIdeal.nD Cert.KernelIdeal.τ).loc Cert.KernelIdeal.main_arg3) (ix2 k f))
    (fun f => m ((c.tc : Thread Cert.KernelIdeal.nD Cert.KernelIdeal.τ).loc Cert.KernelIdeal.main_arg4) (ix1 f))
    (fun k f => m ((c.tc : Thread Cert.KernelIdeal.nD Cert.KernelIdeal.τ).loc Cert.KernelIdeal.main_arg5) (ix2 k f))
    (fun f => m ((c.tc : Thread Cert.KernelIdeal.nD Cert.KernelIdeal.τ).loc Cert.KernelIdeal.main_arg6) (ix1 f))
    (Cert.Gcn.endN (m ((c.tc : Thread Cert.KernelIdeal.nD Cert.KernelIdeal.τ).loc Cert.KernelIdeal.main_arg1)) hr 0)
    (Cert.Gcn.endN (m ((c.tc : Thread Cert.KernelIdeal.nD Cert.KernelIdeal.τ).loc Cert.KernelIdeal.main_arg1)) hr 1)
    (Cert.Gcn.nrmOf (m ((c.tc : Thread Cert.KernelIdeal.nD Cert.KernelIdeal.τ).loc Cert.KernelIdeal.main_arg1))
      (m ((c.tc : Thread Cert.KernelIdeal.nD Cert.KernelIdeal.τ).loc Cert.KernelIdeal.main_arg2)))
    ⟨(j 0).val, idx2_lt0 j⟩ ⟨(j 1).val, idx2_lt1 j⟩

end Algebraic

section Sides

variable (m : (ℓ : Loc Cert.KernelIdeal.nD Cert.KernelIdeal.τ Cert.KernelIdeal.sig) → Buf (Elt Ideal) ℓ)
  (ρ : Dev Cert.KernelIdeal.nD → PrngReg)

/-- THE KERNEL SIDE: the result buffer at the last boundary is the common result. The region chain gives the
    feature-major formula over the padded edge lists the host prelude leaves; those are the extended lists below
    1700000 and (word 0, word 0, weight 0) on the padding; the two arrangements agree. -/
theorem kernel_side (c : Dev Cert.KernelIdeal.nD)
    (hr : ∀ i, (m ((c.tc : Thread Cert.KernelIdeal.nD Cert.KernelIdeal.τ).loc Cert.KernelIdeal.main_arg1) i).toNat < 100000) :
    Cert.KernelIdeal.GenP.W17 (F := Ideal) m ρ c (Proc.devRef .tc Cert.KernelIdeal.main_v58) = result m c hr := by
  funext j
  obtain ⟨n, f, rfl⟩ : ∃ (n : Fin 100000) (f : Fin 32), j = ix2 n f := ⟨j 0, j 1, eq_ix2 j⟩
  refine (Cert.KernelIdeal.Chain.kernel_value m ρ c n f).trans ?_
  refine Cert.Gcn.kerOut_eq_refOut _ _ _ _ _
    (Cert.Gcn.endN (m ((c.tc : Thread Cert.KernelIdeal.nD Cert.KernelIdeal.τ).loc Cert.KernelIdeal.main_arg1)) hr 0) (Cert.Gcn.endN (m ((c.tc : Thread Cert.KernelIdeal.nD Cert.KernelIdeal.τ).loc Cert.KernelIdeal.main_arg1)) hr 1)
    (Cert.Gcn.nrmOf (m ((c.tc : Thread Cert.KernelIdeal.nD Cert.KernelIdeal.τ).loc Cert.KernelIdeal.main_arg1)) (m ((c.tc : Thread Cert.KernelIdeal.nD Cert.KernelIdeal.τ).loc Cert.KernelIdeal.main_arg2))) _ _ _ (fun e => ?_) (fun e => ?_) (fun e => ?_) n f
  · rw [Cert.KernelIdeal.Prelude.rowP_eq m ρ c e]
    split_ifs with h
    · exact Cert.Gcn.endW_eq_ofNat _ hr 0 ⟨e.val, h⟩
    · rfl
  · rw [Cert.KernelIdeal.Prelude.colP_eq m ρ c e]
    split_ifs with h
    · exact Cert.Gcn.endW_eq_ofNat _ hr 1 ⟨e.val, h⟩
    · rfl
  · exact Cert.KernelIdeal.Prelude.nrmP_eq m ρ c e

/-- THE REFERENCE SIDE: from a memory agreeing with the kernel program's on the arguments, the reference's result
    term is the common result. -/
theorem ref_side (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (hr : ∀ i, (m ((c.tc : Thread Cert.KernelIdeal.nD Cert.KernelIdeal.τ).loc Cert.KernelIdeal.main_arg1) i).toNat < 100000) :
    Cert.ReferenceIdeal.Value.res_main_v67 (F := Ideal) m' c = result m c hr := by
  rw [Cert.ReferenceIdeal.Read.val_main_v67_eq m' c, h0, h1, h2, h3, h4, h5, h6]
  funext j
  obtain ⟨n, f, rfl⟩ : ∃ (n : Fin 100000) (f : Fin 32), j = ix2 n f := ⟨j 0, j 1, eq_ix2 j⟩
  exact Cert.ReferenceIdeal.RefLayers.ref_value _ _ _ _ _ _ _ hr n f

end Sides

/-- The two idealized programs end with equal results: both at the node-major formula. -/
theorem algebraic : Cert.algebraic_KernelIdeal_ReferenceIdeal := by
  intro m ρ m' ρ' hpre hagree
  have hr : ∀ (c : Dev Cert.KernelIdeal.nD) i, (m ((c.tc : Thread Cert.KernelIdeal.nD Cert.KernelIdeal.τ).loc Cert.KernelIdeal.main_arg1) i).toNat < 100000 :=
    fun c i => (Cert.PreRange.index_range _ _ _ _ _ _ _ (hpre c) i).1
  refine ⟨fun c => result m c (hr c), ?_, ?_⟩
  · exact (θ_run Cert.KernelIdeal.defs _ _).mono
      (fun r h c => ⟨((h c).1).trans (kernel_side m ρ c (hr c)), (h c).2⟩) (Cert.KernelIdeal.RunV.run_value m ρ)
  · exact (θ_run Cert.ReferenceIdeal.defs _ _).mono
      (fun r h c => ⟨((h c).1).trans (ref_side m m' c (hagree c).1 (hagree c).2.1 (hagree c).2.2.1 (hagree c).2.2.2.1
        (hagree c).2.2.2.2.1 (hagree c).2.2.2.2.2.1 (hagree c).2.2.2.2.2.2 (hr c)), (h c).2⟩)
      (Cert.ReferenceIdeal.Value.run (F := Ideal) m' ρ')

/-- The certificate: the programs' stated side conditions by their generated witnesses; the three frames; nothing to
    preserve (the ideal pass rewrote no operation); the two idealized programs' results equal. -/
theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
